-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_arg3 : IVec S1000000 32) (main_v82 : IVec S_ 1) (main_v84 : IVec S1000000 1) : IVec S_ 1 :=
  let main_c_33 : IVec S_ 1 := constantI S_ 1 1#1
  let main_v85 : IVec S_ 1 := (fun x v => Host.reduce IntOp.andi x v reducesTo_S1000000_S_d0 h_S_) main_v84 main_c_33
  let main_v86 : IVec S_ 1 := andi main_v82 main_v85
  let main_c_34 : IVec S_ 32 := constantI S_ 32 0#32
  let main_v87 : IVec S1000000 32 := broadcastInDim S1000000 ![] bcast_S_S1000000 main_c_34
  let main_v88 : IVec S1000000 1 := cmpi .sge main_arg3 main_v87
  let main_c_35 : IVec S_ 1 := constantI S_ 1 1#1
  let main_v89 : IVec S_ 1 := (fun x v => Host.reduce IntOp.andi x v reducesTo_S1000000_S_d0 h_S_) main_v88 main_c_35
  let main_v90 : IVec S_ 1 := andi main_v86 main_v89
  let main_c_36 : IVec S_ 32 := constantI S_ 32 100000#32
  let main_v91 : IVec S1000000 32 := broadcastInDim S1000000 ![] bcast_S_S1000000 main_c_36
  let main_v92 : IVec S1000000 1 := cmpi .slt main_arg3 main_v91
  let main_c_37 : IVec S_ 1 := constantI S_ 1 1#1
  let main_v93 : IVec S_ 1 := (fun x v => Host.reduce IntOp.andi x v reducesTo_S1000000_S_d0 h_S_) main_v92 main_c_37
  let main_v94 : IVec S_ 1 := andi main_v90 main_v93
  main_v94

def fn_part4 {F : FTy → Type} [FloatOps F] (main_arg2 : IVec S1000000 32) (main_arg3 : IVec S1000000 32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S1000000 32 := broadcastInDim S1000000 ![] bcast_S_S1000000 main_c_30
  let main_v80 : IVec S1000000 1 := cmpi .sge main_arg2 main_v79
  let main_c_31 : IVec S_ 1 := constantI S_ 1 1#1
  let main_v81 : IVec S_ 1 := (fun x v => Host.reduce IntOp.andi x v reducesTo_S1000000_S_d0 h_S_) main_v80 main_c_31
  let main_v82 : IVec S_ 1 := andi main_v78 main_v81
  let main_c_32 : IVec S_ 32 := constantI S_ 32 100000#32
  let main_v83 : IVec S1000000 32 := broadcastInDim S1000000 ![] bcast_S_S1000000 main_c_32
  let main_v84 : IVec S1000000 1 := cmpi .slt main_arg2 main_v83
  fn_part5 (F := F) main_arg3 main_v82 main_v84

def fn_part3 {F : FTy → Type} [FloatOps F] (main_arg2 : IVec S1000000 32) (main_arg3 : IVec S1000000 32) (main_arg13 : FVec F S64 .f32) (main_arg14 : FVec F S64 .f32) (main_arg15 : FVec F S64 .f32) (main_arg16 : FVec F S64 .f32) (main_arg17 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg16 main_arg17 main_v63 main_v67

def fn_part2 {F : FTy → Type} [FloatOps F] (main_arg2 : IVec S1000000 32) (main_arg3 : IVec S1000000 32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg2 main_arg3 main_arg13 main_arg14 main_arg15 main_arg16 main_arg17 main_v48 main_v49 main_v50

def fn_part1 {F : FTy → Type} [FloatOps F] (main_arg2 : IVec S1000000 32) (main_arg3 : IVec S1000000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S100000x64 .f32) (main_arg1 : FVec F S1000000x64 .f32) (main_arg2 : IVec S1000000 32) (main_arg3 : IVec S1000000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S100000x256 : Shape := ⟨2, ![100000, 256]⟩
abbrev S10000x64 : Shape := ⟨2, ![10000, 64]⟩
abbrev S10000x256 : Shape := ⟨2, ![10000, 256]⟩
abbrev S1x256 : Shape := ⟨2, ![1, 256]⟩
abbrev S100000x128 : Shape := ⟨2, ![100000, 128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S8000x64 : Shape := ⟨2, ![8000, 64]⟩
abbrev S8000x128 : Shape := ⟨2, ![8000, 128]⟩
abbrev S1x64 : Shape := ⟨2, ![1, 64]⟩
abbrev S8000 : Shape := ⟨1, ![8000]⟩
abbrev S8000x1 : Shape := ⟨2, ![8000, 1]⟩
abbrev S10000 : Shape := ⟨1, ![10000]⟩
abbrev S10000x1 : Shape := ⟨2, ![10000, 1]⟩

abbrev nBuf : Space → Nat
  | .hbm => 89
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x256, .f32⟩
  | .hbm, ⟨19, _⟩ => ⟨S256, .f32⟩
  | .hbm, ⟨20, _⟩ => ⟨S100000x256, .f32⟩
  | .hbm, ⟨21, _⟩ => ⟨S100000x64, .f32⟩
  | .hbm, ⟨22, _⟩ => ⟨S100000x128, .f32⟩
  | .hbm, ⟨23, _⟩ => ⟨S100000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1, .i32⟩
  | .hbm, ⟨33, _⟩ => ⟨S_, .i32⟩
  | .hbm, ⟨34, _⟩ => ⟨S1000000x1, .i32⟩
  | .hbm, ⟨35, _⟩ => ⟨S1000000x1, .i1⟩
  | .hbm, ⟨36, _⟩ => ⟨S1x1, .i32⟩
  | .hbm, ⟨37, _⟩ => ⟨S1000000x1, .i32⟩
  | .hbm, ⟨38, _⟩ => ⟨S1000000x1, .i1⟩
  | .hbm, ⟨39, _⟩ => ⟨S1000000x1, .i1⟩
  | .hbm, ⟨40, _⟩ => ⟨S_, .i1⟩
  | .hbm, ⟨41, _⟩ => ⟨S1000000, .i1⟩
  | .hbm, ⟨42, _⟩ => ⟨S1000000x128, .f32⟩
  | .hbm, ⟨43, _⟩ => ⟨S1000000x128, .i1⟩
  | .hbm, ⟨44, _⟩ => ⟨S_, .f32⟩
  | .hbm, ⟨45, _⟩ => ⟨S1000000x128, .f32⟩
  | .hbm, ⟨46, _⟩ => ⟨S1000000x128, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1, .i32⟩
  | .hbm, ⟨56, _⟩ => ⟨S_, .i32⟩
  | .hbm, ⟨57, _⟩ => ⟨S1000000x1, .i32⟩
  | .hbm, ⟨58, _⟩ => ⟨S1000000x1, .i1⟩
  | .hbm, ⟨59, _⟩ => ⟨S1x1, .i32⟩
  | .hbm, ⟨60, _⟩ => ⟨S1000000x1, .i32⟩
  | .hbm, ⟨61, _⟩ => ⟨S1000000x1, .i1⟩
  | .hbm, ⟨62, _⟩ => ⟨S1000000x1, .i1⟩
  | .hbm, ⟨63, _⟩ => ⟨S_, .i1⟩
  | .hbm, ⟨64, _⟩ => ⟨S1000000, .i1⟩
  | .hbm, ⟨65, _⟩ => ⟨S1000000x64, .f32⟩
  | .hbm, ⟨66, _⟩ => ⟨S1000000x64, .i1⟩
  | .hbm, ⟨67, _⟩ => ⟨S_, .f32⟩
  | .hbm, ⟨68, _⟩ => ⟨S1000000x64, .f32⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S_, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S1000000x64, .f32⟩
  | .hbm, ⟨79, _⟩ => ⟨S1000000x64, .f32⟩
  | .hbm, ⟨80, _⟩ => ⟨S_, .f32⟩
  | .hbm, ⟨81, _⟩ => ⟨S100000x64, .f32⟩
  | .hbm, ⟨82, _⟩ => ⟨S1000000x1, .i32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x256, .f32⟩
  | .local _ .vmem, ⟨3, _⟩ => ⟨S256, .f32⟩
  | .local _ .vmem, ⟨4, _⟩ => ⟨S10000x256, .f32⟩
  | .local _ .vmem, ⟨5, _⟩ => ⟨S10000x256, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x128, .f32⟩
  | .local _ .vmem, ⟨11, _⟩ => ⟨S8000x128, .f32⟩
  | .local _ .vmem, ⟨12, _⟩ => ⟨S64x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v6 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v7 : Ref sig .tc := ⟨.hbm, 69, rfl⟩
abbrev main_v8_0 : Ref sig .tc := ⟨.hbm, 70, rfl⟩
abbrev main_v8_1 : Ref sig .tc := ⟨.hbm, 71, rfl⟩
abbrev main_v9 : Ref sig .tc := ⟨.hbm, 72, rfl⟩
abbrev main_v10 : Ref sig .tc := ⟨.hbm, 73, rfl⟩
abbrev main_cst : Ref sig .tc := ⟨.hbm, 74, rfl⟩
abbrev main_v11 : Ref sig .tc := ⟨.hbm, 75, rfl⟩
abbrev main_v12 : Ref sig .tc := ⟨.hbm, 76, rfl⟩
abbrev main_cst_0 : Ref sig .tc := ⟨.hbm, 77, rfl⟩
abbrev main_v13 : Ref sig .tc := ⟨.hbm, 78, rfl⟩
abbrev main_v14 : Ref sig .tc := ⟨.hbm, 79, rfl⟩
abbrev main_cst_1 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_cst_2 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  concatenates_S64x64_S64x64_S64x64_S64x64_S64x256_d1 : Shape.Concatenates [S64x64, S64x64, S64x64, S64x64] S64x256 1
  concatenates_S64_S64_S64_S64_S256_d0 : Shape.Concatenates [S64, S64, S64, S64] S256 0
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  slices_S100000x256_S100000x64_0_0 : S100000x256.Slices ![0, 0] S100000x64
  slices_S100000x256_S100000x128_0_64 : S100000x256.Slices ![0, 64] S100000x128
  slices_S100000x256_S100000x64_0_192 : S100000x256.Slices ![0, 192] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  slices_S8000x128_o0_0_S8000x64 : S8000x128.Slices ![0, 0] S8000x64
  slices_S8000x128_o0_64_S8000x64 : S8000x128.Slices ![0, 64] S8000x64
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  bcast_S_S100000x64 : S_.BroadcastsInDim S100000x64 (![] : Fin 0 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  broadcasts_S1x64_S10000x64 : S1x64.Broadcasts S10000x64
  dot_S10000x64_S64x256_S10000x256_1_0_0_1_n_n_wf : DotDims.WF S10000x64 S64x256 S10000x256 [1] [0] [0] [1] [] []
  gather_S100000x128_S1000000x1_S1000000x128_1_0_n_n_0_1_1128_wf : GatherDims.WF S100000x128 S1000000x1 S1000000x128 [1] [0] [] [0] [] 1 ![1, 128]
  gather_S100000x64_S1000000x1_S1000000x64_1_0_n_n_0_1_164_wf : GatherDims.WF S100000x64 S1000000x1 S1000000x64 [1] [0] [] [0] [] 1 ![1, 64]
  dot_S8000x64_S64x64_S8000x64_1_0_0_1_n_n_wf : DotDims.WF S8000x64 S64x64 S8000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x256.size a ≤ S100000x256.size a
  hwx0_3 : ∀ i : grid0.Coords, EltTy.bits .f32 = 32 ∨ (Rect.block (s := S100000x256) S10000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1000000x64.size a
  hwx1_1 : ∀ i : grid1.Coords, EltTy.bits .f32 = 32 ∨ (Rect.block (s := S1000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1000000x128.size a
  hwx1_2 : ∀ i : grid1.Coords, EltTy.bits .f32 = 32 ∨ (Rect.block (s := S1000000x128) S8000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S1000000x64.size a
  hwx1_7 : ∀ i : grid1.Coords, EltTy.bits .f32 = 32 ∨ (Rect.block (s := S1000000x64) S8000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x64.size a ≤ S1000000x64.size a
  hwx1_8 : ∀ i : grid1.Coords, EltTy.bits .f32 = 32 ∨ (Rect.block (s := S1000000x64) S8000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S8000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S8000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S1000000x64, .f32⟩
  | 2 => ⟨S1000000, .i32⟩
  | 3 => ⟨S1000000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S1000000x64, .f32⟩
  | 35 => ⟨S1x64, .f32⟩
  | 36 => ⟨S1000000x64, .f32⟩
  | 37 => ⟨S1000000x64, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x64, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x64, .f32⟩
  | 56 => ⟨S1000000x64, .f32⟩
  | 57 => ⟨S1000000x64, .f32⟩
  | 58 => ⟨S_, .f32⟩
  | 59 => ⟨S1000000, .f32⟩
  | 60 => ⟨S1000000x1, .f32⟩
  | 61 => ⟨S_, .f32⟩
  | 62 => ⟨S1000000x1, .f32⟩
  | 63 => ⟨S1000000x1, .f32⟩
  | 64 => ⟨S1000000x64, .f32⟩
  | 65 => ⟨S1000000x64, .f32⟩
  | 66 => ⟨S1000000x64, .f32⟩
  | 67 => ⟨S_, .f32⟩
  | 68 => ⟨S1000000, .f32⟩
  | 69 => ⟨S1000000x1, .f32⟩
  | 70 => ⟨S_, .f32⟩
  | 71 => ⟨S1000000x1, .f32⟩
  | 72 => ⟨S1000000x1, .f32⟩
  | 73 => ⟨S1000000x64, .f32⟩
  | 74 => ⟨S1000000x64, .f32⟩
  | 75 => ⟨S_, .f32⟩
  | 76 => ⟨S1000000x1, .f32⟩
  | 77 => ⟨S1000000x1, .f32⟩
  | 78 => ⟨S1000000x1, .f32⟩
  | 79 => ⟨S1000000x64, .f32⟩
  | 80 => ⟨S1000000x64, .f32⟩
  | 81 => ⟨S1x64, .f32⟩
  | 82 => ⟨S1000000x64, .f32⟩
  | 83 => ⟨S1000000x64, .f32⟩
  | 84 => ⟨S1x64, .f32⟩
  | 85 => ⟨S1000000x64, .f32⟩
  | 86 => ⟨S1000000x64, .f32⟩
  | 87 => ⟨S_, .f32⟩
  | 88 => ⟨S1000000x64, .f32⟩
  | 89 => ⟨S1000000x64, .f32⟩
  | 90 => ⟨S1000000x64, .f32⟩
  | 91 => ⟨S1000000x64, .f32⟩
  | 92 => ⟨S1000000x64, .f32⟩
  | 93 => ⟨S_, .f32⟩
  | 94 => ⟨S1000000x64, .f32⟩
  | 95 => ⟨S1000000x64, .f32⟩
  | 96 => ⟨S_, .f32⟩
  | 97 => ⟨S1000000x64, .f32⟩
  | 98 => ⟨S1000000x64, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x64, .f32⟩
  | 108 => ⟨S1000000x64, .f32⟩
  | 109 => ⟨S_, .f32⟩
  | 110 => ⟨S100000x64, .f32⟩
  | 111 => ⟨S1000000x1, .i32⟩
  | 112 => ⟨S100000x64, .f32⟩
  | 113 => ⟨S_, .f32⟩
  | 114 => ⟨S100000x64, .f32⟩
  | 115 => ⟨S1000000x1, .i32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S100000x64, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x64, .f32⟩
  | 10 => ⟨S100000x64, .f32⟩
  | 11 => ⟨S_, .f32⟩
  | 12 => ⟨S100000x1, .f32⟩
  | 13 => ⟨S100000x1, .f32⟩
  | 14 => ⟨S100000x1, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call0_cst : Ref sig .tc := ⟨.hbm, 87, rfl⟩
abbrev main_call0_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_c_9 : Ref sig .tc := ⟨.hbm, 99, rfl⟩
abbrev main_v68 : Ref sig .tc := ⟨.hbm, 100, rfl⟩
abbrev main_v69 : Ref sig .tc := ⟨.hbm, 101, rfl⟩
abbrev main_c_10 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_14 : Ref sig .tc := ⟨.hbm, 122, rfl⟩
abbrev main_v86 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_call1_cst : Ref sig .tc := ⟨.hbm, 151, rfl⟩
abbrev main_call1_v0 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.K.Body0.lean ====
/-
  The first kernel region: every block of 10000 node rows times the 64 × 256 matrix of four weight matrices side by
  side, plus the row of their four biases. What one grid point leaves in the output block is a function of that
  point's block of node rows and of the two parameter arrays, which every point sees whole; the region's proof data
  record exactly that, and the kernel body is run symbolically once, at an arbitrary point.
-/
import proofs.«423548_j53180285059709_3_alg».proof.Proof.Gen.Kernel.Launch
import proofs.«423548_j53180285059709_3_alg».proof.Proof.Gen.Kernel.Skeleton
import proofs.«423548_j53180285059709_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds that window's block at every point, whether or not the point fetches it:
    where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S10000x64 := Rect.unit (s := S10000x64) ![0, 0] S10000x64.size inb_S10000x64_S10000x64_0_0
abbrev r0_1 : Rect S64x256 := Rect.unit (s := S64x256) ![0, 0] S64x256.size inb_S64x256_S64x256_0_0
abbrev r0_2 : Rect S256 := Rect.unit (s := S256) ![0] S256.size inb_S256_S256_0
abbrev r0_3 : Rect S10000x256 := Rect.unit (s := S10000x256) ![0, 0] S10000x256.size inb_S10000x256_S10000x256_0_0

/-- What the body leaves in the output block, from the three input blocks: its one store, of the product plus bias. -/
def out0_3 (x0 : Vec F S10000x64 .f32) (x1 : Vec F S64x256 .f32) (x2 : Vec F S256 .f32) : Vec F S10000x256 .f32 :=
  View.canon [⟨r0_3, k0_pay1 (View.ld x0 r0_0) (View.ld x1 r0_1) (View.ld x2 r0_2)⟩]

/-- The one store covers the whole block. -/
theorem cover0_3 (p0 : Vec F S10000x256 .f32) (y : S10000x256.Idx) :
    ∃ pc ∈ ([⟨r0_3, p0⟩] : List (View.Piece (Elt F) S10000x256 .f32)), y ∈ pc.1.set :=
  View.cover_of_tiled [⟨r0_3, p0⟩] S10000x256.size (by rfl) y

set_option maxHeartbeats 1000000 in
/-- The body on whole buffers, the inputs at given contents and the output at anything, runs to its end leaving the
    inputs as they were and the output at `out0_3` of them. -/
theorem sound_kernel0 (c : Dev nD) (E : Set ℕ) (i : grid0.Coords) (arg1 : Memref sig .tc .vmem S10000x64 .f32) (harg1 : arg1.IsWhole) (arg2 : Memref sig .tc .vmem S64x256 .f32) (harg2 : arg2.IsWhole) (arg3 : Memref sig .tc .vmem S256 .f32) (harg3 : arg3.IsWhole) (arg4 : Memref sig .tc .vmem S10000x256 .f32) (harg4 : arg4.IsWhole)
    (x0 : Vec F S10000x64 .f32) (x1 : Vec F S64x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The region's proof data on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second kernel region: on every block of 8000 edges, the edge's own row through a linear layer, added to the two
  rows gathered for it (the second half of the 128-wide gathered block and the 64-wide one), normalised along the row,
  scaled and shifted, rectified, and added back to the edge's row: the edge's new row, the first output. The second
  output is the first half of the 128-wide gathered block times the logistic of the first output. What one grid point
  leaves in the two output blocks is a function of that point's three edge blocks and of the four parameter arrays,
  which every point sees whole.
-/
import proofs.«423548_j53180285059709_3_alg».proof.Proof.Gen.Kernel.Launch
import proofs.«423548_j53180285059709_3_alg».proof.Proof.Gen.Kernel.Skeleton
import proofs.«423548_j53180285059709_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds that window's block at every point, whether or not the point fetches it:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S8000x64 := Rect.unit (s := S8000x64) ![0, 0] S8000x64.size inb_S8000x64_S8000x64_0_0
abbrev r1_c : Rect S8000x128 := Rect.unit (s := S8000x128) ![0, 0] S8000x128.size inb_S8000x128_S8000x128_0_0
abbrev r1_w : Rect S64x64 := Rect.unit (s := S64x64) ![0, 0] S64x64.size inb_S64x64_S64x64_0_0
abbrev r1_v : Rect S64 := Rect.unit (s := S64) ![0] S64.size inb_S64_S64_0

/-- The normalised, scaled sum of the three rows (before the shift), from the input blocks. -/
def mid1 (x0 x1 : Vec F S8000x64 .f32) (x2 : Vec F S8000x128 .f32) (x3 : Vec F S64x64 .f32) (x4 x5 : Vec F S64 .f32) : FVec F S8000x64 .f32 :=
  k1_pay5 (View.ld x0 r1_a) (View.ld x3 r1_w) (View.ld x4 r1_v) (View.ld x2 r1_c) (View.ld x1 r1_a) (View.ld x5 r1_v)

/-- What the body leaves in the first output block: the edge's new row. -/
def out1_7 (x0 x1 : Vec F S8000x64 .f32) (x2 : Vec F S8000x128 .f32) (x3 : Vec F S64x64 .f32) (x4 x5 x6 : Vec F S64 .f32) : Vec F S8000x64 .f32 :=
  View.canon [⟨r1_a, k1_pay1 (View.ld x0 r1_a) (mid1 x0 x1 x2 x3 x4 x5) (k1_pay6 (View.ld x6 r1_v))⟩]

/-- What the body leaves in the second output block: the gated message. -/
def out1_8 (x0 x1 : Vec F S8000x64 .f32) (x2 : Vec F S8000x128 .f32) (x3 : Vec F S64x64 .f32) (x4 x5 x6 : Vec F S64 .f32) : Vec F S8000x64 .f32 :=
  View.canon [⟨r1_a, k1_pay2 (View.ld x0 r1_a) (k1_pay4 (View.ld x2 r1_c)) (mid1 x0 x1 x2 x3 x4 x5) (k1_pay6 (View.ld x6 r1_v))⟩]

/-- One whole-block store covers the block. -/
theorem cover1 (p0 : Vec F S8000x64 .f32) (y : S8000x64.Idx) :
    ∃ pc ∈ ([⟨r1_a, p0⟩] : List (View.Piece (Elt F) S8000x64 .f32)), y ∈ pc.1.set :=
  View.cover_of_tiled [⟨r1_a, p0⟩] S8000x64.size (by rfl) y

set_option maxHeartbeats 4000000 in
/-- The body on whole buffers, the inputs at given contents and the outputs at anything, runs to its end leaving the
    inputs as they were and the two outputs at `out1_7` and `out1_8` of them. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x128 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S8000x64 .f32) (harg8 : arg8.IsWhole) (arg9 : Memref sig .tc .vmem S8000x64 .f32) (harg9 : arg9.IsWhole)
    (x0 x1 : Vec F S8000x64 .f32) (x2 : Vec F S8000x128 .f32) (x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1 _)
  iexists _; isplitr
  swap; · iexact H8
  ipureintro
  try dsimp only
  exact View.read_writes_eq_canon _ _ _ (cover1 _)

/-- The region's proof data on core `c`: the arrays as the region finds them; after the body at point `t` each input's
    buffer at its block and the two outputs' at `out1_7` and `out1_8` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The third kernel region: on every block of 10000 nodes, the quotient of the two sums over incoming edges (the
  denominator plus a small constant), added to one linear image of the node's row, normalised along the row, scaled and
  shifted, rectified, and added back to the node's row. What one grid point leaves in the output block is a function of
  that point's four node blocks and of the two parameter rows, which every point sees whole.
-/
import proofs.«423548_j53180285059709_3_alg».proof.Proof.Gen.Kernel.Launch
import proofs.«423548_j53180285059709_3_alg».proof.Proof.Gen.Kernel.Skeleton
import proofs.«423548_j53180285059709_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds that window's block at every point, whether or not the point fetches it:
    where it is not fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S10000x64 := Rect.unit (s := S10000x64) ![0, 0] S10000x64.size inb_S10000x64_S10000x64_0_0
abbrev r2_v : Rect S64 := Rect.unit (s := S64) ![0] S64.size inb_S64_S64_0

/-- What the body leaves in the output block: the node's new row. -/
def out2_6 (x0 x1 x2 x3 : Vec F S10000x64 .f32) (x4 x5 : Vec F S64 .f32) : Vec F S10000x64 .f32 :=
  View.canon [⟨r2_a, k2_pay1 (View.ld x2 r2_a) (View.ld x3 r2_a) (View.ld x1 r2_a) (View.ld x4 r2_v) (View.ld x5 r2_v) (View.ld x0 r2_a)⟩]

/-- The one store covers the whole block. -/
theorem cover2 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole buffers, the inputs at given contents and the output at anything, runs to its end leaving the
    inputs as they were and the output at `out2_6` of them. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S64 .f32) (harg5 : arg5.IsWhole) (arg6 : Memref sig .tc .vmem S64 .f32) (harg6 : arg6.IsWhole) (arg7 : Memref sig .tc .vmem S10000x64 .f32) (harg7 : arg7.IsWhole)
    (x0 x1 x2 x3 : Vec F S10000x64 .f32) (x4 x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__node_final_kernel i arg1 harg1 arg2 harg2 arg3 harg3 arg4 harg4 arg5 harg5 arg6 harg6 arg7 harg7) K := by
  simp only [cc2__node_final_kernel_eq_skeleton]; unfold cc2__node_final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2 _)

/-- The region's proof data on core `c`: the arrays as the region finds them; after the body at point `t` each input's
    buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as a run. Between two items of the program every buffer of a core holds known contents: the launch
  contents, then what each stretch of host operations computes from them, then — at a kernel region's exit — the
  region's input arrays as they entered and each output array at what its grid points wrote back. The three regions and
  the five host stretches chain from the launch to the return, so every weakly fair execution terminates without a
  fault and ends with every buffer at the last of these contents. Read at an argument that is the launch contents (no
  item writes an argument); read at a result it is the value the value lemmas open.
-/
import proofs.«423548_j53180285059709_3_alg».proof.Proof.Gen.Kernel.Launch
import proofs.«423548_j53180285059709_3_alg».proof.Proof.Gen.Kernel.Skeleton
import proofs.«423548_j53180285059709_3_alg».proof.Proof.Gen.Kernel.Points
import proofs.«423548_j53180285059709_3_alg».proof.Proof.Gen.Kernel.Regions
import proofs.«423548_j53180285059709_3_alg».proof.Proof.K.Body0
import proofs.«423548_j53180285059709_3_alg».proof.Proof.K.Body1
import proofs.«423548_j53180285059709_3_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- Core `c`'s buffers at launch. -/
abbrev W0 : Dev nD → Valuation τ sig (Elt F) := fun c b => (s₀ m ρ).mem ((c : Dev nD), b)
/-- After the first host stretch (the two concatenations): region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves (an input as entered, an output at its write-backs folded
    over the grid), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the three slices. -/
abbrev W3 : Dev nD → Valuation τ sig (Elt F) := fun c => StableHlo.after hostOps1 (W2 m ρ c)
/-- After the first take. -/
abbrev W4 : Dev nD → Valuation τ sig (Elt F) := fun c => StableHlo.after hostOps1_1 (W3 m ρ c)
/-- After the second take: region 1's entry. -/
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- At region 1's exit: its arrays at what the pipeline leaves (an input as entered, an output at its write-backs folded
    over the grid), every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (U5 m ρ) c).arrAt_in w hw _).trans (A_eq1 (U5 m ρ) c w))

/-- After the gate and the two scatter-adds: region 2's entry. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- At region 2's exit: its arrays at what the pipeline leaves (an input as entered, an output at its write-backs folded
    over the grid), every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (U7 m ρ) c).arrAt_in w hw _).trans (A_eq2 (U7 m ρ) c w))

/-! ## What each item leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W5_of (c : Dev nD) (r : Ref sig .tc) (h : r ∉ hostOps1_2_W) : W5 m ρ c r = W4 m ρ c r :=
  StableHlo.after_of_writes_sub hostOps1_2 _ hostOps1_2_writes h
theorem W7_of (c : Dev nD) (r : Ref sig .tc) (h : r ∉ hostOps2_W) : W7 m ρ c r = W6 m ρ c r :=
  StableHlo.after_of_writes_sub hostOps2 _ hostOps2_writes h

/-- A region changes none of its arrays but its outputs: an input window's array is handed back as it entered, and a
    buffer that is no array of the region is not touched. -/
theorem W2_keep (c : Dev nD) (b : Ref sig .tc) (hb : b ≠ main_v2) : W2 m ρ c b = W1 m ρ c b := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact W2_in m ρ c w hw
  · exact W2_of_ne m ρ c b fun w e => h ⟨w, e⟩
theorem W6_keep (c : Dev nD) (b : Ref sig .tc) (hb0 : b ≠ main_v8_0) (hb1 : b ≠ main_v8_1) : W6 m ρ c b = W5 m ρ c b := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb0
      | ⟨8, _⟩ => exact absurd rfl hb1
    exact W6_in m ρ c w hw
  · exact W6_of_ne m ρ c b fun w e => h ⟨w, e⟩
theorem W8_keep (c : Dev nD) (b : Ref sig .tc) (hb : b ≠ main_v21) : W8 m ρ c b = W7 m ρ c b := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact W8_in m ρ c w hw
  · exact W8_of_ne m ρ c b fun w e => h ⟨w, e⟩

/-- The buffers some item of the program writes. -/
abbrev written : List (Ref sig .tc) :=
  hostOps0_W ++ [main_v2] ++ hostOps1_W ++ hostOps1_1_W ++ hostOps1_2_W ++ [main_v8_0, main_v8_1] ++ hostOps2_W ++ [main_v21]

/-- A buffer no item writes ends as launched. -/
theorem W8_stable (c : Dev nD) (b : Ref sig .tc) (h0 : b ∉ hostOps0_W) (h1 : b ≠ main_v2) (h2 : b ∉ hostOps1_W) (h3 : b ∉ hostOps1_1_W)
    (h4 : b ∉ hostOps1_2_W) (h5 : b ≠ main_v8_0) (h5' : b ≠ main_v8_1) (h6 : b ∉ hostOps2_W) (h7 : b ≠ main_v21) :
    W8 m ρ c b = m ((c : Thread nD τ).loc b) :=
  (W8_keep m ρ c b h7).trans <| (W7_of m ρ c b h6).trans <| (W6_keep m ρ c b h5 h5').trans <| (W5_of m ρ c b h4).trans <|
    (W4_of m ρ c b h3).trans <| (W3_of m ρ c b h2).trans <| (W2_keep m ρ c b h1).trans <| (W1_of m ρ c b h0).trans rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U5 m ρ) c
  | ⟨2, _⟩ => fun c => dat2 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its
    arrays are split out of the unscoped buffers on entry and put back at the exit contents; the generator register
    goes into the region's invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers on entry and put back at the exit contents; the generator register
    goes into the region's invariant and comes out; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W7`, left with them at `W8`. Its
    arrays are split out of the unscoped buffers on entry and put back at the exit contents; the generator register
    goes into the region's invariant and comes out; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's eight items in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]

/-- The program is the run of its items. -/
theorem main_run (c : Dev nD) : main (F := F) c = Pipeline.Seg.run (psegs m ρ) := by
  rw [main_chain c, Pipeline.Seg.run_eq_chain]
  rfl

set_option backward.isDefEq.respectTransparency.types false in
/-- THE RUN: from any memory with zero counters every weakly fair execution of the program terminates, nothing
    faulting, and every unscoped buffer of every core ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The frame -/

set_option hygiene false in
/-- A buffer no item writes is read back, at the end of the run, at its launch contents. -/
local macro "kept% " a:term : term =>
  `((h c _ (mem_uc $a (by decide))).trans (W8_stable m ρ c $a (by decide) (by decide) (by decide) (by decide) (by decide) (by decide) (by decide) (by decide) (by decide)))

/-- THE FRAME: every weakly fair execution of the program terminates without a fault and every argument array ends
    holding its launch contents: no host stretch writes an argument and a region hands an input array back as it
    entered. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨kept% main_arg0, kept% main_arg1, kept% main_arg2, kept% main_arg3, kept% main_arg4, kept% main_arg5, kept% main_arg6, kept% main_arg7, kept% main_arg8, kept% main_arg9, kept% main_arg10, kept% main_arg11, kept% main_arg12, kept% main_arg13, kept% main_arg14, kept% main_arg15, kept% main_arg16, kept% main_arg17⟩) (run_all m ρ)

end Cert.Kernel.Hand

end
-- ==== Proof.KI.Body0.lean ====
/-
  The first kernel region: every block of 10000 node rows times the 64 × 256 matrix of four weight matrices side by
  side, plus the row of their four biases. What one grid point leaves in the output block is a function of that
  point's block of node rows and of the two parameter arrays, which every point sees whole; the region's proof data
  record exactly that, and the kernel body is run symbolically once, at an arbitrary point.
-/
import proofs.«423548_j53180285059709_3_alg».proof.Proof.Gen.KernelIdeal.Launch
import proofs.«423548_j53180285059709_3_alg».proof.Proof.Gen.KernelIdeal.Skeleton
import proofs.«423548_j53180285059709_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds that window's block at every point, whether or not the point fetches it:
    where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S10000x64 := Rect.unit (s := S10000x64) ![0, 0] S10000x64.size inb_S10000x64_S10000x64_0_0
abbrev r0_1 : Rect S64x256 := Rect.unit (s := S64x256) ![0, 0] S64x256.size inb_S64x256_S64x256_0_0
abbrev r0_2 : Rect S256 := Rect.unit (s := S256) ![0] S256.size inb_S256_S256_0
abbrev r0_3 : Rect S10000x256 := Rect.unit (s := S10000x256) ![0, 0] S10000x256.size inb_S10000x256_S10000x256_0_0

/-- What the body leaves in the output block, from the three input blocks: its one store, of the product plus bias. -/
def out0_3 (x0 : Vec F S10000x64 .f32) (x1 : Vec F S64x256 .f32) (x2 : Vec F S256 .f32) : Vec F S10000x256 .f32 :=
  View.canon [⟨r0_3, k0_pay1 (View.ld x0 r0_0) (View.ld x1 r0_1) (View.ld x2 r0_2)⟩]

/-- The one store covers the whole block. -/
theorem cover0_3 (p0 : Vec F S10000x256 .f32) (y : S10000x256.Idx) :
    ∃ pc ∈ ([⟨r0_3, p0⟩] : List (View.Piece (Elt F) S10000x256 .f32)), y ∈ pc.1.set :=
  View.cover_of_tiled [⟨r0_3, p0⟩] S10000x256.size (by rfl) y

set_option maxHeartbeats 1000000 in
/-- The body on whole buffers, the inputs at given contents and the output at anything, runs to its end leaving the
    inputs as they were and the output at `out0_3` of them. -/
theorem sound_kernel0 (c : Dev nD) (E : Set ℕ) (i : grid0.Coords) (arg1 : Memref sig .tc .vmem S10000x64 .f32) (harg1 : arg1.IsWhole) (arg2 : Memref sig .tc .vmem S64x256 .f32) (harg2 : arg2.IsWhole) (arg3 : Memref sig .tc .vmem S256 .f32) (harg3 : arg3.IsWhole) (arg4 : Memref sig .tc .vmem S10000x256 .f32) (harg4 : arg4.IsWhole)
    (x0 : Vec F S10000x64 .f32) (x1 : Vec F S64x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The region's proof data on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second kernel region: on every block of 8000 edges, the edge's own row through a linear layer, added to the two
  rows gathered for it (the second half of the 128-wide gathered block and the 64-wide one), normalised along the row,
  scaled and shifted, rectified, and added back to the edge's row: the edge's new row, the first output. The second
  output is the first half of the 128-wide gathered block times the logistic of the first output. What one grid point
  leaves in the two output blocks is a function of that point's three edge blocks and of the four parameter arrays,
  which every point sees whole.
-/
import proofs.«423548_j53180285059709_3_alg».proof.Proof.Gen.KernelIdeal.Launch
import proofs.«423548_j53180285059709_3_alg».proof.Proof.Gen.KernelIdeal.Skeleton
import proofs.«423548_j53180285059709_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds that window's block at every point, whether or not the point fetches it:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S8000x64 := Rect.unit (s := S8000x64) ![0, 0] S8000x64.size inb_S8000x64_S8000x64_0_0
abbrev r1_c : Rect S8000x128 := Rect.unit (s := S8000x128) ![0, 0] S8000x128.size inb_S8000x128_S8000x128_0_0
abbrev r1_w : Rect S64x64 := Rect.unit (s := S64x64) ![0, 0] S64x64.size inb_S64x64_S64x64_0_0
abbrev r1_v : Rect S64 := Rect.unit (s := S64) ![0] S64.size inb_S64_S64_0

/-- The normalised, scaled sum of the three rows (before the shift), from the input blocks. -/
def mid1 (x0 x1 : Vec F S8000x64 .f32) (x2 : Vec F S8000x128 .f32) (x3 : Vec F S64x64 .f32) (x4 x5 : Vec F S64 .f32) : FVec F S8000x64 .f32 :=
  k1_pay5 (View.ld x0 r1_a) (View.ld x3 r1_w) (View.ld x4 r1_v) (View.ld x2 r1_c) (View.ld x1 r1_a) (View.ld x5 r1_v)

/-- What the body leaves in the first output block: the edge's new row. -/
def out1_7 (x0 x1 : Vec F S8000x64 .f32) (x2 : Vec F S8000x128 .f32) (x3 : Vec F S64x64 .f32) (x4 x5 x6 : Vec F S64 .f32) : Vec F S8000x64 .f32 :=
  View.canon [⟨r1_a, k1_pay1 (View.ld x0 r1_a) (mid1 x0 x1 x2 x3 x4 x5) (k1_pay6 (View.ld x6 r1_v))⟩]

/-- What the body leaves in the second output block: the gated message. -/
def out1_8 (x0 x1 : Vec F S8000x64 .f32) (x2 : Vec F S8000x128 .f32) (x3 : Vec F S64x64 .f32) (x4 x5 x6 : Vec F S64 .f32) : Vec F S8000x64 .f32 :=
  View.canon [⟨r1_a, k1_pay2 (View.ld x0 r1_a) (k1_pay4 (View.ld x2 r1_c)) (mid1 x0 x1 x2 x3 x4 x5) (k1_pay6 (View.ld x6 r1_v))⟩]

/-- One whole-block store covers the block. -/
theorem cover1 (p0 : Vec F S8000x64 .f32) (y : S8000x64.Idx) :
    ∃ pc ∈ ([⟨r1_a, p0⟩] : List (View.Piece (Elt F) S8000x64 .f32)), y ∈ pc.1.set :=
  View.cover_of_tiled [⟨r1_a, p0⟩] S8000x64.size (by rfl) y

set_option maxHeartbeats 4000000 in
/-- The body on whole buffers, the inputs at given contents and the outputs at anything, runs to its end leaving the
    inputs as they were and the two outputs at `out1_7` and `out1_8` of them. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x128 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S8000x64 .f32) (harg8 : arg8.IsWhole) (arg9 : Memref sig .tc .vmem S8000x64 .f32) (harg9 : arg9.IsWhole)
    (x0 x1 : Vec F S8000x64 .f32) (x2 : Vec F S8000x128 .f32) (x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1 _)
  iexists _; isplitr
  swap; · iexact H8
  ipureintro
  try dsimp only
  exact View.read_writes_eq_canon _ _ _ (cover1 _)

/-- The region's proof data on core `c`: the arrays as the region finds them; after the body at point `t` each input's
    buffer at its block and the two outputs' at `out1_7` and `out1_8` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The third kernel region: on every block of 10000 nodes, the quotient of the two sums over incoming edges (the
  denominator plus a small constant), added to one linear image of the node's row, normalised along the row, scaled and
  shifted, rectified, and added back to the node's row. What one grid point leaves in the output block is a function of
  that point's four node blocks and of the two parameter rows, which every point sees whole.
-/
import proofs.«423548_j53180285059709_3_alg».proof.Proof.Gen.KernelIdeal.Launch
import proofs.«423548_j53180285059709_3_alg».proof.Proof.Gen.KernelIdeal.Skeleton
import proofs.«423548_j53180285059709_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds that window's block at every point, whether or not the point fetches it:
    where it is not fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S10000x64 := Rect.unit (s := S10000x64) ![0, 0] S10000x64.size inb_S10000x64_S10000x64_0_0
abbrev r2_v : Rect S64 := Rect.unit (s := S64) ![0] S64.size inb_S64_S64_0

/-- What the body leaves in the output block: the node's new row. -/
def out2_6 (x0 x1 x2 x3 : Vec F S10000x64 .f32) (x4 x5 : Vec F S64 .f32) : Vec F S10000x64 .f32 :=
  View.canon [⟨r2_a, k2_pay1 (View.ld x2 r2_a) (View.ld x3 r2_a) (View.ld x1 r2_a) (View.ld x4 r2_v) (View.ld x5 r2_v) (View.ld x0 r2_a)⟩]

/-- The one store covers the whole block. -/
theorem cover2 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole buffers, the inputs at given contents and the output at anything, runs to its end leaving the
    inputs as they were and the output at `out2_6` of them. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S64 .f32) (harg5 : arg5.IsWhole) (arg6 : Memref sig .tc .vmem S64 .f32) (harg6 : arg6.IsWhole) (arg7 : Memref sig .tc .vmem S10000x64 .f32) (harg7 : arg7.IsWhole)
    (x0 x1 x2 x3 : Vec F S10000x64 .f32) (x4 x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__node_final_kernel i arg1 harg1 arg2 harg2 arg3 harg3 arg4 harg4 arg5 harg5 arg6 harg6 arg7 harg7) K := by
  simp only [cc2__node_final_kernel_eq_skeleton]; unfold cc2__node_final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2 _)

/-- The region's proof data on core `c`: the arrays as the region finds them; after the body at point `t` each input's
    buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a run. Between two items of the program every buffer of a core holds known contents: the launch
  contents, then what each stretch of host operations computes from them, then — at a kernel region's exit — the
  region's input arrays as they entered and each output array at what its grid points wrote back. The three regions and
  the five host stretches chain from the launch to the return, so every weakly fair execution terminates without a
  fault and ends with every buffer at the last of these contents. Read at an argument that is the launch contents (no
  item writes an argument); read at a result it is the value the value lemmas open.
-/
import proofs.«423548_j53180285059709_3_alg».proof.Proof.Gen.KernelIdeal.Launch
import proofs.«423548_j53180285059709_3_alg».proof.Proof.Gen.KernelIdeal.Skeleton
import proofs.«423548_j53180285059709_3_alg».proof.Proof.Gen.KernelIdeal.Points
import proofs.«423548_j53180285059709_3_alg».proof.Proof.Gen.KernelIdeal.Regions
import proofs.«423548_j53180285059709_3_alg».proof.Proof.KI.Body0
import proofs.«423548_j53180285059709_3_alg».proof.Proof.KI.Body1
import proofs.«423548_j53180285059709_3_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- Core `c`'s buffers at launch. -/
abbrev W0 : Dev nD → Valuation τ sig (Elt F) := fun c b => (s₀ m ρ).mem ((c : Dev nD), b)
/-- After the first host stretch (the two concatenations): region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves (an input as entered, an output at its write-backs folded
    over the grid), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the three slices. -/
abbrev W3 : Dev nD → Valuation τ sig (Elt F) := fun c => StableHlo.after hostOps1 (W2 m ρ c)
/-- After the first take. -/
abbrev W4 : Dev nD → Valuation τ sig (Elt F) := fun c => StableHlo.after hostOps1_1 (W3 m ρ c)
/-- After the second take: region 1's entry. -/
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- At region 1's exit: its arrays at what the pipeline leaves (an input as entered, an output at its write-backs folded
    over the grid), every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (U5 m ρ) c).arrAt_in w hw _).trans (A_eq1 (U5 m ρ) c w))

/-- After the gate and the two scatter-adds: region 2's entry. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- At region 2's exit: its arrays at what the pipeline leaves (an input as entered, an output at its write-backs folded
    over the grid), every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (U7 m ρ) c).arrAt_in w hw _).trans (A_eq2 (U7 m ρ) c w))

/-! ## What each item leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W5_of (c : Dev nD) (r : Ref sig .tc) (h : r ∉ hostOps1_2_W) : W5 m ρ c r = W4 m ρ c r :=
  StableHlo.after_of_writes_sub hostOps1_2 _ hostOps1_2_writes h
theorem W7_of (c : Dev nD) (r : Ref sig .tc) (h : r ∉ hostOps2_W) : W7 m ρ c r = W6 m ρ c r :=
  StableHlo.after_of_writes_sub hostOps2 _ hostOps2_writes h

/-- A region changes none of its arrays but its outputs: an input window's array is handed back as it entered, and a
    buffer that is no array of the region is not touched. -/
theorem W2_keep (c : Dev nD) (b : Ref sig .tc) (hb : b ≠ main_v2) : W2 m ρ c b = W1 m ρ c b := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact W2_in m ρ c w hw
  · exact W2_of_ne m ρ c b fun w e => h ⟨w, e⟩
theorem W6_keep (c : Dev nD) (b : Ref sig .tc) (hb0 : b ≠ main_v8_0) (hb1 : b ≠ main_v8_1) : W6 m ρ c b = W5 m ρ c b := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb0
      | ⟨8, _⟩ => exact absurd rfl hb1
    exact W6_in m ρ c w hw
  · exact W6_of_ne m ρ c b fun w e => h ⟨w, e⟩
theorem W8_keep (c : Dev nD) (b : Ref sig .tc) (hb : b ≠ main_v21) : W8 m ρ c b = W7 m ρ c b := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact W8_in m ρ c w hw
  · exact W8_of_ne m ρ c b fun w e => h ⟨w, e⟩

/-- The buffers some item of the program writes. -/
abbrev written : List (Ref sig .tc) :=
  hostOps0_W ++ [main_v2] ++ hostOps1_W ++ hostOps1_1_W ++ hostOps1_2_W ++ [main_v8_0, main_v8_1] ++ hostOps2_W ++ [main_v21]

/-- A buffer no item writes ends as launched. -/
theorem W8_stable (c : Dev nD) (b : Ref sig .tc) (h0 : b ∉ hostOps0_W) (h1 : b ≠ main_v2) (h2 : b ∉ hostOps1_W) (h3 : b ∉ hostOps1_1_W)
    (h4 : b ∉ hostOps1_2_W) (h5 : b ≠ main_v8_0) (h5' : b ≠ main_v8_1) (h6 : b ∉ hostOps2_W) (h7 : b ≠ main_v21) :
    W8 m ρ c b = m ((c : Thread nD τ).loc b) :=
  (W8_keep m ρ c b h7).trans <| (W7_of m ρ c b h6).trans <| (W6_keep m ρ c b h5 h5').trans <| (W5_of m ρ c b h4).trans <|
    (W4_of m ρ c b h3).trans <| (W3_of m ρ c b h2).trans <| (W2_keep m ρ c b h1).trans <| (W1_of m ρ c b h0).trans rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U5 m ρ) c
  | ⟨2, _⟩ => fun c => dat2 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its
    arrays are split out of the unscoped buffers on entry and put back at the exit contents; the generator register
    goes into the region's invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers on entry and put back at the exit contents; the generator register
    goes into the region's invariant and comes out; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W7`, left with them at `W8`. Its
    arrays are split out of the unscoped buffers on entry and put back at the exit contents; the generator register
    goes into the region's invariant and comes out; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's eight items in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]

/-- The program is the run of its items. -/
theorem main_run (c : Dev nD) : main (F := F) c = Pipeline.Seg.run (psegs m ρ) := by
  rw [main_chain c, Pipeline.Seg.run_eq_chain]
  rfl

set_option backward.isDefEq.respectTransparency.types false in
/-- THE RUN: from any memory with zero counters every weakly fair execution of the program terminates, nothing
    faulting, and every unscoped buffer of every core ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The frame -/

set_option hygiene false in
/-- A buffer no item writes is read back, at the end of the run, at its launch contents. -/
local macro "kept% " a:term : term =>
  `((h c _ (mem_uc $a (by decide))).trans (W8_stable m ρ c $a (by decide) (by decide) (by decide) (by decide) (by decide) (by decide) (by decide) (by decide) (by decide)))

/-- THE FRAME: every weakly fair execution of the program terminates without a fault and every argument array ends
    holding its launch contents: no host stretch writes an argument and a region hands an input array back as it
    entered. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨kept% main_arg0, kept% main_arg1, kept% main_arg2, kept% main_arg3, kept% main_arg4, kept% main_arg5, kept% main_arg6, kept% main_arg7, kept% main_arg8, kept% main_arg9, kept% main_arg10, kept% main_arg11, kept% main_arg12, kept% main_arg13, kept% main_arg14, kept% main_arg15, kept% main_arg16, kept% main_arg17⟩) (run_all m ρ)

end Cert.KernelIdeal.Hand

end
-- ==== Proof.KI.Val0.lean ====
/-
  The first kernel's stored value, read at one row and one column.

  The kernel narrows a block of 10000 node rows and the 64 × 256 matrix to the half-width format — the identity on
  the extended reals —, multiplies them into a zero accumulator, and adds the bias row, cast to a 1 × 256 matrix and
  repeated down the 10000 rows. At row `r` and column `j` that is the sum over the 64 contracted positions of the
  row's entry times the matrix's entry, plus the bias at `j`.
-/
import proofs.«423548_j53180285059709_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Idealize.ShloMosaic Idealize.ShloMosaic.ValueIdx

/-! ## The product's operand indices, axis by axis

The product contracts the rows' axis 1 with the matrix's axis 0 and has no batch axis: at output index `i` and
contraction index `q` the left operand is read at `(i 0, q)` and the right operand at `(q, i 1)`. -/

/-- The left operand's row is the output's row. -/
theorem lhs_pay0_0 (i : S10000x256.Idx) (q : dot_S10000x64_S64x256_S10000x256_1_0_0_1_n_n.contr.Idx) :
    (dot_S10000x64_S64x256_S10000x256_1_0_0_1_n_n.lhsIdx i q 0).val = (i 0).val := by
  unfold DotDims.lhsIdx
  rw [dif_neg (show ¬(0 : Fin S10000x64.rank) ∈ dot_S10000x64_S64x256_S10000x256_1_0_0_1_n_n.lhsBatch by decide), dif_pos (show (0 : Fin S10000x64.rank) ∈ dot_S10000x64_S64x256_S10000x256_1_0_0_1_n_n.lhsNonContracting by decide)]
  rfl
/-- The left operand's column is the contracted position. -/
theorem lhs_pay0_1 (i : S10000x256.Idx) (q : dot_S10000x64_S64x256_S10000x256_1_0_0_1_n_n.contr.Idx) :
    (dot_S10000x64_S64x256_S10000x256_1_0_0_1_n_n.lhsIdx i q 1).val = (q ⟨0, by decide⟩).val :=
  dot_S10000x64_S64x256_S10000x256_1_0_0_1_n_n.lhsIdx_val_of_single rfl i q
/-- The right operand's row is the contracted position. -/
theorem rhs_pay0_0 (i : S10000x256.Idx) (q : dot_S10000x64_S64x256_S10000x256_1_0_0_1_n_n.contr.Idx) :
    (dot_S10000x64_S64x256_S10000x256_1_0_0_1_n_n.rhsIdx i q 0).val = (q ⟨0, by decide⟩).val :=
  dot_S10000x64_S64x256_S10000x256_1_0_0_1_n_n.rhsIdx_val_of_single rfl i q
/-- The right operand's column is the output's column. -/
theorem rhs_pay0_1 (i : S10000x256.Idx) (q : dot_S10000x64_S64x256_S10000x256_1_0_0_1_n_n.contr.Idx) :
    (dot_S10000x64_S64x256_S10000x256_1_0_0_1_n_n.rhsIdx i q 1).val = (i 1).val := by
  unfold DotDims.rhsIdx
  rw [dif_neg (show ¬(1 : Fin S64x256.rank) ∈ dot_S10000x64_S64x256_S10000x256_1_0_0_1_n_n.rhsBatch by decide), dif_pos (show (1 : Fin S64x256.rank) ∈ dot_S10000x64_S64x256_S10000x256_1_0_0_1_n_n.rhsNonContracting by decide)]
  rfl

/-! ## The product into a zero accumulator -/

/-- The product of a 10000 × 64 block and a 64 × 256 matrix into the zero accumulator, at row `r` and column `j`: the
    sum over the 64 contracted positions, re-indexed from the product's own contraction index to `Fin 64`. -/
theorem matmul0_apply (a : FVec Ideal S10000x64 .bf16) (m : FVec Ideal S64x256 .bf16) (r : Fin 10000) (j : Fin 256) :
    matmul dot_S10000x64_S64x256_S10000x256_1_0_0_1_n_n none a m (constant (F := Ideal) S10000x256 .f32 0x00000000#32) (ix2 r j)
      = ∑ k : Fin 64, a (ix2 r k) * m (ix2 k j) := by
  simp only [matmul]
  rw [Ideal.matmul_constant_zero_apply, ← Equiv.sum_comp (contrEquiv1 dot_S10000x64_S64x256_S10000x256_1_0_0_1_n_n 64 rfl rfl).symm]
  refine Finset.sum_congr rfl fun k _ => ?_
  have hk := contrEquiv1_symm_val dot_S10000x64_S64x256_S10000x256_1_0_0_1_n_n 64 rfl rfl k
  have el : dot_S10000x64_S64x256_S10000x256_1_0_0_1_n_n.lhsIdx (ix2 r j) ((contrEquiv1 dot_S10000x64_S64x256_S10000x256_1_0_0_1_n_n 64 rfl rfl).symm k) = ix2 r k := funext fun ax => Fin.ext (by
    match ax with
    | ⟨0, _⟩ => exact lhs_pay0_0 _ _
    | ⟨1, _⟩ => exact (lhs_pay0_1 _ _).trans hk)
  have er : dot_S10000x64_S64x256_S10000x256_1_0_0_1_n_n.rhsIdx (ix2 r j) ((contrEquiv1 dot_S10000x64_S64x256_S10000x256_1_0_0_1_n_n 64 rfl rfl).symm k) = ix2 k j := funext fun ax => Fin.ext (by
    match ax with
    | ⟨0, _⟩ => exact (rhs_pay0_0 _ _).trans hk
    | ⟨1, _⟩ => exact rhs_pay0_1 _ _)
  rw [el, er]

/-! ## The stored value -/

/-- The first kernel's stored value at row `r` and column `j`: the row of `x` times column `j` of `w`, plus the
    bias at `j`. The two narrowings are the identity on the extended reals, the casts to the same shape are the
    identity, and the bias row cast to 1 × 256 and repeated down the rows reads the bias at the column. -/
theorem pay0_apply (x : Vec Ideal S10000x64 .f32) (w : Vec Ideal S64x256 .f32) (b : Vec Ideal S256 .f32) (r : Fin 10000) (j : Fin 256) :
    k0_pay1 (F := Ideal) x w b (ix2 r j) = (∑ k : Fin 64, x (ix2 r k) * w (ix2 k j)) + b (ix1 j) := by
  unfold k0_pay1
  rw [addf_apply, matmul0_apply, broadcastTo_1b_ab_apply, shapeCast_a_1a_apply, shapeCast_self, shapeCast_self]
  rfl

end Cert.KernelIdeal.HandVal

end
-- ==== Proof.KI.Arr0.lean ====
/-
  The first kernel region's output array, read at an index.

  The region visits ten grid points. Point `t` stages rows `10000 t … 10000 t + 9999` of the node table and the whole
  64 × 256 matrix and bias row, and writes back rows `10000 t … 10000 t + 9999` of the 100000 × 256 output. What it
  writes at row `p` of its block and column `q` is the stored value of the body read there: row `10000 t + p` of the
  node table times column `q` of the matrix, plus the bias at `q`. So every point writes its block of ONE function of
  the three arrays, the ten blocks cover the output (row `n` is in block `n / 10000`), and the output ends holding that
  function.
-/
import proofs.«423548_j53180285059709_3_alg».proof.Proof.KI.Body0
import proofs.«423548_j53180285059709_3_alg».proof.Proof.KI.Val0
import Idealize.ShloMosaic.Lib.Pipeline.Value
import Idealize.ShloMosaic.Lib.ValueIdx

noncomputable section

namespace Cert.KernelIdeal.HandArr

open Cert.KernelIdeal Cert.KernelIdeal.Gen Cert.KernelIdeal.Hand Cert.KernelIdeal.HandVal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 whole-buffer rectangle, as a constant function. -/
theorem zeros2 : (![0, 0] : Fin 2 → Nat) = fun _ => 0 := funext fun a => by fin_cases a <;> rfl
/-- The zero offset of a rank-1 whole-buffer rectangle, as a constant function. -/
theorem zeros1 : (![0] : Fin 1 → Nat) = fun _ => 0 := funext fun a => by fin_cases a <;> rfl

/-- The projected node table: at row `n` and column `j`, row `n` of the node table `h` times column `j` of the
    matrix `w`, plus the bias `b` at `j`. -/
def proj (h : S100000x64.Idx → EReal) (w : S64x256.Idx → EReal) (b : S256.Idx → EReal) : S100000x256.Idx → EReal :=
  fun i => (∑ k : Fin 64, h (ix2 (⟨(i 0).val, idx2_lt0 i⟩ : Fin 100000) k) * w (ix2 k (⟨(i 1).val, idx2_lt1 i⟩ : Fin 256)))
    + b (ix1 (⟨(i 1).val, idx2_lt1 i⟩ : Fin 256))

/-- Where each window's block sits at grid point `t`: the node rows' and the output's block is number `t` down the
    rows; the matrix and the bias row are one block each. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One element of one block: if the three staged blocks read, along row `y 0` and column `y 1`, what the three arrays
    hold along row `i 0` and column `i 1`, the stored value at `y` is the projected table at `i`. -/
theorem stored_eq_proj (x0 : Vec Ideal S10000x64 .f32) (x1 : Vec Ideal S64x256 .f32) (x2 : Vec Ideal S256 .f32)
    (h : S100000x64.Idx → EReal) (w : S64x256.Idx → EReal) (b : S256.Idx → EReal)
    (p : Fin 10000) (q : Fin 256) (i : S100000x256.Idx)
    (h0 : ∀ k : Fin 64, x0 (ix2 p k) = h (ix2 (⟨(i 0).val, idx2_lt0 i⟩ : Fin 100000) k))
    (h1 : ∀ k : Fin 64, x1 (ix2 k q) = w (ix2 k (⟨(i 1).val, idx2_lt1 i⟩ : Fin 256)))
    (h2 : x2 (ix1 q) = b (ix1 (⟨(i 1).val, idx2_lt1 i⟩ : Fin 256))) :
    k0_pay1 (F := Ideal) x0 x1 x2 (ix2 p q) = proj h w b i := by
  rw [pay0_apply, h2]
  unfold proj
  exact congrArg (· + _) (Finset.sum_congr rfl fun k _ => by rw [h0 k, h1 k])

/-- What point `t` writes back is block `t` of the projected table of the three arrays as the region finds them. -/
theorem flushed0_eq (c : Dev nD) (t : Fin cfg0.N) :
    (dat0 (F := Ideal) V c).flushed 3 t
      = ((cfg0.win 3).blk t).view.read (Elt Ideal) (proj (V c main_arg0) (V c main_v0) (V c main_v1)) := by
  show (cfg0.win 3).cut (grid0.coords t) ((dat0 (F := Ideal) V c).after 3 t) = _
  rw [after0_3]
  unfold out0_3
  rw [View.canon_unit_zero zeros2]
  simp only [View.ld_unit_zero (S := S10000x64) zeros2, View.ld_unit_zero (S := S64x256) zeros2, View.ld_unit_zero (S := S256) zeros1]
  obtain ⟨e00, e01, e10, e11, e20, e30, e31⟩ := block_index t
  funext y
  show k0_pay1 (F := Ideal) (iblk0 V c 0 t) (iblk0 V c 1 t) (iblk0 V c 2 t) y
      = proj (V c main_arg0) (V c main_v0) (V c main_v1) (((cfg0.win 3).blk t).view.emb y)
  obtain ⟨p, q, rfl⟩ : ∃ (p : Fin 10000) (q : Fin 256), y = ix2 p q := ⟨y 0, y 1, eq_ix2 y⟩
  refine stored_eq_proj _ _ _ _ _ _ p q _ (fun k => ?_) (fun k => ?_) ?_
  · show (V c main_arg0 : S100000x64.Idx → EReal) (((cfg0.win 0).blk t).view.emb (ix2 p k)) = _
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  · show (V c main_v0 : S64x256.Idx → EReal) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 256 + 1 * q.val = win0_3.index t (1 : Fin 2) * 256 + 1 * q.val; omega
  · show (V c main_v1 : S256.Idx → EReal) (((cfg0.win 2).blk t).view.emb (ix1 q)) = _
    refine congrArg _ (funext fun a => Fin.ext ?_)
    match a with
    | ⟨0, _⟩ => show win0_2.index t (0 : Fin 1) * 256 + 1 * q.val = win0_3.index t (1 : Fin 2) * 256 + 1 * q.val; omega

/-- An index of the output array is in point `t`'s block iff each coordinate is in the block's range on its axis. -/
theorem mem_block (t : Fin cfg0.N) (i : S100000x256.Idx) :
    i ∈ ((cfg0.win 3).blk t).view.set ↔ ∀ a : Fin 2, win0_3.index t a * S10000x256.size a ≤ (i a).val
      ∧ (i a).val < win0_3.index t a * S10000x256.size a + S10000x256.size a := by
  show i ∈ ((View.whole main_v2).slice (win0_3.rect t)).set ↔ _
  rw [View.set_slice_whole, Rect.mem_set_unit]
  exact Iff.rfl

/-- The ten blocks cover the output: row `n` is in the block of point `n / 10000`. -/
theorem covered (i : S100000x256.Idx) :
    ∃ t : Fin cfg0.N, (cfg0.win 3).flush t = true ∧ i ∈ ((cfg0.win 3).blk t).view.set := by
  have hi0 : (i 0).val < 100000 := idx2_lt0 i
  have hi1 : (i 1).val < 256 := idx2_lt1 i
  have hN : cfg0.N = 10 := N_0
  have hlt : (i 0).val / 10000 < cfg0.N := by rw [hN]; omega
  obtain ⟨-, -, -, -, -, e30, e31⟩ := block_index ⟨(i 0).val / 10000, hlt⟩
  refine ⟨⟨(i 0).val / 10000, hlt⟩, flush0_3 _, ?_⟩
  rw [mem_block]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, hlt⟩ (1 : Fin 2) * 256 ≤ (i 1).val
      ∧ (i 1).val < win0_3.index ⟨(i 0).val / 10000, hlt⟩ (1 : Fin 2) * 256 + 256
    rw [e31]
    omega

/-- So the output array ends holding the projected table of the three arrays as the region finds them. -/
theorem arr0_eq (c : Dev nD) :
    (dat0 (F := Ideal) V c).arrAt 3 cfg0.N = proj (V c main_arg0) (V c main_v0) (V c main_v1) :=
  (dat0 (F := Ideal) V c).arrAt_eq_of_cover 3 (proj (V c main_arg0) (V c main_v0) (V c main_v1))
    (fun t _ => flushed0_eq V c t) covered

/-- The projected table at row `n` and column `j`. -/
theorem proj_apply (h : S100000x64.Idx → EReal) (w : S64x256.Idx → EReal) (b : S256.Idx → EReal) (n : Fin 100000) (j : Fin 256) :
    proj h w b (ix2 n j) = (∑ k : Fin 64, h (ix2 n k) * w (ix2 k j)) + b (ix1 j) := rfl

/-- The output array at row `n` and column `j`: row `n` of the node table times column `j` of the matrix, plus the
    bias at `j` — the three arrays as the region finds them, named `h`, `w`, `b` as functions on their index sets. -/
theorem arr0_apply (c : Dev nD) (h : S100000x64.Idx → EReal) (w : S64x256.Idx → EReal) (b : S256.Idx → EReal)
    (hh : V c main_arg0 = h) (hw : V c main_v0 = w) (hb : V c main_v1 = b) (n : Fin 100000) (j : Fin 256) :
    (dat0 (F := Ideal) V c).arrAt 3 cfg0.N (ix2 n j) = (∑ k : Fin 64, h (ix2 n k) * w (ix2 k j)) + b (ix1 j) := by
  subst hh hw hb
  rw [arr0_eq]
  rfl

end Cert.KernelIdeal.HandArr

end
-- ==== Proof.Spec.lean ====
/-
  The mathematics both programs compute, one row at a time, on the extended reals.

  A node or an edge carries a row of 64 features. The operations that mix the entries of a row are a linear layer (a
  row times a 64 × 64 matrix plus a bias row) and a layer normalisation (subtract the row's mean, scale by the inverse
  square root of the row's mean squared deviation plus a small constant, then an entrywise gain and shift); everything
  else acts entry by entry. An edge's new feature row is the rectified normalisation of the sum of three rows — two
  gathered from node tables at the edge's source and target and one linear image of the edge's own row — plus the edge's
  row. Its gate is the logistic of that. A node's new row is the rectified normalisation of one of its linear images plus
  a quotient of two sums over its incoming edges, plus the node's row.

  The constants are kept as the bit patterns the programs print (64, 10⁻⁵ and 10⁻⁶ rounded to single precision, 1): the
  same pattern stands on both sides, so none is ever evaluated.
-/
import Idealize.ShloMosaic.PureOps.Ideal

noncomputable section

namespace Spec

open Idealize.ShloMosaic

/-- A row of 64 extended reals. -/
abbrev Row : Type := Fin 64 → EReal

/-- The printed constant 64. -/
def c64 : EReal := Ideal.ofBits .f32 0x42800000#32
/-- The printed constant added under the inverse square root (10⁻⁵ rounded). -/
def epsLN : EReal := Ideal.ofBits .f32 0x3727C5AC#32
/-- The printed constant added to a quotient's denominator (10⁻⁶ rounded). -/
def epsDiv : EReal := Ideal.ofBits .f32 0x358637BD#32
/-- The printed constant 1. -/
def cOne : EReal := Ideal.ofBits .f32 0x3F800000#32

/-- Column `j` of the first half, and of the second half, of a row of 128. -/
def lo (j : Fin 64) : Fin 128 := ⟨j.val, by omega⟩
def hi (j : Fin 64) : Fin 128 := ⟨64 + j.val, by omega⟩

/-- The sum of a row's entries. -/
def rsum (x : Row) : EReal := ∑ k : Fin 64, x k

/-- The mean of a row: its sum divided by the printed 64. -/
def mean (x : Row) : EReal := Ideal.div (rsum x) c64

/-- A row's deviation from its mean, entry by entry. -/
def dev (x : Row) : Row := fun k => x k - mean x

/-- The inverse standard deviation of a row: the inverse square root of the mean squared deviation plus the constant. -/
def istd (x : Row) : EReal := Ideal.rsqrt (mean (fun k => dev x k * dev x k) + epsLN)

/-- Layer normalisation of a row with gain `g` and shift `b`. -/
def ln (x g b : Row) : Row := fun j => dev x j * istd x * g j + b j

/-- Rectification: the larger of a number and zero. -/
def relu (v : EReal) : EReal := max v 0

/-- A linear layer on a row: the row times the matrix, plus the bias. -/
def lin (x : Row) (W : Fin 64 → Fin 64 → EReal) (b : Row) : Row := fun j => (∑ k : Fin 64, x k * W k j) + b j

/-- The logistic function as both programs spell it: one over one plus the exponential of the negation. -/
def sig (v : EReal) : EReal := Ideal.div cOne (cOne + Ideal.exp (-v))

/-- An edge's new row from the two gathered rows, the linear image of its own row, and its own row. -/
def edge (b1 b2 b3 e g b : Row) : Row := fun j => relu (ln (fun k => b1 k + b2 k + b3 k) g b j) + e j

/-- A node's new row from its own row, one of its linear images and the two sums over its incoming edges. -/
def node (h a1 ssh ss g b : Row) : Row :=
  fun j => relu (ln (fun k => a1 k + Ideal.div (ssh k) (ss k + epsDiv)) g b j) + h j

end Spec

end
-- ==== Proof.KI.Val1.lean ====
/-
  The edge kernel's two stored blocks, read one entry at a time on the extended reals.

  Row r of the first block is the edge's new feature row: the rectified layer normalisation of the sum of the second
  half of the gathered double row, the gathered single row and the linear image of the edge's own row, plus the edge's
  own row. Row r of the second block is the first half of the gathered double row times the logistic of that new row.

  The layout operations are read at a coordinate pair (r, j) first; then the kernel's mean column and its normalisation
  of a block are identified, row by row, with the specification's mean and normalisation of a row; the two payloads are
  assembled from those readings.
-/
import proofs.«423548_j53180285059709_3_alg».proof.Proof.Gen.KernelIdeal.Skeleton
import proofs.«423548_j53180285059709_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HandVal

open Cert.KernelIdeal Cert.KernelIdeal.Gen Idealize.ShloMosaic Idealize.ShloMosaic.ValueIdx

/-! ## The layout operations at a coordinate pair -/

/-- A row of 64 laid over 8000 rows reads, at (r, j), the row's entry j. -/
theorem rowOver_apply (v : Vec Ideal S64 .f32) (r : Fin 8000) (j : Fin 64) :
    broadcastTo S8000x64 (shapeCast S1x64 v shapeCasts_S64_S1x64) broadcasts_S1x64_S8000x64 (ix2 r j) = v (ix1 j) := by
  rw [broadcastTo_1b_ab_apply, shapeCast_a_1a_apply]

/-- A column of 8000 written as an 8000 × 1 block reads, at (r, u), the column's entry r. -/
theorem colCast_apply (v : Vec Ideal S8000 .f32) (r : Fin 8000) (u : Fin 1) :
    shapeCast S8000x1 v shapeCasts_S8000_S8000x1 (ix2 r u) = v (ix1 r) :=
  shapeCast_apply v shapeCasts_S8000_S8000x1 _ _ (by
    have hu : u.val = 0 := by omega
    rw [Shape.rowMajor_val_two, Shape.rowMajor_val_one]
    show r.val = r.val * 1 + u.val
    rw [hu, Nat.mul_one, Nat.add_zero])

/-- An 8000 × 1 block laid over 64 columns reads, at (r, j), the block's entry (r, 0). -/
theorem colOver_apply (c : Vec Ideal S8000x1 .f32) (r : Fin 8000) (j : Fin 64) :
    broadcastTo S8000x64 c broadcasts_S8000x1_S8000x64 (ix2 r j) = c (ix2 r (0 : Fin 1)) := by
  refine broadcastTo_apply c broadcasts_S8000x1_S8000x64 (ix2 r j) (ix2 r (0 : Fin 1)) fun ax => ?_
  match ax with
  | ⟨0, _⟩ => rfl
  | ⟨1, _⟩ => rfl

/-- The sum along a row: the lane reduction at r is the sum of the row's 64 entries. -/
theorem rowSum_apply (x : FVec Ideal S8000x64 .f32) (r : Fin 8000) :
    multiReduction (F := Ideal) .add [1] S8000 x 0x00000000#32 reduces_S8000x64_S8000 (.inl rfl) rfl (ix1 r)
      = ∑ k : Fin 64, x (ix2 r k) := by
  refine (Ideal.multiReduction_add_single x 0x00000000#32 reduces_S8000x64_S8000 _ _ (ix1 r)).trans ?_
  refine Finset.sum_congr rfl fun k _ => congrArg x ?_
  funext a
  apply Fin.ext
  match a with
  | ⟨0, _⟩ => rfl
  | ⟨1, _⟩ => rfl

/-- The second half of a double row: columns 64 to 127. -/
theorem hiHalf_apply (cat : Vec Ideal S8000x128 .f32) (r : Fin 8000) (j : Fin 64) :
    extractStridedSlice S8000x64 ![0, 64] (k1_pay3 cat) slices_S8000x128_o0_64_S8000x64 (ix2 r j) = cat (ix2 r (Spec.hi j)) := by
  unfold k1_pay3
  rw [shapeCast_self]
  exact slice2_axis1_apply 64 cat slices_S8000x128_o0_64_S8000x64 r j (Spec.hi j) rfl

/-- The first half of a double row: columns 0 to 63. -/
theorem loHalf_apply (cat : Vec Ideal S8000x128 .f32) (r : Fin 8000) (j : Fin 64) :
    k1_pay4 cat (ix2 r j) = cat (ix2 r (Spec.lo j)) := by
  unfold k1_pay4 k1_pay3
  rw [shapeCast_self]
  exact slice2_axis1_apply 0 cat slices_S8000x128_o0_0_S8000x64 r j (Spec.lo j) (Nat.zero_add _).symm

/-! ## The product of the edge rows with the matrix -/

/-- The left operand's row is the output's row. -/
theorem lhs_edge_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- The left operand's column is the summation index. -/
theorem lhs_edge_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right operand's row is the summation index. -/
theorem rhs_edge_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- The right operand's column is the output's column. -/
theorem rhs_edge_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The matrix product into the zero block, at (r, j): the sum over k of the edge row's entry k times the matrix's
    entry (k, j). The two narrowings before it change nothing on the extended reals. -/
theorem edgeMatmul_apply (e : Vec Ideal S8000x64 .f32) (W : Vec Ideal S64x64 .f32) (r : Fin 8000) (j : Fin 64) :
    matmul (F := Ideal) dot_S8000x64_S64x64_S8000x64_1_0_0_1_n_n none (truncf .bf16 e bitsLt_bf16_f32) (truncf .bf16 W bitsLt_bf16_f32)
        (constant (F := Ideal) S8000x64 .f32 0x00000000#32) (ix2 r j)
      = ∑ k : Fin 64, e (ix2 r k) * W (ix2 k j) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 r j) ((contrEquiv1 dot_S8000x64_S64x64_S8000x64_1_0_0_1_n_n 64 rfl rfl).symm k) = ix2 r k := funext fun a => Fin.ext (by
    match a with
    | ⟨0, _⟩ => exact lhs_edge_0 _ _
    | ⟨1, _⟩ => exact (lhs_edge_1 _ _).trans hk)
  have er : dot_S8000x64_S64x64_S8000x64_1_0_0_1_n_n.rhsIdx (ix2 r j) ((contrEquiv1 dot_S8000x64_S64x64_S8000x64_1_0_0_1_n_n 64 rfl rfl).symm k) = ix2 k j := funext fun a => Fin.ext (by
    match a with
    | ⟨0, _⟩ => exact (rhs_edge_0 _ _).trans hk
    | ⟨1, _⟩ => exact rhs_edge_1 _ _)
  rw [el, er]
  rfl

/-! ## The block the normalisation acts on -/

/-- The second half of the gathered double rows plus the gathered single rows plus the linear image of the edge rows, as
    the kernel computes it. -/
def pre (e : Vec Ideal S8000x64 .f32) (W : Vec Ideal S64x64 .f32) (b3 : Vec Ideal S64 .f32) (cat : Vec Ideal S8000x128 .f32)
    (b2d : Vec Ideal S8000x64 .f32) : FVec Ideal S8000x64 .f32 :=
  addf
    (addf (extractStridedSlice S8000x64 ![0, 64] (k1_pay3 cat) slices_S8000x128_o0_64_S8000x64)
      (shapeCast S8000x64 b2d shapeCasts_S8000x64_S8000x64))
    (addf
      (matmul (F := Ideal) dot_S8000x64_S64x64_S8000x64_1_0_0_1_n_n none (truncf .bf16 e bitsLt_bf16_f32) (truncf .bf16 W bitsLt_bf16_f32)
        (constant (F := Ideal) S8000x64 .f32 0x00000000#32))
      (broadcastTo S8000x64 (shapeCast S1x64 b3 shapeCasts_S64_S1x64) broadcasts_S1x64_S8000x64))

/-- Row r of that block, entry k: the three summands of the specification's edge row. -/
theorem pre_apply (e : Vec Ideal S8000x64 .f32) (W : Vec Ideal S64x64 .f32) (b3 : Vec Ideal S64 .f32) (cat : Vec Ideal S8000x128 .f32)
    (b2d : Vec Ideal S8000x64 .f32) (r : Fin 8000) (k : Fin 64) :
    pre e W b3 cat b2d (ix2 r k)
      = cat (ix2 r (Spec.hi k)) + b2d (ix2 r k)
          + Spec.lin (fun k => e (ix2 r k)) (fun k j => W (ix2 k j)) (fun k => b3 (ix1 k)) k := by
  unfold pre
  rw [addf_apply, addf_apply, addf_apply, hiHalf_apply, shapeCast_self, edgeMatmul_apply, rowOver_apply]
  rfl

/-! ## The kernel's mean column and normalisation, row by row -/

/-- The mean column of a block: the lane sums, written as a column, over the printed 64. -/
def meanCol (x : FVec Ideal S8000x64 .f32) : FVec Ideal S8000x1 .f32 :=
  divf
    (shapeCast S8000x1 (multiReduction (F := Ideal) .add [1] S8000 x 0x00000000#32 reduces_S8000x64_S8000 (.inl rfl) rfl)
      shapeCasts_S8000_S8000x1)
    (broadcast S8000x1 (Scalar.ofBits (F := Ideal) .f32 0x42800000#32))

/-- A block minus its mean column laid over the 64 columns. -/
def devBlock (x : FVec Ideal S8000x64 .f32) : FVec Ideal S8000x64 .f32 :=
  subf x (broadcastTo S8000x64 (meanCol x) broadcasts_S8000x1_S8000x64)

/-- The normalisation up to the gain: the deviations times the inverse square root of the mean squared deviation plus
    the printed constant, times the gain row. -/
def lnGain (x : FVec Ideal S8000x64 .f32) (g : Vec Ideal S64 .f32) : FVec Ideal S8000x64 .f32 :=
  mulf
    (mulf (devBlock x)
      (broadcastTo S8000x64
        (rsqrt (addf (meanCol (mulf (devBlock x) (devBlock x)))
          (broadcast S8000x1 (Scalar.ofBits (F := Ideal) .f32 0x3727C5AC#32))))
        broadcasts_S8000x1_S8000x64))
    (broadcastTo S8000x64 (shapeCast S1x64 g shapeCasts_S64_S1x64) broadcasts_S1x64_S8000x64)

/-- The mean column at row r is the specification's mean of row r. -/
theorem meanCol_apply (x : FVec Ideal S8000x64 .f32) (r : Fin 8000) (u : Fin 1) :
    meanCol x (ix2 r u) = Spec.mean (fun k => x (ix2 r k)) := by
  unfold meanCol
  rw [divf_apply, colCast_apply, rowSum_apply]
  rfl

/-- The deviations at (r, j) are the specification's deviation of row r at j. -/
theorem devBlock_apply (x : FVec Ideal S8000x64 .f32) (r : Fin 8000) (j : Fin 64) :
    devBlock x (ix2 r j) = Spec.dev (fun k => x (ix2 r k)) j := by
  unfold devBlock
  rw [subf_apply, colOver_apply, meanCol_apply]
  rfl

/-- The normalisation up to the gain at (r, j): deviation times inverse standard deviation times gain. -/
theorem lnGain_apply (x : FVec Ideal S8000x64 .f32) (g : Vec Ideal S64 .f32) (r : Fin 8000) (j : Fin 64) :
    lnGain x g (ix2 r j)
      = Spec.dev (fun k => x (ix2 r k)) j * Spec.istd (fun k => x (ix2 r k)) * g (ix1 j) := by
  have hsq : (fun k => mulf (devBlock x) (devBlock x) (ix2 r k))
      = fun k => Spec.dev (fun k => x (ix2 r k)) k * Spec.dev (fun k => x (ix2 r k)) k :=
    funext fun k => by rw [mulf_apply, devBlock_apply]
  unfold lnGain
  rw [mulf_apply, mulf_apply, devBlock_apply, colOver_apply, rowOver_apply]
  show _ * Ideal.rsqrt (meanCol (mulf (devBlock x) (devBlock x)) (ix2 r (0 : Fin 1)) + Ideal.ofBits .f32 0x3727C5AC#32) * _ = _
  rw [meanCol_apply, hsq]
  rfl

/-- The kernel's chain up to the gain is that normalisation of that block. -/
theorem pay5_eq (e b2d : Vec Ideal S8000x64 .f32) (cat : Vec Ideal S8000x128 .f32) (W : Vec Ideal S64x64 .f32)
    (b3 g : Vec Ideal S64 .f32) :
    k1_pay5 (F := Ideal) e W b3 cat b2d g = lnGain (pre e W b3 cat b2d) g := rfl

/-! ## The two stored blocks -/

/-- The logistic as the specification spells it, with the printed one, is the ideal logistic. -/
theorem sig_eq (v : EReal) : Spec.sig v = Ideal.logistic v := by
  unfold Spec.sig Spec.cOne Ideal.logistic
  rw [Ideal.ofBits_one_f32]

/-- The first stored block at (r, j): the specification's new edge row. -/
theorem pay1_eji_apply (e b2d : Vec Ideal S8000x64 .f32) (cat : Vec Ideal S8000x128 .f32) (W : Vec Ideal S64x64 .f32)
    (b3 g b : Vec Ideal S64 .f32) (r : Fin 8000) (j : Fin 64) :
    k1_pay1 (F := Ideal) e (k1_pay5 e W b3 cat b2d g) (k1_pay6 b) (ix2 r j)
      = Spec.edge (fun k => cat (ix2 r (Spec.hi k))) (fun k => b2d (ix2 r k))
          (Spec.lin (fun k => e (ix2 r k)) (fun k j => W (ix2 k j)) (fun k => b3 (ix1 k)))
          (fun k => e (ix2 r k)) (fun k => g (ix1 k)) (fun k => b (ix1 k)) j := by
  have hrow : (fun k => pre e W b3 cat b2d (ix2 r k))
      = fun k => cat (ix2 r (Spec.hi k)) + b2d (ix2 r k)
          + Spec.lin (fun k => e (ix2 r k)) (fun k j => W (ix2 k j)) (fun k => b3 (ix1 k)) k :=
    funext fun k => pre_apply e W b3 cat b2d r k
  show max (k1_pay5 (F := Ideal) e W b3 cat b2d g (ix2 r j) + k1_pay6 (F := Ideal) b (ix2 r j)) (Ideal.ofBits .f32 0x00000000#32)
      + e (ix2 r j) = _
  unfold k1_pay6
  rw [pay5_eq, lnGain_apply, rowOver_apply, Ideal.ofBits_zero_f32, hrow]
  rfl

/-- The second stored block at (r, j): the first half of the gathered double row times the logistic of the first
    stored block there. -/
theorem pay1_gate_apply (e b2d : Vec Ideal S8000x64 .f32) (cat : Vec Ideal S8000x128 .f32) (W : Vec Ideal S64x64 .f32)
    (b3 g b : Vec Ideal S64 .f32) (r : Fin 8000) (j : Fin 64) :
    k1_pay2 (F := Ideal) e (k1_pay4 cat) (k1_pay5 e W b3 cat b2d g) (k1_pay6 b) (ix2 r j)
      = cat (ix2 r (Spec.lo j)) * Spec.sig (k1_pay1 (F := Ideal) e (k1_pay5 e W b3 cat b2d g) (k1_pay6 b) (ix2 r j)) := by
  show k1_pay4 (F := Ideal) cat (ix2 r j) * Ideal.logistic (k1_pay1 (F := Ideal) e (k1_pay5 e W b3 cat b2d g) (k1_pay6 b) (ix2 r j)) = _
  rw [loHalf_apply, sig_eq]

end Cert.KernelIdeal.HandVal

end
-- ==== Proof.KI.Arr1.lean ====
/-
  The second kernel region's two output arrays, read at an index. The region runs over 125 grid points; point t sees rows
  8000 t … 8000 t + 7999 of the three edge arrays and the four parameter arrays whole, and writes the same rows of the two
  outputs. So the blocks the points write tile each output array, each point's block is the same row-by-row function of
  the inputs' rows, and the array the region leaves is that function of the arrays it found, row by row: the edge's new
  row, and the gated message (the first half of the edge's 128-wide gathered row times the logistic of its new row).
-/
import proofs.«423548_j53180285059709_3_alg».proof.Proof.KI.Body1
import proofs.«423548_j53180285059709_3_alg».proof.Proof.KI.Val1
import proofs.«423548_j53180285059709_3_alg».proof.Proof.Spec
import Idealize.ShloMosaic.Lib.Pipeline.Value
import Idealize.ShloMosaic.Lib.ValueIdx

noncomputable section

namespace Cert.KernelIdeal.HandArr

open Cert.KernelIdeal Cert.KernelIdeal.Gen Cert.KernelIdeal.Hand Cert.KernelIdeal.HandVal Idealize.ShloMosaic
  Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole rank-2 buffer. -/
theorem zero2 : (![0, 0] : Fin 2 → Nat) = fun _ => 0 := funext fun a => by fin_cases a <;> rfl
/-- The zero offset of a whole rank-1 buffer. -/
theorem zero1 : (![0] : Fin 1 → Nat) = fun _ => 0 := funext fun a => by fin_cases a; rfl

/-- The block indices at grid point `t`: the three edge inputs and the two outputs are at block row `t`, column 0;
    the four parameter arrays at block 0. -/
theorem edge_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ### Each input block, read at an index, is its array at the block's rows -/

/-- The edge rows' block at point `t`: row `r` of the block is row `8000 t + r` of the array. -/
theorem blk_edge (c : Dev nD) (t : Fin cfg1.N) (r : Fin 8000) (e : Fin 1000000) (he : e.val = 8000 * t.val + r.val)
    (k : Fin 64) :
    (iblk1 (F := Ideal) V c 0 t : Vec Ideal S8000x64 .f32) (ix2 r k) = (V c main_arg1 : S1000000x64.Idx → EReal) (ix2 e k) := by
  obtain ⟨h0, h1, -⟩ := edge_block_index t
  unfold iblk1
  rw [View.read_apply]
  show (V c main_arg1 : S1000000x64.Idx → EReal) _ = (V c main_arg1 : S1000000x64.Idx → EReal) _
  congr 1
  funext a
  apply Fin.ext
  match a with
  | ⟨0, _⟩ => show win1_0.index t (0 : Fin 2) * 8000 + 1 * r.val = e.val; rw [h0, he]; omega
  | ⟨1, _⟩ => show win1_0.index t (1 : Fin 2) * 64 + 1 * k.val = k.val; rw [h1]; omega

/-- The 64-wide gathered rows' block at point `t`. -/
theorem blk_gathered64 (c : Dev nD) (t : Fin cfg1.N) (r : Fin 8000) (e : Fin 1000000) (he : e.val = 8000 * t.val + r.val)
    (k : Fin 64) :
    (iblk1 (F := Ideal) V c 1 t : Vec Ideal S8000x64 .f32) (ix2 r k) = (V c main_v7 : S1000000x64.Idx → EReal) (ix2 e k) := by
  obtain ⟨-, -, h0, h1, -⟩ := edge_block_index t
  unfold iblk1
  rw [View.read_apply]
  show (V c main_v7 : S1000000x64.Idx → EReal) _ = (V c main_v7 : S1000000x64.Idx → EReal) _
  congr 1
  funext a
  apply Fin.ext
  match a with
  | ⟨0, _⟩ => show win1_1.index t (0 : Fin 2) * 8000 + 1 * r.val = e.val; rw [h0, he]; omega
  | ⟨1, _⟩ => show win1_1.index t (1 : Fin 2) * 64 + 1 * k.val = k.val; rw [h1]; omega

/-- The 128-wide gathered rows' block at point `t`. -/
theorem blk_gathered128 (c : Dev nD) (t : Fin cfg1.N) (r : Fin 8000) (e : Fin 1000000) (he : e.val = 8000 * t.val + r.val)
    (k : Fin 128) :
    (iblk1 (F := Ideal) V c 2 t : Vec Ideal S8000x128 .f32) (ix2 r k) = (V c main_v6 : S1000000x128.Idx → EReal) (ix2 e k) := by
  obtain ⟨-, -, -, -, h0, h1, -⟩ := edge_block_index t
  unfold iblk1
  rw [View.read_apply]
  show (V c main_v6 : S1000000x128.Idx → EReal) _ = (V c main_v6 : S1000000x128.Idx → EReal) _
  congr 1
  funext a
  apply Fin.ext
  match a with
  | ⟨0, _⟩ => show win1_2.index t (0 : Fin 2) * 8000 + 1 * r.val = e.val; rw [h0, he]; omega
  | ⟨1, _⟩ => show win1_2.index t (1 : Fin 2) * 128 + 1 * k.val = k.val; rw [h1]; omega

/-- The matrix, which every point sees whole. -/
theorem blk_matrix (c : Dev nD) (t : Fin cfg1.N) (k j : Fin 64) :
    (iblk1 (F := Ideal) V c 3 t : Vec Ideal S64x64 .f32) (ix2 k j) = (V c main_arg12 : S64x64.Idx → EReal) (ix2 k j) := by
  obtain ⟨-, -, -, -, -, -, h0, h1, -⟩ := edge_block_index t
  unfold iblk1
  rw [View.read_apply]
  show (V c main_arg12 : S64x64.Idx → EReal) _ = (V c main_arg12 : S64x64.Idx → EReal) _
  congr 1
  funext a
  apply Fin.ext
  match a with
  | ⟨0, _⟩ => show win1_3.index t (0 : Fin 2) * 64 + 1 * k.val = k.val; rw [h0]; omega
  | ⟨1, _⟩ => show win1_3.index t (1 : Fin 2) * 64 + 1 * j.val = j.val; rw [h1]; omega

/-- The bias, whole. -/
theorem blk_bias (c : Dev nD) (t : Fin cfg1.N) (k : Fin 64) :
    (iblk1 (F := Ideal) V c 4 t : Vec Ideal S64 .f32) (ix1 k) = (V c main_arg13 : S64.Idx → EReal) (ix1 k) := by
  obtain ⟨-, -, -, -, -, -, -, -, h0, -⟩ := edge_block_index t
  unfold iblk1
  rw [View.read_apply]
  show (V c main_arg13 : S64.Idx → EReal) _ = (V c main_arg13 : S64.Idx → EReal) _
  congr 1
  funext a
  apply Fin.ext
  match a with
  | ⟨0, _⟩ => show win1_4.index t (0 : Fin 1) * 64 + 1 * k.val = k.val; rw [h0]; omega

/-- The gain, whole. -/
theorem blk_gain (c : Dev nD) (t : Fin cfg1.N) (k : Fin 64) :
    (iblk1 (F := Ideal) V c 5 t : Vec Ideal S64 .f32) (ix1 k) = (V c main_arg14 : S64.Idx → EReal) (ix1 k) := by
  obtain ⟨-, -, -, -, -, -, -, -, -, h0, -⟩ := edge_block_index t
  unfold iblk1
  rw [View.read_apply]
  show (V c main_arg14 : S64.Idx → EReal) _ = (V c main_arg14 : S64.Idx → EReal) _
  congr 1
  funext a
  apply Fin.ext
  match a with
  | ⟨0, _⟩ => show win1_5.index t (0 : Fin 1) * 64 + 1 * k.val = k.val; rw [h0]; omega

/-- The shift, whole. -/
theorem blk_shift (c : Dev nD) (t : Fin cfg1.N) (k : Fin 64) :
    (iblk1 (F := Ideal) V c 6 t : Vec Ideal S64 .f32) (ix1 k) = (V c main_arg15 : S64.Idx → EReal) (ix1 k) := by
  obtain ⟨-, -, -, -, -, -, -, -, -, -, h0, -⟩ := edge_block_index t
  unfold iblk1
  rw [View.read_apply]
  show (V c main_arg15 : S64.Idx → EReal) _ = (V c main_arg15 : S64.Idx → EReal) _
  congr 1
  funext a
  apply Fin.ext
  match a with
  | ⟨0, _⟩ => show win1_6.index t (0 : Fin 1) * 64 + 1 * k.val = k.val; rw [h0]; omega

/-! ### The two whole-array functions -/

/-- Edge `e`'s new row at column `j`, from the arrays the region finds. -/
def edgeAt (c : Dev nD) (e : Fin 1000000) (j : Fin 64) : EReal :=
  Spec.edge (fun k => (V c main_v6 : S1000000x128.Idx → EReal) (ix2 e (Spec.hi k)))
    (fun k => (V c main_v7 : S1000000x64.Idx → EReal) (ix2 e k))
    (Spec.lin (fun k => (V c main_arg1 : S1000000x64.Idx → EReal) (ix2 e k))
      (fun k j => (V c main_arg12 : S64x64.Idx → EReal) (ix2 k j)) (fun k => (V c main_arg13 : S64.Idx → EReal) (ix1 k)))
    (fun k => (V c main_arg1 : S1000000x64.Idx → EReal) (ix2 e k))
    (fun k => (V c main_arg14 : S64.Idx → EReal) (ix1 k)) (fun k => (V c main_arg15 : S64.Idx → EReal) (ix1 k)) j

/-- Edge `e`'s gated message at column `j`. -/
def gateAt (c : Dev nD) (e : Fin 1000000) (j : Fin 64) : EReal :=
  @HMul.hMul EReal EReal EReal instHMul (V c main_v6 (ix2 e (Spec.lo j))) (Spec.sig (edgeAt V c e j))

/-- The array of new edge rows. -/
def edgeArr (c : Dev nD) : S1000000x64.Idx → EReal :=
  fun i => edgeAt V c ⟨(i 0).val, idx2_lt0 i⟩ ⟨(i 1).val, idx2_lt1 i⟩

/-- The array of gated messages. -/
def gateArr (c : Dev nD) : S1000000x64.Idx → EReal :=
  fun i => gateAt V c ⟨(i 0).val, idx2_lt0 i⟩ ⟨(i 1).val, idx2_lt1 i⟩

/-- The new-row array under the first output's block at point `t`, at row `r` of the block. -/
theorem edgeArr_blk (c : Dev nD) (t : Fin cfg1.N) (r : Fin 8000) (j : Fin 64) (e : Fin 1000000)
    (he : e.val = 8000 * t.val + r.val) :
    edgeArr V c (((cfg1.win 7).blk t).view.emb (ix2 r j)) = edgeAt V c e j := by
  obtain ⟨-, -, -, -, -, -, -, -, -, -, -, h0, h1, -⟩ := edge_block_index t
  unfold edgeArr
  congr 1 <;> apply Fin.ext
  · show win1_7.index t (0 : Fin 2) * 8000 + 1 * r.val = e.val; rw [h0, he]; omega
  · show win1_7.index t (1 : Fin 2) * 64 + 1 * j.val = j.val; rw [h1]; omega

/-- The message array under the second output's block at point `t`, at row `r` of the block. -/
theorem gateArr_blk (c : Dev nD) (t : Fin cfg1.N) (r : Fin 8000) (j : Fin 64) (e : Fin 1000000)
    (he : e.val = 8000 * t.val + r.val) :
    gateArr V c (((cfg1.win 8).blk t).view.emb (ix2 r j)) = gateAt V c e j := by
  obtain ⟨-, -, -, -, -, -, -, -, -, -, -, -, -, h0, h1⟩ := edge_block_index t
  unfold gateArr
  congr 1 <;> apply Fin.ext
  · show win1_8.index t (0 : Fin 2) * 8000 + 1 * r.val = e.val; rw [h0, he]; omega
  · show win1_8.index t (1 : Fin 2) * 64 + 1 * j.val = j.val; rw [h1]; omega

/-! ### What each point writes back -/

/-- The body's first payload at row `r` of point `t`'s blocks is edge `8000 t + r`'s new row. -/
theorem pay_edge (c : Dev nD) (t : Fin cfg1.N) (r : Fin 8000) (j : Fin 64) (e : Fin 1000000)
    (he : e.val = 8000 * t.val + r.val) :
    k1_pay1 (F := Ideal) (iblk1 V c 0 t) (k1_pay5 (iblk1 V c 0 t) (iblk1 V c 3 t) (iblk1 V c 4 t) (iblk1 V c 2 t) (iblk1 V c 1 t) (iblk1 V c 5 t))
        (k1_pay6 (iblk1 V c 6 t)) (ix2 r j) = edgeAt V c e j := by
  rw [pay1_eji_apply]
  unfold edgeAt
  simp only [blk_edge V c t r e he, blk_gathered64 V c t r e he, blk_gathered128 V c t r e he, blk_matrix V c t,
    blk_bias V c t, blk_gain V c t, blk_shift V c t]

/-- WHAT POINT `t` WRITES BACK to the first output is block `t` of the array of new edge rows. -/
theorem flushed7_eq (c : Dev nD) (t : Fin cfg1.N) :
    (dat1 (F := Ideal) V c).flushed 7 t = ((cfg1.win 7).blk t).view.read (Elt Ideal) (edgeArr V c) := by
  show (cfg1.win 7).cut (grid1.coords t) ((dat1 (F := Ideal) V c).after 7 t) = _
  rw [after1_7]
  unfold out1_7 mid1
  rw [View.canon_unit_zero zero2]
  simp only [View.ld_unit_zero (S := S8000x64) zero2, View.ld_unit_zero (S := S8000x128) zero2,
    View.ld_unit_zero (S := S64x64) zero2, View.ld_unit_zero (S := S64) zero1]
  funext y
  obtain ⟨r, j, rfl⟩ : ∃ (r : Fin 8000) (j : Fin 64), y = ix2 r j := ⟨y 0, y 1, eq_ix2 y⟩
  have hlt : 8000 * t.val + r.val < 1000000 := by
    have h125 : t.val < 125 := lt_of_lt_of_eq t.isLt N_1
    omega
  rw [View.read_apply, edgeArr_blk V c t r j ⟨8000 * t.val + r.val, hlt⟩ rfl]
  exact pay_edge V c t r j ⟨8000 * t.val + r.val, hlt⟩ rfl

/-- WHAT POINT `t` WRITES BACK to the second output is block `t` of the array of gated messages. -/
theorem flushed8_eq (c : Dev nD) (t : Fin cfg1.N) :
    (dat1 (F := Ideal) V c).flushed 8 t = ((cfg1.win 8).blk t).view.read (Elt Ideal) (gateArr V c) := by
  show (cfg1.win 8).cut (grid1.coords t) ((dat1 (F := Ideal) V c).after 8 t) = _
  rw [after1_8]
  unfold out1_8 mid1
  rw [View.canon_unit_zero zero2]
  simp only [View.ld_unit_zero (S := S8000x64) zero2, View.ld_unit_zero (S := S8000x128) zero2,
    View.ld_unit_zero (S := S64x64) zero2, View.ld_unit_zero (S := S64) zero1]
  funext y
  obtain ⟨r, j, rfl⟩ : ∃ (r : Fin 8000) (j : Fin 64), y = ix2 r j := ⟨y 0, y 1, eq_ix2 y⟩
  have hlt : 8000 * t.val + r.val < 1000000 := by
    have h125 : t.val < 125 := lt_of_lt_of_eq t.isLt N_1
    omega
  rw [View.read_apply, gateArr_blk V c t r j ⟨8000 * t.val + r.val, hlt⟩ rfl]
  unfold gateAt
  rw [← pay_edge V c t r j ⟨8000 * t.val + r.val, hlt⟩ rfl, ← blk_gathered128 V c t r ⟨8000 * t.val + r.val, hlt⟩ rfl]
  exact pay1_gate_apply _ _ _ _ _ _ _ r j

/-! ### The blocks tile the arrays -/

/-- An index of the first output is in point `t`'s block iff each coordinate is in the block's range on its axis. -/
theorem mem_blk7 (t : Fin cfg1.N) (i : S1000000x64.Idx) :
    i ∈ ((cfg1.win 7).blk t).view.set ↔ ∀ a : Fin 2, win1_7.index t a * S8000x64.size a ≤ (i a).val
      ∧ (i a).val < win1_7.index t a * S8000x64.size a + S8000x64.size a := by
  show i ∈ ((View.whole main_v8_0).slice (win1_7.rect t)).set ↔ _
  rw [View.set_slice_whole, Rect.mem_set_unit]
  exact Iff.rfl

/-- The same for the second output. -/
theorem mem_blk8 (t : Fin cfg1.N) (i : S1000000x64.Idx) :
    i ∈ ((cfg1.win 8).blk t).view.set ↔ ∀ a : Fin 2, win1_8.index t a * S8000x64.size a ≤ (i a).val
      ∧ (i a).val < win1_8.index t a * S8000x64.size a + S8000x64.size a := by
  show i ∈ ((View.whole main_v8_1).slice (win1_8.rect t)).set ↔ _
  rw [View.set_slice_whole, Rect.mem_set_unit]
  exact Iff.rfl

/-- Row `r` of the first output is in the block of point `r / 8000`, which writes it back. -/
theorem cover7 (i : S1000000x64.Idx) :
    ∃ t : Fin cfg1.N, (cfg1.win 7).flush t = true ∧ i ∈ ((cfg1.win 7).blk t).view.set := by
  have hi0 : (i 0).val < 1000000 := idx2_lt0 i
  have hi1 : (i 1).val < 64 := idx2_lt1 i
  have hN : cfg1.N = 125 := N_1
  have ht : (i 0).val / 8000 < cfg1.N := by rw [hN]; omega
  obtain ⟨-, -, -, -, -, -, -, -, -, -, -, h0, h1, -⟩ := edge_block_index ⟨(i 0).val / 8000, ht⟩
  refine ⟨⟨(i 0).val / 8000, ht⟩, flush1_7 _, ?_⟩
  rw [mem_blk7]
  intro a
  match a with
  | ⟨0, _⟩ =>
    show win1_7.index ⟨(i 0).val / 8000, ht⟩ (0 : Fin 2) * 8000 ≤ (i 0).val
      ∧ (i 0).val < win1_7.index ⟨(i 0).val / 8000, ht⟩ (0 : Fin 2) * 8000 + 8000
    rw [h0]; show (i 0).val / 8000 * 8000 ≤ (i 0).val ∧ (i 0).val < (i 0).val / 8000 * 8000 + 8000; omega
  | ⟨1, _⟩ =>
    show win1_7.index ⟨(i 0).val / 8000, ht⟩ (1 : Fin 2) * 64 ≤ (i 1).val
      ∧ (i 1).val < win1_7.index ⟨(i 0).val / 8000, ht⟩ (1 : Fin 2) * 64 + 64
    rw [h1]; omega

/-- The same for the second output. -/
theorem cover8 (i : S1000000x64.Idx) :
    ∃ t : Fin cfg1.N, (cfg1.win 8).flush t = true ∧ i ∈ ((cfg1.win 8).blk t).view.set := by
  have hi0 : (i 0).val < 1000000 := idx2_lt0 i
  have hi1 : (i 1).val < 64 := idx2_lt1 i
  have hN : cfg1.N = 125 := N_1
  have ht : (i 0).val / 8000 < cfg1.N := by rw [hN]; omega
  obtain ⟨-, -, -, -, -, -, -, -, -, -, -, -, -, h0, h1⟩ := edge_block_index ⟨(i 0).val / 8000, ht⟩
  refine ⟨⟨(i 0).val / 8000, ht⟩, flush1_8 _, ?_⟩
  rw [mem_blk8]
  intro a
  match a with
  | ⟨0, _⟩ =>
    show win1_8.index ⟨(i 0).val / 8000, ht⟩ (0 : Fin 2) * 8000 ≤ (i 0).val
      ∧ (i 0).val < win1_8.index ⟨(i 0).val / 8000, ht⟩ (0 : Fin 2) * 8000 + 8000
    rw [h0]; show (i 0).val / 8000 * 8000 ≤ (i 0).val ∧ (i 0).val < (i 0).val / 8000 * 8000 + 8000; omega
  | ⟨1, _⟩ =>
    show win1_8.index ⟨(i 0).val / 8000, ht⟩ (1 : Fin 2) * 64 ≤ (i 1).val
      ∧ (i 1).val < win1_8.index ⟨(i 0).val / 8000, ht⟩ (1 : Fin 2) * 64 + 64
    rw [h1]; omega

/-! ### The arrays after the region -/

/-- The first output array after the region: the array of new edge rows. -/
theorem arr7_eq (c : Dev nD) : (dat1 (F := Ideal) V c).arrAt 7 cfg1.N = edgeArr V c :=
  (dat1 (F := Ideal) V c).arrAt_eq_of_cover 7 (edgeArr V c) (fun t _ => flushed7_eq V c t) cover7

/-- The second output array after the region: the array of gated messages. -/
theorem arr8_eq (c : Dev nD) : (dat1 (F := Ideal) V c).arrAt 8 cfg1.N = gateArr V c :=
  (dat1 (F := Ideal) V c).arrAt_eq_of_cover 8 (gateArr V c) (fun t _ => flushed8_eq V c t) cover8

/-- THE FIRST OUTPUT AT `(e, j)`: edge `e`'s new row, from the arrays the region finds. -/
theorem arr1_eji_apply (c : Dev nD) (e : Fin 1000000) (j : Fin 64) :
    (dat1 (F := Ideal) V c).arrAt 7 cfg1.N (ix2 e j)
      = Spec.edge (fun k => (V c main_v6 : S1000000x128.Idx → EReal) (ix2 e (Spec.hi k)))
          (fun k => (V c main_v7 : S1000000x64.Idx → EReal) (ix2 e k))
          (Spec.lin (fun k => (V c main_arg1 : S1000000x64.Idx → EReal) (ix2 e k))
            (fun k j => (V c main_arg12 : S64x64.Idx → EReal) (ix2 k j)) (fun k => (V c main_arg13 : S64.Idx → EReal) (ix1 k)))
          (fun k => (V c main_arg1 : S1000000x64.Idx → EReal) (ix2 e k))
          (fun k => (V c main_arg14 : S64.Idx → EReal) (ix1 k)) (fun k => (V c main_arg15 : S64.Idx → EReal) (ix1 k)) j := by
  rw [arr7_eq]
  rfl

/-- THE SECOND OUTPUT AT `(e, j)`: the first half of edge `e`'s 128-wide gathered row times the logistic of its new row. -/
theorem arr1_gate_apply (c : Dev nD) (e : Fin 1000000) (j : Fin 64) :
    (dat1 (F := Ideal) V c).arrAt 8 cfg1.N (ix2 e j)
      = @HMul.hMul EReal EReal EReal instHMul (V c main_v6 (ix2 e (Spec.lo j)))
          (Spec.sig ((dat1 (F := Ideal) V c).arrAt 7 cfg1.N (ix2 e j))) := by
  rw [arr8_eq, arr7_eq]
  rfl

end Cert.KernelIdeal.HandArr

end
-- ==== Proof.KI.Val2.lean ====
/-
  The third kernel's payload, read one entry at a time on the extended reals.

  On a block of 10000 rows of 64 entries the payload forms the row a1 + ssh / (ss + a small constant), normalises it
  along the row (the mean is the lane sum divided by the printed 64; the deviation from the mean; the inverse square
  root of the mean squared deviation plus a small constant; an entrywise gain and shift), rectifies it and adds the
  node's own row. Read at row r and column j this is the specification's node row built from the r-th rows of the four
  blocks and the gain and shift rows.

  The lane sum and the two column forms (a vector of 10000 entries cast to a column, a column broadcast along the 64
  lanes) are read first; then the mean column, the deviation block, the inverse deviation column and the normalised
  block, each as the specification's function of the row; the payload is then recognised as these composed.
-/
import proofs.«423548_j53180285059709_3_alg».proof.Proof.Gen.KernelIdeal.Skeleton
import proofs.«423548_j53180285059709_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Idealize.ShloMosaic Idealize.ShloMosaic.ValueIdx

/-! ## The two column forms and the lane sum -/

/-- A vector of 10000 entries cast to a column reads, at (r, u), the operand at r, whatever the unit coordinate u. -/
theorem castCol_apply {α : Type} (x : S10000.Idx → α) (h : S10000.ShapeCasts S10000x1) (r : Fin 10000) (u : Fin 1) :
    shapeCast S10000x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the 64 lanes reads, at (r, c), the column's entry of row r. -/
theorem bcastCol_apply {α : Type} (v : S10000x1.Idx → α) (h : S10000x1.Broadcasts S10000x64) (r : Fin 10000) (c : Fin 64) :
    broadcastTo S10000x64 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The sum along the lanes of a block, read at row r: the sum of that row's 64 entries. -/
theorem laneSum_apply (v : FVec Ideal S10000x64 .f32) (h : S10000x64.Reduces [1] S10000) (hφ : FKind.Formats .f32)
    (hacc : (0x00000000#32 : BitVec 32) = FKind.add.neutral .f32 hφ) (r : Fin 10000) :
    multiReduction (F := Ideal) .add [1] S10000 v 0x00000000#32 h hφ hacc (ix1 r) = ∑ k : Fin 64, v (ix2 r k) := by
  refine (Ideal.multiReduction_add_single v _ h hφ hacc (ix1 r)).trans ?_
  refine Finset.sum_congr rfl fun k _ => congrArg v ?_
  funext a
  apply Fin.ext
  match a with
  | ⟨0, _⟩ => rfl
  | ⟨1, _⟩ => rfl

/-! ## The pieces of the normalisation, as the kernel spells them on a block -/

/-- The column of row means: the lane sum as a column, divided by the printed 64. -/
def meanRows (x : FVec Ideal S10000x64 .f32) : FVec Ideal S10000x1 .f32 :=
  divf (shapeCast S10000x1
      (multiReduction (F := Ideal) .add [1] S10000 x 0x00000000#32 reduces_S10000x64_S10000 (.inl rfl) rfl)
      shapeCasts_S10000_S10000x1)
    (broadcast S10000x1 (Scalar.ofBits (F := Ideal) .f32 0x42800000#32))

/-- The block of deviations: each entry minus its row's mean. -/
def devBlk (x : FVec Ideal S10000x64 .f32) : FVec Ideal S10000x64 .f32 :=
  subf x (broadcastTo S10000x64 (meanRows x) broadcasts_S10000x1_S10000x64)

/-- The column of inverse standard deviations. -/
def istdCol (x : FVec Ideal S10000x64 .f32) : FVec Ideal S10000x1 .f32 :=
  rsqrt (addf (meanRows (mulf (devBlk x) (devBlk x)))
    (broadcast S10000x1 (Scalar.ofBits (F := Ideal) .f32 0x3727C5AC#32)))

/-- The normalised block with gain row g and shift row b. -/
def lnBlk (x : FVec Ideal S10000x64 .f32) (g b : Vec Ideal S64 .f32) : FVec Ideal S10000x64 .f32 :=
  addf
    (mulf (mulf (devBlk x) (broadcastTo S10000x64 (istdCol x) broadcasts_S10000x1_S10000x64))
      (broadcastTo S10000x64 (shapeCast S1x64 g shapeCasts_S64_S1x64) broadcasts_S1x64_S10000x64))
    (broadcastTo S10000x64 (shapeCast S1x64 b shapeCasts_S64_S1x64) broadcasts_S1x64_S10000x64)

/-- The mean column at row r is the mean of the r-th row. -/
theorem meanRows_apply (x : FVec Ideal S10000x64 .f32) (r : Fin 10000) (u : Fin 1) :
    meanRows x (ix2 r u) = Spec.mean (fun k => x (ix2 r k)) := by
  unfold meanRows Spec.mean Spec.rsum
  rw [divf_apply, broadcast_apply, castCol_apply]
  exact congrArg (fun s => Ideal.div s Spec.c64) (laneSum_apply x _ _ _ r)

/-- The deviation block at (r, j) is the r-th row's deviation at j. -/
theorem devBlk_apply (x : FVec Ideal S10000x64 .f32) (r : Fin 10000) (j : Fin 64) :
    devBlk x (ix2 r j) = Spec.dev (fun k => x (ix2 r k)) j := by
  unfold devBlk Spec.dev
  rw [subf_apply, bcastCol_apply, meanRows_apply]

/-- The inverse deviation column at row r is that of the r-th row. -/
theorem istdCol_apply (x : FVec Ideal S10000x64 .f32) (r : Fin 10000) (u : Fin 1) :
    istdCol x (ix2 r u) = Spec.istd (fun k => x (ix2 r k)) := by
  unfold istdCol Spec.istd
  show Ideal.rsqrt (meanRows (mulf (devBlk x) (devBlk x)) (ix2 r u) + Spec.epsLN) = _
  rw [meanRows_apply]
  simp only [mulf_apply, devBlk_apply]

/-- The normalised block at (r, j) is the normalisation of the r-th row at j. -/
theorem lnBlk_apply (x : FVec Ideal S10000x64 .f32) (g b : Vec Ideal S64 .f32) (r : Fin 10000) (j : Fin 64) :
    lnBlk x g b (ix2 r j)
      = Spec.ln (fun k => x (ix2 r k)) (fun k => g (ix1 k)) (fun k => b (ix1 k)) j := by
  unfold lnBlk Spec.ln
  rw [addf_apply, mulf_apply, mulf_apply, devBlk_apply, bcastCol_apply, istdCol_apply,
    broadcastTo_1b_ab_apply, broadcastTo_1b_ab_apply, shapeCast_a_1a_apply, shapeCast_a_1a_apply]

/-! ## The payload -/

/-- The payload is the rectified normalised block of a1 + ssh / (ss + the constant), plus the node's block. -/
theorem k2_pay1_eq (ssh ss a1 h : Vec Ideal S10000x64 .f32) (g b : Vec Ideal S64 .f32) :
    k2_pay1 (F := Ideal) ssh ss a1 g b h
      = addf (maximumf
          (lnBlk (addf a1 (divf ssh (addf ss (broadcast S10000x64 (Scalar.ofBits (F := Ideal) .f32 0x358637BD#32))))) g b)
          (broadcast S10000x64 (Scalar.ofBits (F := Ideal) .f32 0x00000000#32))) h := by
  unfold k2_pay1 lnBlk istdCol devBlk meanRows
  simp only [shapeCast_self]

/-- The payload at row r and column j is the specification's node row, built from the r-th rows, at j. -/
theorem pay2_apply (ssh ss a1 h : Vec Ideal S10000x64 .f32) (g b : Vec Ideal S64 .f32) (r : Fin 10000) (j : Fin 64) :
    k2_pay1 (F := Ideal) ssh ss a1 g b h (ix2 r j)
      = Spec.node (fun k => h (ix2 r k)) (fun k => a1 (ix2 r k)) (fun k => ssh (ix2 r k)) (fun k => ss (ix2 r k))
          (fun k => g (ix1 k)) (fun k => b (ix1 k)) j := by
  rw [k2_pay1_eq, addf_apply, maximumf_apply, lnBlk_apply, broadcast_apply]
  unfold Spec.node Spec.relu
  rw [show Scalar.ofBits (F := Ideal) .f32 0x00000000#32 = (0 : EReal) from Ideal.ofBits_zero_f32]
  rfl

end Cert.KernelIdeal.HandVal

end
-- ==== Proof.KI.Arr2.lean ====
/-
  The third kernel region's output array at its exit, read one entry at a time.

  The region's ten grid points each write back one block of 10000 rows. What point t writes back is its payload over
  the four node blocks at t and the two parameter rows, which every point sees whole; by the payload's reading at an
  entry this is the specification's node row of the arrays' rows 10000 t .. 10000 t + 9999, that is block t of ONE function
  of the arrays as the region finds them. The ten blocks cover the array (row r lies in the block of point r / 10000),
  so the array ends holding that function.
-/
import proofs.«423548_j53180285059709_3_alg».proof.Proof.KI.Body2
import proofs.«423548_j53180285059709_3_alg».proof.Proof.KI.Val2
import proofs.«423548_j53180285059709_3_alg».proof.Proof.Spec
import Idealize.ShloMosaic.Lib.Pipeline.Value
import Idealize.ShloMosaic.Lib.ValueIdx

noncomputable section

namespace Cert.KernelIdeal.HandArr

open Cert.KernelIdeal Cert.KernelIdeal.Gen Cert.KernelIdeal.Hand Cert.KernelIdeal.HandVal Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The function the array ends holding -/

/-- Node n's new row at column j, from the arrays as the region finds them. -/
def nodeAt (c : Dev nD) (n : Fin 100000) (j : Fin 64) : EReal :=
  Spec.node (fun k => (V c main_arg0 : S100000x64.Idx → EReal) (ix2 n k))
    (fun k => (V c main_v3 : S100000x64.Idx → EReal) (ix2 n k))
    (fun k => (V c main_v17 : S100000x64.Idx → EReal) (ix2 n k))
    (fun k => (V c main_v20 : S100000x64.Idx → EReal) (ix2 n k))
    (fun k => (V c main_arg16 : S64.Idx → EReal) (ix1 k))
    (fun k => (V c main_arg17 : S64.Idx → EReal) (ix1 k)) j

/-- The whole array: at index i, node (i 0)'s new row at column (i 1). -/
def nodeArr (c : Dev nD) : S100000x64.Idx → EReal :=
  fun i => nodeAt V c ⟨(i 0).val, idx2_lt0 i⟩ ⟨(i 1).val, idx2_lt1 i⟩

/-- The node array at an index whose coordinates are n and j. -/
theorem nodeArr_apply (c : Dev nD) (i : S100000x64.Idx) (n : Fin 100000) (j : Fin 64) (h0 : (i 0).val = n.val)
    (h1 : (i 1).val = j.val) : nodeArr V c i = nodeAt V c n j := by
  unfold nodeArr
  have e0 : (⟨(i 0).val, idx2_lt0 i⟩ : Fin 100000) = n := Fin.ext h0
  have e1 : (⟨(i 1).val, idx2_lt1 i⟩ : Fin 64) = j := Fin.ext h1
  rw [e0, e1]

/-! ## Where the blocks lie -/

/-- The zero offsets of a whole-buffer rectangle, as a constant function. -/
theorem zeroOff2 : (![0, 0] : Fin 2 → Nat) = fun _ => 0 := funext fun a => by fin_cases a <;> rfl
theorem zeroOff1 : (![0] : Fin 1 → Nat) = fun _ => 0 := funext fun a => by fin_cases a <;> rfl

/-- The printed index maps, decided over the grid: the four node windows and the output move together, block t at
    point t, column block 0; the two parameter rows stay at block 0. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- Row p of block t is a row of the array. -/
theorem row_lt (t : Fin cfg2.N) (p : Fin 10000) : t.val * 10000 + p.val < 100000 := by
  have h : t.val < 10 := lt_of_lt_of_eq t.isLt N_2
  omega

/-- The array's row under row p of block t. -/
def rowAt (t : Fin cfg2.N) (p : Fin 10000) : Fin 100000 := ⟨t.val * 10000 + p.val, row_lt t p⟩

/-! ## The input blocks read off their arrays

A block's coordinate in its array is the block index times the block's size plus the coordinate inside the block: row p
of a node window's block at point t is row 10000 t + p of its array, and a parameter row's block is the row itself. -/

theorem iblk2_0_apply (c : Dev nD) (t : Fin cfg2.N) (p : Fin 10000) (q : Fin 64) :
    (iblk2 V c 0 t : Vec Ideal S10000x64 .f32) (ix2 p q) = (V c main_arg0 : S100000x64.Idx → EReal) (ix2 (rowAt t p) q) := by
  obtain ⟨e0, e1, -⟩ := blockIndex t
  unfold iblk2
  rw [View.read_apply]
  show V c main_arg0 _ = V c main_arg0 _
  congr 1
  funext a
  apply Fin.ext
  match a with
  | ⟨0, _⟩ => show win2_0.index t (0 : Fin 2) * 10000 + 1 * p.val = t.val * 10000 + p.val; rw [e0]; omega
  | ⟨1, _⟩ => show win2_0.index t (1 : Fin 2) * 64 + 1 * q.val = q.val; rw [e1]; omega

theorem iblk2_1_apply (c : Dev nD) (t : Fin cfg2.N) (p : Fin 10000) (q : Fin 64) :
    (iblk2 V c 1 t : Vec Ideal S10000x64 .f32) (ix2 p q) = (V c main_v3 : S100000x64.Idx → EReal) (ix2 (rowAt t p) q) := by
  obtain ⟨-, -, e0, e1, -⟩ := blockIndex t
  unfold iblk2
  rw [View.read_apply]
  show V c main_v3 _ = V c main_v3 _
  congr 1
  funext a
  apply Fin.ext
  match a with
  | ⟨0, _⟩ => show win2_1.index t (0 : Fin 2) * 10000 + 1 * p.val = t.val * 10000 + p.val; rw [e0]; omega
  | ⟨1, _⟩ => show win2_1.index t (1 : Fin 2) * 64 + 1 * q.val = q.val; rw [e1]; omega

theorem iblk2_2_apply (c : Dev nD) (t : Fin cfg2.N) (p : Fin 10000) (q : Fin 64) :
    (iblk2 V c 2 t : Vec Ideal S10000x64 .f32) (ix2 p q) = (V c main_v17 : S100000x64.Idx → EReal) (ix2 (rowAt t p) q) := by
  obtain ⟨-, -, -, -, e0, e1, -⟩ := blockIndex t
  unfold iblk2
  rw [View.read_apply]
  show V c main_v17 _ = V c main_v17 _
  congr 1
  funext a
  apply Fin.ext
  match a with
  | ⟨0, _⟩ => show win2_2.index t (0 : Fin 2) * 10000 + 1 * p.val = t.val * 10000 + p.val; rw [e0]; omega
  | ⟨1, _⟩ => show win2_2.index t (1 : Fin 2) * 64 + 1 * q.val = q.val; rw [e1]; omega

theorem iblk2_3_apply (c : Dev nD) (t : Fin cfg2.N) (p : Fin 10000) (q : Fin 64) :
    (iblk2 V c 3 t : Vec Ideal S10000x64 .f32) (ix2 p q) = (V c main_v20 : S100000x64.Idx → EReal) (ix2 (rowAt t p) q) := by
  obtain ⟨-, -, -, -, -, -, e0, e1, -⟩ := blockIndex t
  unfold iblk2
  rw [View.read_apply]
  show V c main_v20 _ = V c main_v20 _
  congr 1
  funext a
  apply Fin.ext
  match a with
  | ⟨0, _⟩ => show win2_3.index t (0 : Fin 2) * 10000 + 1 * p.val = t.val * 10000 + p.val; rw [e0]; omega
  | ⟨1, _⟩ => show win2_3.index t (1 : Fin 2) * 64 + 1 * q.val = q.val; rw [e1]; omega

theorem iblk2_4_apply (c : Dev nD) (t : Fin cfg2.N) (k : Fin 64) :
    (iblk2 V c 4 t : Vec Ideal S64 .f32) (ix1 k) = (V c main_arg16 : S64.Idx → EReal) (ix1 k) := by
  obtain ⟨-, -, -, -, -, -, -, -, e0, -⟩ := blockIndex t
  unfold iblk2
  rw [View.read_apply]
  show V c main_arg16 _ = V c main_arg16 _
  congr 1
  funext a
  apply Fin.ext
  match a with
  | ⟨0, _⟩ => show win2_4.index t (0 : Fin 1) * 64 + 1 * k.val = k.val; rw [e0]; omega

theorem iblk2_5_apply (c : Dev nD) (t : Fin cfg2.N) (k : Fin 64) :
    (iblk2 V c 5 t : Vec Ideal S64 .f32) (ix1 k) = (V c main_arg17 : S64.Idx → EReal) (ix1 k) := by
  obtain ⟨-, -, -, -, -, -, -, -, -, e0, -⟩ := blockIndex t
  unfold iblk2
  rw [View.read_apply]
  show V c main_arg17 _ = V c main_arg17 _
  congr 1
  funext a
  apply Fin.ext
  match a with
  | ⟨0, _⟩ => show win2_5.index t (0 : Fin 1) * 64 + 1 * k.val = k.val; rw [e0]; omega

/-! ## What a point writes back, and the array at the region's exit -/

/-- What point t writes back is block t of the node array. -/
theorem flushed_eq (c : Dev nD) (t : Fin cfg2.N) :
    (dat2 V c).flushed 6 t = ((cfg2.win 6).blk t).view.read (Elt Ideal) (nodeArr V c) := by
  show (cfg2.win 6).cut (grid2.coords t) ((dat2 V c).after 6 t) = _
  rw [after2_6]
  unfold out2_6
  rw [View.canon_unit_zero zeroOff2]
  simp only [View.ld_unit_zero (S := S10000x64) zeroOff2, View.ld_unit_zero (S := S64) zeroOff1]
  funext y
  obtain ⟨p, q, rfl⟩ : ∃ (p : Fin 10000) (q : Fin 64), y = ix2 p q := ⟨y 0, y 1, eq_ix2 y⟩
  obtain ⟨-, -, -, -, -, -, -, -, -, -, e0, e1⟩ := blockIndex t
  show k2_pay1 (F := Ideal) (iblk2 V c 2 t) (iblk2 V c 3 t) (iblk2 V c 1 t) (iblk2 V c 4 t) (iblk2 V c 5 t) (iblk2 V c 0 t) (ix2 p q)
      = nodeArr V c (((cfg2.win 6).blk t).view.emb (ix2 p q))
  rw [pay2_apply]
  simp only [iblk2_0_apply, iblk2_1_apply, iblk2_2_apply, iblk2_3_apply, iblk2_4_apply, iblk2_5_apply]
  refine (nodeArr_apply V c _ (rowAt t p) q ?_ ?_).symm
  · show win2_6.index t (0 : Fin 2) * 10000 + 1 * p.val = t.val * 10000 + p.val
    rw [e0]; omega
  · show win2_6.index t (1 : Fin 2) * 64 + 1 * q.val = q.val
    rw [e1]; omega

/-- An index of the array is in point t's block iff each coordinate is in the block's range on its axis. -/
theorem mem_blk (t : Fin cfg2.N) (i : S100000x64.Idx) :
    i ∈ ((cfg2.win 6).blk t).view.set
      ↔ ∀ a : Fin 2, win2_6.index t a * S10000x64.size a ≤ (i a).val
          ∧ (i a).val < win2_6.index t a * S10000x64.size a + S10000x64.size a := by
  show i ∈ ((View.whole main_v21).slice (win2_6.rect t)).set ↔ _
  rw [View.set_slice_whole, Rect.mem_set_unit]
  exact Iff.rfl

/-- Every index of the array lies in the block of the point its row's ten-thousand names. -/
theorem cover (i : S100000x64.Idx) :
    ∃ t : Fin cfg2.N, (cfg2.win 6).flush t = true ∧ i ∈ ((cfg2.win 6).blk t).view.set := by
  have hi0 : (i 0).val < 100000 := idx2_lt0 i
  have hi1 : (i 1).val < 64 := idx2_lt1 i
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, -, -, -, -, e0, e1⟩ := blockIndex t
  refine ⟨t, flush2_6 t, ?_⟩
  rw [mem_blk]
  intro a
  match a with
  | ⟨0, _⟩ =>
    show win2_6.index t (0 : Fin 2) * 10000 ≤ (i 0).val ∧ (i 0).val < win2_6.index t (0 : Fin 2) * 10000 + 10000
    rw [e0, ht]; omega
  | ⟨1, _⟩ =>
    show win2_6.index t (1 : Fin 2) * 64 ≤ (i 1).val ∧ (i 1).val < win2_6.index t (1 : Fin 2) * 64 + 64
    rw [e1]; omega

/-- The output array at the region's exit is the node array. -/
theorem arr2_eq (c : Dev nD) : (dat2 (F := Ideal) V c).arrAt 6 cfg2.N = nodeArr V c :=
  (dat2 V c).arrAt_eq_of_cover 6 (nodeArr V c) (fun t _ => flushed_eq V c t) cover

/-- The output array at the region's exit, at row n and column j: node n's new row at j. -/
theorem arr2_apply (V : (c : Dev nD) → (b : Ref sig .tc) → Buf (Elt Ideal) ((c : Thread nD τ).loc b)) (c : Dev nD) (n : Fin 100000) (j : Fin 64) :
    (dat2 (F := Ideal) V c).arrAt 6 cfg2.N (ix2 n j)
      = Spec.node (fun k => (V c main_arg0 : S100000x64.Idx → EReal) (ix2 n k))
          (fun k => (V c main_v3 : S100000x64.Idx → EReal) (ix2 n k))
          (fun k => (V c main_v17 : S100000x64.Idx → EReal) (ix2 n k))
          (fun k => (V c main_v20 : S100000x64.Idx → EReal) (ix2 n k))
          (fun k => (V c main_arg16 : S64.Idx → EReal) (ix1 k))
          (fun k => (V c main_arg17 : S64.Idx → EReal) (ix1 k)) j := by
  rw [arr2_eq]
  rfl

end Cert.KernelIdeal.HandArr

end
-- ==== Proof.KI.HostA.lean ====
/-
  The host operations before the first kernel region and between the first and the second, read one entry at a time.

  Before the first region four 64 × 64 matrices are joined side by side into one 64 × 256 matrix, and four rows of 64 into
  one row of 256: column 64·a + j of the joined matrix is column j of the a-th matrix, and likewise for the rows. After
  the first region its 100000 × 256 result is cut into three column bands: the first quarter, the middle half and the
  last quarter.
-/
import proofs.«423548_j53180285059709_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandHost

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]
variable (Wv : Valuation τ sig (Elt F))

/-- Column j of the a-th quarter of a row of 256. -/
def col (a : Fin 4) (j : Fin 64) : Fin 256 := ⟨64 * a.val + j.val, by omega⟩
/-- Column j of the middle half of a row of 256. -/
def mid (j : Fin 128) : Fin 256 := ⟨64 + j.val, by omega⟩

/-! ## The two joins -/

/-- After the first host stretch the joined matrix is the four matrices side by side. -/
theorem wcat_eq : StableHlo.after (hostOps0 (F := F)) Wv (Proc.devRef .tc main_v0)
    = concatenate S64x256 1 [⟨S64x64, Wv (Proc.devRef .tc main_arg4)⟩, ⟨S64x64, Wv (Proc.devRef .tc main_arg6)⟩,
        ⟨S64x64, Wv (Proc.devRef .tc main_arg8)⟩, ⟨S64x64, Wv (Proc.devRef .tc main_arg10)⟩]
        concatenates_S64x64_S64x64_S64x64_S64x64_S64x256_d1 := by
  after_results
  rfl

/-- After the first host stretch the joined row is the four rows end to end. -/
theorem bcat_eq : StableHlo.after (hostOps0 (F := F)) Wv (Proc.devRef .tc main_v1)
    = concatenate S256 0 [⟨S64, Wv (Proc.devRef .tc main_arg5)⟩, ⟨S64, Wv (Proc.devRef .tc main_arg7)⟩,
        ⟨S64, Wv (Proc.devRef .tc main_arg9)⟩, ⟨S64, Wv (Proc.devRef .tc main_arg11)⟩]
        concatenates_S64_S64_S64_S64_S256_d0 := by
  after_results
  rfl

/-- The first quarter of the joined matrix's row k is row k of the first matrix. -/
theorem wcat_apply0 (k j : Fin 64) :
    StableHlo.after (hostOps0 (F := F)) Wv (Proc.devRef .tc main_v0) (ix2 k (col 0 j)) = Wv (Proc.devRef .tc main_arg4) (ix2 k j) := by
  refine (congrFun (wcat_eq Wv) _).trans ?_
  exact concatenate_apply_piece (α := Elt F .f32) (t := S64x256) (1 : Fin 2)
    [⟨S64x64, Wv (Proc.devRef .tc main_arg4)⟩, ⟨S64x64, Wv (Proc.devRef .tc main_arg6)⟩,
      ⟨S64x64, Wv (Proc.devRef .tc main_arg8)⟩, ⟨S64x64, Wv (Proc.devRef .tc main_arg10)⟩]
    concatenates_S64x64_S64x64_S64x64_S64x64_S64x256_d1 (ix2 k (col 0 j)) 0 (by show 0 < 4; decide)
    S64x64 _ rfl rfl 0 rfl (ix2 k j)
    (fun b hb => by
      match b with
      | ⟨0, _⟩ => rfl
      | ⟨1, _⟩ => exact absurd rfl hb)
    (by show 0 + j.val = 64 * 0 + j.val; omega)

/-- The second quarter of the joined matrix's row k is row k of the second matrix. -/
theorem wcat_apply1 (k j : Fin 64) :
    StableHlo.after (hostOps0 (F := F)) Wv (Proc.devRef .tc main_v0) (ix2 k (col 1 j)) = Wv (Proc.devRef .tc main_arg6) (ix2 k j) := by
  refine (congrFun (wcat_eq Wv) _).trans ?_
  exact concatenate_apply_piece (α := Elt F .f32) (t := S64x256) (1 : Fin 2)
    [⟨S64x64, Wv (Proc.devRef .tc main_arg4)⟩, ⟨S64x64, Wv (Proc.devRef .tc main_arg6)⟩,
      ⟨S64x64, Wv (Proc.devRef .tc main_arg8)⟩, ⟨S64x64, Wv (Proc.devRef .tc main_arg10)⟩]
    concatenates_S64x64_S64x64_S64x64_S64x64_S64x256_d1 (ix2 k (col 1 j)) 1 (by show 1 < 4; decide)
    S64x64 _ rfl rfl 64 rfl (ix2 k j)
    (fun b hb => by
      match b with
      | ⟨0, _⟩ => rfl
      | ⟨1, _⟩ => exact absurd rfl hb)
    (by show 64 + j.val = 64 * 1 + j.val; omega)

/-- The third quarter of the joined matrix's row k is row k of the third matrix. -/
theorem wcat_apply2 (k j : Fin 64) :
    StableHlo.after (hostOps0 (F := F)) Wv (Proc.devRef .tc main_v0) (ix2 k (col 2 j)) = Wv (Proc.devRef .tc main_arg8) (ix2 k j) := by
  refine (congrFun (wcat_eq Wv) _).trans ?_
  exact concatenate_apply_piece (α := Elt F .f32) (t := S64x256) (1 : Fin 2)
    [⟨S64x64, Wv (Proc.devRef .tc main_arg4)⟩, ⟨S64x64, Wv (Proc.devRef .tc main_arg6)⟩,
      ⟨S64x64, Wv (Proc.devRef .tc main_arg8)⟩, ⟨S64x64, Wv (Proc.devRef .tc main_arg10)⟩]
    concatenates_S64x64_S64x64_S64x64_S64x64_S64x256_d1 (ix2 k (col 2 j)) 2 (by show 2 < 4; decide)
    S64x64 _ rfl rfl 128 rfl (ix2 k j)
    (fun b hb => by
      match b with
      | ⟨0, _⟩ => rfl
      | ⟨1, _⟩ => exact absurd rfl hb)
    (by show 128 + j.val = 64 * 2 + j.val; omega)

/-- The fourth quarter of the joined matrix's row k is row k of the fourth matrix. -/
theorem wcat_apply3 (k j : Fin 64) :
    StableHlo.after (hostOps0 (F := F)) Wv (Proc.devRef .tc main_v0) (ix2 k (col 3 j)) = Wv (Proc.devRef .tc main_arg10) (ix2 k j) := by
  refine (congrFun (wcat_eq Wv) _).trans ?_
  exact concatenate_apply_piece (α := Elt F .f32) (t := S64x256) (1 : Fin 2)
    [⟨S64x64, Wv (Proc.devRef .tc main_arg4)⟩, ⟨S64x64, Wv (Proc.devRef .tc main_arg6)⟩,
      ⟨S64x64, Wv (Proc.devRef .tc main_arg8)⟩, ⟨S64x64, Wv (Proc.devRef .tc main_arg10)⟩]
    concatenates_S64x64_S64x64_S64x64_S64x64_S64x256_d1 (ix2 k (col 3 j)) 3 (by show 3 < 4; decide)
    S64x64 _ rfl rfl 192 rfl (ix2 k j)
    (fun b hb => by
      match b with
      | ⟨0, _⟩ => rfl
      | ⟨1, _⟩ => exact absurd rfl hb)
    (by show 192 + j.val = 64 * 3 + j.val; omega)

/-- The first quarter of the joined row is the first row. -/
theorem bcat_apply0 (j : Fin 64) :
    StableHlo.after (hostOps0 (F := F)) Wv (Proc.devRef .tc main_v1) (ix1 (col 0 j)) = Wv (Proc.devRef .tc main_arg5) (ix1 j) := by
  refine (congrFun (bcat_eq Wv) _).trans ?_
  exact concatenate_apply_piece (α := Elt F .f32) (t := S256) (0 : Fin 1)
    [⟨S64, Wv (Proc.devRef .tc main_arg5)⟩, ⟨S64, Wv (Proc.devRef .tc main_arg7)⟩,
      ⟨S64, Wv (Proc.devRef .tc main_arg9)⟩, ⟨S64, Wv (Proc.devRef .tc main_arg11)⟩]
    concatenates_S64_S64_S64_S64_S256_d0 (ix1 (col 0 j)) 0 (by show 0 < 4; decide)
    S64 _ rfl rfl 0 rfl (ix1 j)
    (fun b hb => by
      match b with
      | ⟨0, _⟩ => exact absurd rfl hb)
    (by show 0 + j.val = 64 * 0 + j.val; omega)

/-- The second quarter of the joined row is the second row. -/
theorem bcat_apply1 (j : Fin 64) :
    StableHlo.after (hostOps0 (F := F)) Wv (Proc.devRef .tc main_v1) (ix1 (col 1 j)) = Wv (Proc.devRef .tc main_arg7) (ix1 j) := by
  refine (congrFun (bcat_eq Wv) _).trans ?_
  exact concatenate_apply_piece (α := Elt F .f32) (t := S256) (0 : Fin 1)
    [⟨S64, Wv (Proc.devRef .tc main_arg5)⟩, ⟨S64, Wv (Proc.devRef .tc main_arg7)⟩,
      ⟨S64, Wv (Proc.devRef .tc main_arg9)⟩, ⟨S64, Wv (Proc.devRef .tc main_arg11)⟩]
    concatenates_S64_S64_S64_S64_S256_d0 (ix1 (col 1 j)) 1 (by show 1 < 4; decide)
    S64 _ rfl rfl 64 rfl (ix1 j)
    (fun b hb => by
      match b with
      | ⟨0, _⟩ => exact absurd rfl hb)
    (by show 64 + j.val = 64 * 1 + j.val; omega)

/-- The third quarter of the joined row is the third row. -/
theorem bcat_apply2 (j : Fin 64) :
    StableHlo.after (hostOps0 (F := F)) Wv (Proc.devRef .tc main_v1) (ix1 (col 2 j)) = Wv (Proc.devRef .tc main_arg9) (ix1 j) := by
  refine (congrFun (bcat_eq Wv) _).trans ?_
  exact concatenate_apply_piece (α := Elt F .f32) (t := S256) (0 : Fin 1)
    [⟨S64, Wv (Proc.devRef .tc main_arg5)⟩, ⟨S64, Wv (Proc.devRef .tc main_arg7)⟩,
      ⟨S64, Wv (Proc.devRef .tc main_arg9)⟩, ⟨S64, Wv (Proc.devRef .tc main_arg11)⟩]
    concatenates_S64_S64_S64_S64_S256_d0 (ix1 (col 2 j)) 2 (by show 2 < 4; decide)
    S64 _ rfl rfl 128 rfl (ix1 j)
    (fun b hb => by
      match b with
      | ⟨0, _⟩ => exact absurd rfl hb)
    (by show 128 + j.val = 64 * 2 + j.val; omega)

/-- The fourth quarter of the joined row is the fourth row. -/
theorem bcat_apply3 (j : Fin 64) :
    StableHlo.after (hostOps0 (F := F)) Wv (Proc.devRef .tc main_v1) (ix1 (col 3 j)) = Wv (Proc.devRef .tc main_arg11) (ix1 j) := by
  refine (congrFun (bcat_eq Wv) _).trans ?_
  exact concatenate_apply_piece (α := Elt F .f32) (t := S256) (0 : Fin 1)
    [⟨S64, Wv (Proc.devRef .tc main_arg5)⟩, ⟨S64, Wv (Proc.devRef .tc main_arg7)⟩,
      ⟨S64, Wv (Proc.devRef .tc main_arg9)⟩, ⟨S64, Wv (Proc.devRef .tc main_arg11)⟩]
    concatenates_S64_S64_S64_S64_S256_d0 (ix1 (col 3 j)) 3 (by show 3 < 4; decide)
    S64 _ rfl rfl 192 rfl (ix1 j)
    (fun b hb => by
      match b with
      | ⟨0, _⟩ => exact absurd rfl hb)
    (by show 192 + j.val = 64 * 3 + j.val; omega)

/-! ## The three column bands -/

/-- The first band is the first quarter of each row. -/
theorem slice_v3 (n : Fin 100000) (j : Fin 64) :
    StableHlo.after (hostOps1 (F := F)) Wv (Proc.devRef .tc main_v3) (ix2 n j) = Wv (Proc.devRef .tc main_v2) (ix2 n (col 0 j)) := by
  have h : StableHlo.after (hostOps1 (F := F)) Wv (Proc.devRef .tc main_v3)
      = extractStridedSlice S100000x64 ![0, 0] (Wv (Proc.devRef .tc main_v2)) slices_S100000x256_S100000x64_0_0 := by
    after_results
  refine (congrFun h _).trans ?_
  exact slice2_axis1_apply 0 _ slices_S100000x256_S100000x64_0_0 n j (col 0 j) (by show 64 * 0 + j.val = 0 + j.val; omega)

/-- The second band is the middle half of each row. -/
theorem slice_v4 (n : Fin 100000) (j : Fin 128) :
    StableHlo.after (hostOps1 (F := F)) Wv (Proc.devRef .tc main_v4) (ix2 n j) = Wv (Proc.devRef .tc main_v2) (ix2 n (mid j)) := by
  have h : StableHlo.after (hostOps1 (F := F)) Wv (Proc.devRef .tc main_v4)
      = extractStridedSlice S100000x128 ![0, 64] (Wv (Proc.devRef .tc main_v2)) slices_S100000x256_S100000x128_0_64 := by
    after_results
  refine (congrFun h _).trans ?_
  exact slice2_axis1_apply 64 _ slices_S100000x256_S100000x128_0_64 n j (mid j) rfl

/-- The third band is the last quarter of each row. -/
theorem slice_v5 (n : Fin 100000) (j : Fin 64) :
    StableHlo.after (hostOps1 (F := F)) Wv (Proc.devRef .tc main_v5) (ix2 n j) = Wv (Proc.devRef .tc main_v2) (ix2 n (col 3 j)) := by
  have h : StableHlo.after (hostOps1 (F := F)) Wv (Proc.devRef .tc main_v5)
      = extractStridedSlice S100000x64 ![0, 192] (Wv (Proc.devRef .tc main_v2)) slices_S100000x256_S100000x64_0_192 := by
    after_results
  refine (congrFun h _).trans ?_
  exact slice2_axis1_apply 192 _ slices_S100000x256_S100000x64_0_192 n j (col 3 j) (by show 64 * 3 + j.val = 192 + j.val; omega)

end Cert.KernelIdeal.HandHost

end
-- ==== Proof.LibTake.lean ====
/-
  Reading rows of a table at in-range positions. A take along the first axis of a table with N rows prints, for a
  vector of 32-bit positions, as: the positions with N added where negative (w); w as a column (v); a mask that is set
  at a row exactly when 0 ≤ v ≤ N - 1 there, signed; the gather of the table's rows at v; and a select that keeps a
  gathered row where the mask is set and writes a constant (a NaN) where it is not. Plain indexing `x[idx]` prints the
  same w and v and then the gather alone.

  When every position, read unsigned, is below N and N ≤ 2³¹ — that is, every position read as a signed integer lies in
  [0, N) — no position is negative, so w is the positions themselves; every mask bit is set, so the select keeps every
  gathered row; and the two programs' results are the same gather. All of this is pointwise in the positions and does
  not depend on the shapes involved, on which axes the broadcasts and the reduction run along, or on what the gather
  reads, so it is stated once at arbitrary shapes and evidence.
-/
import Idealize.ShloMosaic.Lib.StableHlo.Predicate
import Idealize.ShloMosaic.Lib.ReduceAll

namespace LibTake

open Idealize.ShloMosaic

/-- Every entry of an array of 32-bit words, read unsigned, is below `N`. For `N ≤ 2³¹`: every entry, read as a signed
    integer, lies in `[0, N)`. -/
def InRange {s : Shape} (N : ℕ) (idx : IVec s 32) : Prop := ∀ i, (idx i).toNat < N

theorem InRange.mono {s : Shape} {N M : ℕ} {idx : IVec s 32} (h : InRange N idx) (hNM : N ≤ M) : InRange M idx :=
  fun i => Nat.lt_of_lt_of_le (h i) hNM

/-! ## Words -/

/-- A word below 2³¹ is not negative: the signed "less than zero" is not set. -/
theorem slt_zero_ne_one {a : BitVec 32} (ha : a.toNat < 2 ^ 31) : IntOp.cmpi .slt a 0#32 ≠ 1#1 := fun h => by
  have h' := (StableHlo.Predicate.slt_iff_toNat ha (by decide)).1 h
  simp at h'

/-- A word below 2³¹ is at least zero, signed. -/
theorem sge_zero_eq_one {a : BitVec 32} (ha : a.toNat < 2 ^ 31) : IntOp.cmpi .sge a 0#32 = 1#1 :=
  (StableHlo.Predicate.sge_iff_toNat ha (by decide)).2 (by simp)

/-- Two words below 2³¹ compare signed as they do unsigned. -/
theorem sle_eq_one {a hi : BitVec 32} (hhi : hi.toNat < 2 ^ 31) (h : a.toNat ≤ hi.toNat) : IntOp.cmpi .sle a hi = 1#1 :=
  (StableHlo.Predicate.sle_iff_toNat (Nat.lt_of_le_of_lt h hhi) hhi).2 h

/-- A word that is at least zero, signed, is below 2³¹. -/
theorem toNat_lt_of_sge_zero {w : BitVec 32} (h : IntOp.cmpi .sge w 0#32 = 1#1) : w.toNat < 2 ^ 31 := by
  unfold IntOp.cmpi at h
  rw [StableHlo.Predicate.ofBool_eq_one_iff] at h
  have h' : (0#32).toInt ≤ w.toInt := by simpa [BitVec.sle] using h
  have h0 : (0#32).toInt = 0 := by decide
  rw [h0] at h'
  have hw := BitVec.toInt_eq_toNat_cond w
  have := w.isLt
  split at hw <;> omega

/-- A word in `[0, b)` signed, for a bound `b` below 2³¹, is below `b` unsigned. -/
theorem toNat_lt_of_signed {w b : BitVec 32} (hb : b.toNat < 2 ^ 31) (h0 : IntOp.cmpi .sge w 0#32 = 1#1)
    (h1 : IntOp.cmpi .slt w b = 1#1) : w.toNat < b.toNat :=
  (StableHlo.Predicate.slt_iff_toNat (toNat_lt_of_sge_zero h0) hb).1 h1

/-- The range test read back: positions that pass "≥ 0" and "< b" at every index, signed, against constant arrays of
    zeros and of a bound `b` below 2³¹ with value `N`, are in range. -/
theorem InRange.of_compares {s : Shape} {N : ℕ} {idx lo hi : IVec s 32} {b : BitVec 32} (hb : b.toNat < 2 ^ 31)
    (hbN : b.toNat = N) (hlo : ∀ i, lo i = 0#32) (hhi : ∀ i, hi i = b)
    (h0 : ∀ i, cmpi .sge idx lo i = 1#1) (h1 : ∀ i, cmpi .slt idx hi i = 1#1) : InRange N idx := fun i => by
  have e0 : IntOp.cmpi .sge (idx i) 0#32 = 1#1 := by rw [← hlo i]; exact h0 i
  have e1 : IntOp.cmpi .slt (idx i) b = 1#1 := by rw [← hhi i]; exact h1 i
  rw [← hbN]
  exact toNat_lt_of_signed hb e0 e1

/-! ## A mask of ones -/

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of 1s is 1 at every result index, along whatever axes. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose condition is set everywhere is its first branch. -/
theorem select_ones {α : Type} {s : Shape} (c : IVec s 1) (hc : ∀ i, c i = 1#1) (a b : s.Idx → α) : select c a b = a := by
  funext i
  have h1 : c i = 1 := hc i
  show (if c i = 1 then a i else b i) = a i
  rw [if_pos h1]

/-- A select whose condition is set nowhere is its second branch. -/
theorem select_not_ones {α : Type} {s : Shape} (c : IVec s 1) (hc : ∀ i, c i ≠ 1#1) (a b : s.Idx → α) : select c a b = b := by
  funext i
  have h1 : ¬ c i = 1 := hc i
  show (if c i = 1 then a i else b i) = b i
  rw [if_neg h1]

/-! ## The printed take -/

section Take

variable {α : Type} {sx si sv sm so sc s1 s11 su : Shape}

/-- The wrapped positions: where every position is below 2³¹ (not negative), "add N where negative" changes nothing. -/
theorem wrap_eq (d0 : Fin sc.rank → Fin si.rank) (h0 : sc.BroadcastsInDim si d0) (idx add : IVec si 32)
    (hidx : InRange (2 ^ 31) idx) :
    select (cmpi .slt idx (broadcastInDim si d0 h0 (constantI sc 32 0#32))) (addi idx add) idx = idx :=
  select_not_ones _ (fun i => slt_zero_ne_one (hidx i)) _ _

/-- The bounds mask over a column `v` of positions all at most `hi` (itself below 2³¹): set everywhere. -/
theorem mask_eq_one (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (v : IVec sv 32) (hi : BitVec 32) (hhi : hi.toNat < 2 ^ 31) (hv : ∀ i, (v i).toNat ≤ hi.toNat) (j : sm.Idx) :
    Host.reduce IntOp.andi
      (andi (cmpi .sge v (broadcastInDim sv d6 h6 (constantI sc 32 0#32)))
            (cmpi .sle v (broadcastInDim sv d9 h9 (broadcastInDim s11 d8 h8 (constantI s1 32 hi)))))
      (constantI su 1 1#1) hr hu j = 1#1 :=
  reduce_andi_ones _ _ hr hu
    (fun i => IntOp.andi_eq_one.2 ⟨sge_zero_eq_one (Nat.lt_of_le_of_lt (hv i) hhi), sle_eq_one hhi (hv i)⟩)
    (fun _ => rfl) j

/-- THE TAKE, the positions left as printed. With every position in `[0, N)` and `hi = N - 1` the masked gather is
    the gather: the same term with the mask, its broadcast, the constant and the select removed. -/
theorem take_eq_gather {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x
        (broadcastInDim sv d5 h5 (select (cmpi .slt idx (broadcastInDim si d0 h0 (constantI sc 32 0#32))) (addi idx add) idx)) := by
  have hle : ∀ k, (idx k).toNat ≤ hi.toNat := fun k => by have := hidx k; omega
  rw [wrap_eq d0 h0 idx add (hidx.mono hN)]
  exact select_ones _ (fun j => mask_eq_one d6 h6 d8 h8 d9 h9 hr hu _ hi (by omega) (fun i => hle _) _) _ _

/-- THE TAKE, read at the positions themselves: the masked gather at in-range positions is the gather of the table at the
    column of positions. -/
theorem take_eq_gather_idx {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x (broadcastInDim sv d5 h5 idx) := by
  rw [take_eq_gather G x nanv d0 h0 d5 h5 d6 h6 d8 h8 d9 h9 hr hu dm hm idx add hi hN hhi hidx,
    wrap_eq d0 h0 idx add (hidx.mono hN)]

/-- Plain indexing at in-range positions: the gather at the wrapped positions is the gather at the positions. -/
theorem index_eq_gather_idx {N : ℕ} (G : GatherDims sx sv so) (x : sx.Idx → α)
    (d0 : Fin sc.rank → Fin si.rank) (h0 : sc.BroadcastsInDim si d0)
    (d5 : Fin si.rank → Fin sv.rank) (h5 : si.BroadcastsInDim sv d5)
    (idx add : IVec si 32) (hN : N ≤ 2 ^ 31) (hidx : InRange N idx) :
    Host.gather G x
        (broadcastInDim sv d5 h5 (select (cmpi .slt idx (broadcastInDim si d0 h0 (constantI sc 32 0#32))) (addi idx add) idx))
    = Host.gather G x (broadcastInDim sv d5 h5 idx) := by
  rw [wrap_eq d0 h0 idx add (hidx.mono hN)]

end Take

end LibTake
-- ==== Proof.LibGatherRows.lean ====
/-
  A gather of whole rows, read at an index. What `x[idx]` along the first axis of a table `x : [N, C]` lowers to, for a
  column of start indices `idx : [E, 1]`: a gather with offset axis 1, the operand's axis 0 collapsed, no batching axes, the
  start index mapped to axis 0, the index vector on the start indices' axis 1, and slices of one whole row. Result element
  `(e, j)` is the table at row `idx[e, 0]` — read as a signed integer and clamped into `[0, N − 1]`, as a gather clamps
  every start index — and column `j`. Where the start index, read unsigned, is already below `N ≤ 2³¹`, the sign and the
  clamp change nothing and the row is the start index itself.
-/
import Idealize.ShloMosaic.Lib.ValueIdx

namespace LibGatherRows

open Idealize.ShloMosaic Idealize.ShloMosaic.ValueIdx

variable {α : Type}

/-- The dimension numbers of a gather of whole rows, for an operand `[N, C]`, start indices `[E, 1]` and a result
    `[E, C]`; their conditions `wf` are decided on a program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, j)`: the operand at row `idx[e, 0]`, read signed and clamped into `[0, N − 1]`, and
    column `j`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowDims N C E wf).start (ix2 e j) idx 0 + (rowDims N C E wf).batchCoord (ix2 e j) 0
      + (rowDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e j) idx 1 + (rowDims N C E wf).batchCoord (ix2 e j) 1
      + (rowDims N C E wf).offCoord (ix2 e j) 1 = j.val
    rw [GatherDims.batchCoord_eq_zero _ _ _ List.not_mem_nil]
    have hst : (rowDims N C E wf).start (ix2 e j) idx 1 = 0 := by
      unfold GatherDims.start
      rw [dif_neg (show ¬ (1 : Fin 2) ∈ (rowDims N C E wf).startIndexMap from
        fun h => absurd (congrArg Fin.val (List.mem_singleton.mp h)) Nat.one_ne_zero)]
    have hk : (1 : Fin 2) ∈ (rowDims N C E wf).sKept :=
      (GatherDims.mem_sKept _ _).mpr
        ⟨fun h => absurd (congrArg Fin.val (List.mem_singleton.mp h)) Nat.one_ne_zero, List.not_mem_nil⟩
    have hoff : (rowDims N C E wf).offCoord (ix2 e j) 1 = j.val := by
      unfold GatherDims.offCoord
      rw [dif_pos hk]
      rfl
    rw [hst, hoff, Nat.add_zero, Nat.zero_add]

/-- A 32-bit word below 2³¹ read as a signed integer is its unsigned reading. -/
theorem toInt_toNat_of_lt {a : BitVec 32} (ha : a.toNat < 2 ^ 31) : a.toInt.toNat = a.toNat := by
  have hw := BitVec.toInt_eq_toNat_cond a
  split at hw <;> omega

/-- THE GATHER OF ROWS AT AN IN-RANGE START INDEX: where `idx[e, 0]`, read unsigned, is below `N ≤ 2³¹`, the result's
    element `(e, j)` is the operand at row `idx[e, 0]` and column `j`. -/
theorem gather_rows_apply_of_lt {N C E : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C)
    (h : (idx (ix2 e (0 : Fin 1))).toNat < N) :
    Host.gather (rowDims N C E wf) x idx (ix2 e j) = x (ix2 (⟨(idx (ix2 e (0 : Fin 1))).toNat, h⟩ : Fin N) j) := by
  rw [gather_rows_apply (by omega) wf x idx e j]
  congr 2
  refine Fin.ext ?_
  show min (idx (ix2 e (0 : Fin 1))).toInt.toNat (N - 1) = (idx (ix2 e (0 : Fin 1))).toNat
  rw [toInt_toNat_of_lt (by omega)]
  omega

/-- A record of dimension numbers with the fields of a gather of whole rows is `rowDims`. -/
theorem eq_rowDims {N C E : Nat} (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C]) :
    ∃ wf, G = rowDims N C E wf := by
  obtain ⟨od, cd, ob, sb, sm, iv, ss, wf⟩ := G
  simp only at hod hcd hob hsb hsm hiv hss
  subst hod hcd hob hsb hsm hiv hss
  exact ⟨wf, rfl⟩

/-- The gather of rows at an in-range start index, for any record of dimension numbers with those fields. -/
theorem gather_apply_of_fields {N C E : Nat} (hN : N ≤ 2 ^ 31) (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (x : (⟨2, ![N, C]⟩ : Shape).Idx → α) (idx : IVec ⟨2, ![E, 1]⟩ 32) (e : Fin E) (j : Fin C)
    (h : (idx (ix2 e (0 : Fin 1))).toNat < N) :
    Host.gather G x idx (ix2 e j) = x (ix2 (⟨(idx (ix2 e (0 : Fin 1))).toNat, h⟩ : Fin N) j) := by
  obtain ⟨wf, rfl⟩ := eq_rowDims G hod hcd hob hsb hsm hiv hss
  exact gather_rows_apply_of_lt hN wf x idx e j h

end LibGatherRows
-- ==== Proof.KI.HostB.lean ====
/-
  The kernel program's host operations between its kernel regions: the two takes of table rows at the edges' positions,
  the gate, and the two scattered sums, each read off the operations' list at whatever the buffers hold when the stretch
  is entered.

  A take prints as: the positions with the row count added where negative, as a column; a mask that is set at a row
  exactly when the column's entry is in range; the gather of the table's rows at the column; and a select that keeps a
  gathered row where the mask is set. Where every position, read unsigned, is below the row count, no position is
  negative and every mask bit is set, so the take is the gather at the column of the positions themselves, and the row of
  an edge is the table's row at the edge's position.

  The gate is one over one plus the exponential of the negation, entry by entry; each scattered sum is the scattered sum
  of its updates into an array of zeros at the column of target positions.
-/
import proofs.«423548_j53180285059709_3_alg».proof.Proof.Gen.KernelIdeal.Launch
import proofs.«423548_j53180285059709_3_alg».proof.Proof.Spec
import proofs.«423548_j53180285059709_3_alg».proof.Proof.LibTake
import proofs.«423548_j53180285059709_3_alg».proof.Proof.LibGatherRows
import Idealize.ShloMosaic.Lib.StableHlo.Run
import Idealize.ShloMosaic.Lib.Pipeline.Value
import Idealize.ShloMosaic.Lib.ValueIdx

set_option maxRecDepth 16384

noncomputable section

namespace Cert.KernelIdeal.HandHost

open Cert.KernelIdeal Cert.KernelIdeal.Gen
open Idealize.ShloMosaic Idealize.ShloMosaic.TcCoe Idealize.ShloMosaic.ValueIdx Idealize.ShloMosaic.StableHlo Idealize.SL.Sem

/-- A column of positions read at a row is the position of that row. -/
theorem col_apply (idx : IVec S1000000 32) (e : Fin 1000000) :
    broadcastInDim S1000000x1 ![0] bcast_S1000000_S1000000x1_0 idx (ix2 e (0 : Fin 1)) = idx (ix1 e) :=
  broadcastInDim_apply _ bcast_S1000000_S1000000x1_0 idx (ix2 e (0 : Fin 1)) (ix1 e) (fun a => match a with
    | ⟨0, _⟩ => by show e.val = if (1000000 : Nat) = 1 then 0 else e.val; rw [if_neg (by decide)])

/-- Rows of a table of 100000 rows of 128 gathered at a column of in-range positions: the row of edge `e` is the table's
    row at `e`'s position. -/
theorem rows128_apply {α : Type} (x : S100000x128.Idx → α) (idx : IVec S1000000 32) (h : LibTake.InRange 100000 idx)
    (e : Fin 1000000) (j : Fin 128) :
    Host.gather gather_S100000x128_S1000000x1_S1000000x128_1_0_n_n_0_1_1128 x
        (broadcastInDim S1000000x1 ![0] bcast_S1000000_S1000000x1_0 idx) (ix2 e j)
      = x (ix2 (⟨(idx (ix1 e)).toNat, h (ix1 e)⟩ : Fin 100000) j) := by
  have hb := col_apply idx e
  have hlt : (broadcastInDim S1000000x1 ![0] bcast_S1000000_S1000000x1_0 idx (ix2 e (0 : Fin 1))).toNat < 100000 := by
    rw [hb]; exact h (ix1 e)
  refine (LibGatherRows.gather_apply_of_fields (N := 100000) (C := 128) (E := 1000000) (by norm_num)
    gather_S100000x128_S1000000x1_S1000000x128_1_0_n_n_0_1_1128 rfl rfl rfl rfl rfl rfl rfl x _ e j hlt).trans ?_
  exact congrArg (fun r : Fin 100000 => x (ix2 r j)) (Fin.ext (congrArg BitVec.toNat hb))

/-- Rows of a table of 100000 rows of 64 gathered at a column of in-range positions: the row of edge `e` is the table's
    row at `e`'s position. -/
theorem rows64_apply {α : Type} (x : S100000x64.Idx → α) (idx : IVec S1000000 32) (h : LibTake.InRange 100000 idx)
    (e : Fin 1000000) (j : Fin 64) :
    Host.gather gather_S100000x64_S1000000x1_S1000000x64_1_0_n_n_0_1_164 x
        (broadcastInDim S1000000x1 ![0] bcast_S1000000_S1000000x1_0 idx) (ix2 e j)
      = x (ix2 (⟨(idx (ix1 e)).toNat, h (ix1 e)⟩ : Fin 100000) j) := by
  have hb := col_apply idx e
  have hlt : (broadcastInDim S1000000x1 ![0] bcast_S1000000_S1000000x1_0 idx (ix2 e (0 : Fin 1))).toNat < 100000 := by
    rw [hb]; exact h (ix1 e)
  refine (LibGatherRows.gather_apply_of_fields (N := 100000) (C := 64) (E := 1000000) (by norm_num)
    gather_S100000x64_S1000000x1_S1000000x64_1_0_n_n_0_1_164 rfl rfl rfl rfl rfl rfl rfl x _ e j hlt).trans ?_
  exact congrArg (fun r : Fin 100000 => x (ix2 r j)) (Fin.ext (congrArg BitVec.toNat hb))

variable {F : FTy → Type} [FloatOps F]
variable (Wv : Valuation τ sig (Elt F))

/-- Contents carried to a typed reference's buffer and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! ## The two takes

  The take is an outlined function: its operations address their buffers through typed references, and what the list
  computes carries, around every intermediate array, the transport to the buffer's own type and back. Both are the
  identity; they are removed before the take's law is applied. -/

set_option maxHeartbeats 4000000 in
/-- The take that writes `main_v6`, as an array: at in-range positions the mask is set everywhere and the result is the
    gather of `main_v4`'s rows at the column of the positions. -/
theorem take_v6_eq (hsrc : LibTake.InRange (s := S1000000) 100000 (Wv (Proc.devRef .tc main_arg2))) :
    StableHlo.after (hostOps1_1 (F := F)) Wv (Proc.devRef .tc main_v6)
      = Host.gather gather_S100000x128_S1000000x1_S1000000x128_1_0_n_n_0_1_1128 (Wv (Proc.devRef .tc main_v4) : S100000x128.Idx → Elt F .f32)
          (broadcastInDim S1000000x1 ![0] bcast_S1000000_S1000000x1_0 (Wv (Proc.devRef .tc main_arg2))) := by
  have hhi : (99999#32).toNat + 1 = 100000 := rfl
  have key := LibTake.take_eq_gather_idx (N := 100000) (sx := S100000x128) (si := S1000000) (sv := S1000000x1) (sm := S1000000)
    (so := S1000000x128) (sc := S_) (s1 := S1) (s11 := S1x1) (su := S_) gather_S100000x128_S1000000x1_S1000000x128_1_0_n_n_0_1_1128
    (Wv (Proc.devRef .tc main_v4) : S100000x128.Idx → Elt F .f32)
    (broadcastInDim S1000000x128 ![] bcast_S_S1000000x128 (constant (F := F) S_ .f32 0x7FC00000#32))
    ![] bcast_S_S1000000 ![0] bcast_S1000000_S1000000x1_0
    ![] bcast_S_S1000000x1 ![1] bcast_S1_S1x1_1 ![0, 1] bcast_S1x1_S1000000x1_0_1 reducesTo_S1000000x1_S1000000_d1 h_S_
    ![0] bcast_S1000000_S1000000x128_0 (Wv (Proc.devRef .tc main_arg2))
    (broadcastInDim S1000000 ![] bcast_S_S1000000 (constantI S_ 32 100000#32)) 99999#32 (by norm_num) hhi hsrc
  have eidx : (TRef.of main_arg2 : TRef sig ⟨S1000000, .i32⟩).ofBuf (Wv (Proc.devRef .tc main_arg2))
      = (Wv (Proc.devRef .tc main_arg2) : IVec S1000000 32) := rfl
  have etbl : (TRef.of main_v4 : TRef sig ⟨S100000x128, .f32⟩).ofBuf (Wv (Proc.devRef .tc main_v4))
      = (Wv (Proc.devRef .tc main_v4) : S100000x128.Idx → Elt F .f32) := rfl
  after_results_simp
  simp only [ofBuf_toBuf, eidx, etbl]
  exact congrArg (TRef.toBuf (TRef.of main_v6 : TRef sig ⟨S1000000x128, .f32⟩)) key

/-- The take that writes `main_v6` at an edge and a column: `main_v4` at the edge's position and that column. -/
theorem take_v6 (hsrc : LibTake.InRange (s := S1000000) 100000 (Wv (Proc.devRef .tc main_arg2))) (e : Fin 1000000) (j : Fin 128) :
    (StableHlo.after (hostOps1_1 (F := F)) Wv (Proc.devRef .tc main_v6) : S1000000x128.Idx → Elt F .f32) (ix2 e j)
      = (Wv (Proc.devRef .tc main_v4) : S100000x128.Idx → Elt F .f32)
          (ix2 (⟨((Wv (Proc.devRef .tc main_arg2) : IVec S1000000 32) (ix1 e)).toNat, hsrc (ix1 e)⟩ : Fin 100000) j) := by
  rw [take_v6_eq Wv hsrc]
  exact rows128_apply _ _ hsrc e j

set_option maxHeartbeats 4000000 in
/-- The take that writes `main_v7`, as an array: at in-range positions the mask is set everywhere and the result is the
    gather of `main_v5`'s rows at the column of the positions. -/
theorem take_v7_eq (hdst : LibTake.InRange (s := S1000000) 100000 (Wv (Proc.devRef .tc main_arg3))) :
    StableHlo.after (hostOps1_2 (F := F)) Wv (Proc.devRef .tc main_v7)
      = Host.gather gather_S100000x64_S1000000x1_S1000000x64_1_0_n_n_0_1_164 (Wv (Proc.devRef .tc main_v5) : S100000x64.Idx → Elt F .f32)
          (broadcastInDim S1000000x1 ![0] bcast_S1000000_S1000000x1_0 (Wv (Proc.devRef .tc main_arg3))) := by
  have hhi : (99999#32).toNat + 1 = 100000 := rfl
  have key := LibTake.take_eq_gather_idx (N := 100000) (sx := S100000x64) (si := S1000000) (sv := S1000000x1) (sm := S1000000)
    (so := S1000000x64) (sc := S_) (s1 := S1) (s11 := S1x1) (su := S_) gather_S100000x64_S1000000x1_S1000000x64_1_0_n_n_0_1_164
    (Wv (Proc.devRef .tc main_v5) : S100000x64.Idx → Elt F .f32)
    (broadcastInDim S1000000x64 ![] bcast_S_S1000000x64 (constant (F := F) S_ .f32 0x7FC00000#32))
    ![] bcast_S_S1000000 ![0] bcast_S1000000_S1000000x1_0
    ![] bcast_S_S1000000x1 ![1] bcast_S1_S1x1_1 ![0, 1] bcast_S1x1_S1000000x1_0_1 reducesTo_S1000000x1_S1000000_d1 h_S_
    ![0] bcast_S1000000_S1000000x64_0 (Wv (Proc.devRef .tc main_arg3))
    (broadcastInDim S1000000 ![] bcast_S_S1000000 (constantI S_ 32 100000#32)) 99999#32 (by norm_num) hhi hdst
  have eidx : (TRef.of main_arg3 : TRef sig ⟨S1000000, .i32⟩).ofBuf (Wv (Proc.devRef .tc main_arg3))
      = (Wv (Proc.devRef .tc main_arg3) : IVec S1000000 32) := rfl
  have etbl : (TRef.of main_v5 : TRef sig ⟨S100000x64, .f32⟩).ofBuf (Wv (Proc.devRef .tc main_v5))
      = (Wv (Proc.devRef .tc main_v5) : S100000x64.Idx → Elt F .f32) := rfl
  after_results_simp
  simp only [ofBuf_toBuf, eidx, etbl]
  exact congrArg (TRef.toBuf (TRef.of main_v7 : TRef sig ⟨S1000000x64, .f32⟩)) key

/-- The take that writes `main_v7` at an edge and a column: `main_v5` at the edge's position and that column. -/
theorem take_v7 (hdst : LibTake.InRange (s := S1000000) 100000 (Wv (Proc.devRef .tc main_arg3))) (e : Fin 1000000) (j : Fin 64) :
    (StableHlo.after (hostOps1_2 (F := F)) Wv (Proc.devRef .tc main_v7) : S1000000x64.Idx → Elt F .f32) (ix2 e j)
      = (Wv (Proc.devRef .tc main_v5) : S100000x64.Idx → Elt F .f32)
          (ix2 (⟨((Wv (Proc.devRef .tc main_arg3) : IVec S1000000 32) (ix1 e)).toNat, hdst (ix1 e)⟩ : Fin 100000) j) := by
  rw [take_v7_eq Wv hdst]
  exact rows64_apply _ _ hdst e j

/-! ## The gate and the two scattered sums -/

/-- The gate, as an array: one over one plus the exponential of the negation of `main_v8_0`. -/
theorem gate_v14 :
    StableHlo.after (hostOps2 (F := F)) Wv (Proc.devRef .tc main_v14)
      = Host.divf (F := F) (broadcastInDim S1000000x64 ![] bcast_S_S1000000x64 (constant (F := F) S_ .f32 0x3F800000#32))
          (addf (broadcastInDim S1000000x64 ![] bcast_S_S1000000x64 (constant (F := F) S_ .f32 0x3F800000#32)) (Host.exp (F := F) (Host.negf (F := F) (Wv (Proc.devRef .tc main_v8_0))))) := by
  after_results

/-- The gate at an index, on the extended reals: the logistic of the entry. -/
theorem gate_v14_apply (Wi : Valuation τ sig (Elt Ideal)) (i : S1000000x64.Idx) :
    (Host.divf (F := Ideal) (broadcastInDim S1000000x64 ![] bcast_S_S1000000x64 (constant (F := Ideal) S_ .f32 0x3F800000#32))
          (addf (broadcastInDim S1000000x64 ![] bcast_S_S1000000x64 (constant (F := Ideal) S_ .f32 0x3F800000#32)) (Host.exp (F := Ideal) (Host.negf (F := Ideal) (Wi (Proc.devRef .tc main_v8_0)))))) i
      = Spec.sig ((Wi (Proc.devRef .tc main_v8_0) : S1000000x64.Idx → EReal) i) := by
  have hc : (broadcastInDim S1000000x64 ![] bcast_S_S1000000x64 (constant (F := Ideal) S_ .f32 0x3F800000#32)) i = Spec.cOne :=
    broadcastInDim_apply _ bcast_S_S1000000x64 _ i (fun a => a.elim0) (fun a => a.elim0)
  show FloatOps.hostDivf ((broadcastInDim S1000000x64 ![] bcast_S_S1000000x64 (constant (F := Ideal) S_ .f32 0x3F800000#32)) i)
      (FloatOps.addf ((broadcastInDim S1000000x64 ![] bcast_S_S1000000x64 (constant (F := Ideal) S_ .f32 0x3F800000#32)) i)
        (FloatOps.hostUnary .exp (FloatOps.hostNegf ((Wi (Proc.devRef .tc main_v8_0) : S1000000x64.Idx → EReal) i)))) = _
  rw [hc]
  rfl

/-- The first scattered sum: `main_v8_1` summed into zeros at the column of the target positions. -/
theorem ssh_v17 :
    StableHlo.after (hostOps2 (F := F)) Wv (Proc.devRef .tc main_v17)
      = Host.scatterAdd scatter_S100000x64_S1000000x1_S1000000x64_1_0_0_1 (broadcastInDim S100000x64 ![] bcast_S_S100000x64 (constant (F := F) S_ .f32 0x00000000#32))
          (broadcastInDim S1000000x1 ![0] bcast_S1000000_S1000000x1_0 (Wv (Proc.devRef .tc main_arg3))) (Wv (Proc.devRef .tc main_v8_1)) := by
  after_results

/-- The second scattered sum: the gate summed into zeros at the column of the target positions. -/
theorem ss_v20 :
    StableHlo.after (hostOps2 (F := F)) Wv (Proc.devRef .tc main_v20)
      = Host.scatterAdd scatter_S100000x64_S1000000x1_S1000000x64_1_0_0_1 (broadcastInDim S100000x64 ![] bcast_S_S100000x64 (constant (F := F) S_ .f32 0x00000000#32))
          (broadcastInDim S1000000x1 ![0] bcast_S1000000_S1000000x1_0 (Wv (Proc.devRef .tc main_arg3)))
          (Host.divf (F := F) (broadcastInDim S1000000x64 ![] bcast_S_S1000000x64 (constant (F := F) S_ .f32 0x3F800000#32))
          (addf (broadcastInDim S1000000x64 ![] bcast_S_S1000000x64 (constant (F := F) S_ .f32 0x3F800000#32)) (Host.exp (F := F) (Host.negf (F := F) (Wv (Proc.devRef .tc main_v8_0)))))) := by
  after_results

end Cert.KernelIdeal.HandHost

end
-- ==== Proof.KI.Value.lean ====
/-
  The idealized kernel program's two results, read at an index from the arrays it was launched with.

  The first region leaves, in the column quarter a of node row n, the a-th linear layer of that row (the four weight
  matrices lie side by side, so a column of the product only meets its own quarter). The slices hand the first quarter
  on as it is, the middle half to be gathered at the edges' sources and the last quarter at their targets; with every
  source and target inside the table a gathered row IS the table's row there. So at the second region's entry the three
  rows it adds for edge e are the third layer of its source's row, the fourth of its target's, and a layer of its own
  row, and it leaves the edge's new row and, beside it, the second layer of the source's row times the logistic of the
  new row. The host then forms the logistic again, sums both over each node's incoming edges, and the third region
  normalises the first layer plus the quotient of the sums.
-/
import proofs.«423548_j53180285059709_3_alg».proof.Proof.KI.Run
import proofs.«423548_j53180285059709_3_alg».proof.Proof.KI.Arr0
import proofs.«423548_j53180285059709_3_alg».proof.Proof.KI.Arr1
import proofs.«423548_j53180285059709_3_alg».proof.Proof.KI.Arr2
import proofs.«423548_j53180285059709_3_alg».proof.Proof.KI.HostA
import proofs.«423548_j53180285059709_3_alg».proof.Proof.KI.HostB
import proofs.«423548_j53180285059709_3_alg».proof.Proof.Spec
import proofs.«423548_j53180285059709_3_alg».proof.Proof.LibTake
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.KernelIdeal.HandArr Cert.KernelIdeal.HandHost
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The launch arrays, as functions -/

abbrev aH : S100000x64.Idx → EReal := m ((c : Thread nD τ).loc main_arg0)
abbrev aE : S1000000x64.Idx → EReal := m ((c : Thread nD τ).loc main_arg1)
abbrev aSrc : IVec S1000000 32 := m ((c : Thread nD τ).loc main_arg2)
abbrev aDst : IVec S1000000 32 := m ((c : Thread nD τ).loc main_arg3)
abbrev aA1w : S64x64.Idx → EReal := m ((c : Thread nD τ).loc main_arg4)
abbrev aA1b : S64.Idx → EReal := m ((c : Thread nD τ).loc main_arg5)
abbrev aA2w : S64x64.Idx → EReal := m ((c : Thread nD τ).loc main_arg6)
abbrev aA2b : S64.Idx → EReal := m ((c : Thread nD τ).loc main_arg7)
abbrev aB1w : S64x64.Idx → EReal := m ((c : Thread nD τ).loc main_arg8)
abbrev aB1b : S64.Idx → EReal := m ((c : Thread nD τ).loc main_arg9)
abbrev aB2w : S64x64.Idx → EReal := m ((c : Thread nD τ).loc main_arg10)
abbrev aB2b : S64.Idx → EReal := m ((c : Thread nD τ).loc main_arg11)
abbrev aB3w : S64x64.Idx → EReal := m ((c : Thread nD τ).loc main_arg12)
abbrev aB3b : S64.Idx → EReal := m ((c : Thread nD τ).loc main_arg13)
abbrev aGe : S64.Idx → EReal := m ((c : Thread nD τ).loc main_arg14)
abbrev aBe : S64.Idx → EReal := m ((c : Thread nD τ).loc main_arg15)
abbrev aGh : S64.Idx → EReal := m ((c : Thread nD τ).loc main_arg16)
abbrev aBh : S64.Idx → EReal := m ((c : Thread nD τ).loc main_arg17)

/-- A linear layer of row `n` of a table. -/
def layer (x : S100000x64.Idx → EReal) (W : S64x64.Idx → EReal) (b : S64.Idx → EReal) (n : Fin 100000) : Spec.Row :=
  Spec.lin (fun k => x (ix2 n k)) (fun k j => W (ix2 k j)) (fun k => b (ix1 k))

/-- The node an edge's position word names, when every word is inside the table. -/
def nodeOf (idx : IVec S1000000 32) (h : LibTake.InRange 100000 idx) (e : Fin 1000000) : Fin 100000 := ⟨(idx (ix1 e)).toNat, h (ix1 e)⟩

/-! ## What reaches each boundary unchanged -/

theorem st1 (b : Ref sig .tc) (h0 : b ∉ hostOps0_W) : W1 m ρ c b = m ((c : Thread nD τ).loc b) :=
  (W1_of m ρ c b h0).trans rfl
theorem st2 (b : Ref sig .tc) (h0 : b ∉ hostOps0_W) (h1 : b ≠ main_v2) : W2 m ρ c b = m ((c : Thread nD τ).loc b) :=
  (W2_keep m ρ c b h1).trans (st1 m ρ c b h0)
theorem st3 (b : Ref sig .tc) (h0 : b ∉ hostOps0_W) (h1 : b ≠ main_v2) (h2 : b ∉ hostOps1_W) : W3 m ρ c b = m ((c : Thread nD τ).loc b) :=
  (W3_of m ρ c b h2).trans (st2 m ρ c b h0 h1)
theorem st4 (b : Ref sig .tc) (h0 : b ∉ hostOps0_W) (h1 : b ≠ main_v2) (h2 : b ∉ hostOps1_W) (h3 : b ∉ hostOps1_1_W) :
    W4 m ρ c b = m ((c : Thread nD τ).loc b) :=
  (W4_of m ρ c b h3).trans (st3 m ρ c b h0 h1 h2)
theorem st5 (b : Ref sig .tc) (h0 : b ∉ hostOps0_W) (h1 : b ≠ main_v2) (h2 : b ∉ hostOps1_W) (h3 : b ∉ hostOps1_1_W) (h4 : b ∉ hostOps1_2_W) :
    W5 m ρ c b = m ((c : Thread nD τ).loc b) :=
  (W5_of m ρ c b h4).trans (st4 m ρ c b h0 h1 h2 h3)
theorem st6 (b : Ref sig .tc) (h0 : b ∉ hostOps0_W) (h1 : b ≠ main_v2) (h2 : b ∉ hostOps1_W) (h3 : b ∉ hostOps1_1_W) (h4 : b ∉ hostOps1_2_W)
    (h5 : b ≠ main_v8_0) (h5' : b ≠ main_v8_1) : W6 m ρ c b = m ((c : Thread nD τ).loc b) :=
  (W6_keep m ρ c b h5 h5').trans (st5 m ρ c b h0 h1 h2 h3 h4)
theorem st7 (b : Ref sig .tc) (h0 : b ∉ hostOps0_W) (h1 : b ≠ main_v2) (h2 : b ∉ hostOps1_W) (h3 : b ∉ hostOps1_1_W) (h4 : b ∉ hostOps1_2_W)
    (h5 : b ≠ main_v8_0) (h5' : b ≠ main_v8_1) (h6 : b ∉ hostOps2_W) : W7 m ρ c b = m ((c : Thread nD τ).loc b) :=
  (W7_of m ρ c b h6).trans (st6 m ρ c b h0 h1 h2 h3 h4 h5 h5')

/-! ## The projection: quarter `a` of a node's row of 256 is its a-th linear layer -/

/-- The projection array at the first region's exit. -/
abbrev proj2 : S100000x256.Idx → EReal := W2 m ρ c (Proc.devRef .tc main_v2)

theorem proj_layer (a : Fin 4) (Wa : S64x64.Idx → EReal) (ba : S64.Idx → EReal)
    (hw : ∀ k j : Fin 64, (W1 m ρ c (Proc.devRef .tc main_v0) : S64x256.Idx → EReal) (ix2 k (col a j)) = Wa (ix2 k j))
    (hb : ∀ j : Fin 64, (W1 m ρ c (Proc.devRef .tc main_v1) : S256.Idx → EReal) (ix1 (col a j)) = ba (ix1 j))
    (n : Fin 100000) (j : Fin 64) :
    proj2 m ρ c (ix2 n (col a j)) = layer (aH m c) Wa ba n j := by
  have e3 : proj2 m ρ c = (dat0 (U1 m ρ) c).arrAt 3 cfg0.N := W2_arr m ρ c 3
  rw [e3, arr0_apply (U1 m ρ) c (aH m c) (W1 m ρ c (Proc.devRef .tc main_v0)) (W1 m ρ c (Proc.devRef .tc main_v1))
    (st1 m ρ c main_arg0 (by decide)) rfl rfl n (col a j)]
  unfold layer Spec.lin
  rw [hb j]
  exact congrArg (· + _) (Finset.sum_congr rfl fun k _ => by rw [hw k j])

theorem proj_q0 (n : Fin 100000) (j : Fin 64) : proj2 m ρ c (ix2 n (col 0 j)) = layer (aH m c) (aA1w m c) (aA1b m c) n j :=
  proj_layer m ρ c 0 _ _ (fun k j => wcat_apply0 (W0 m ρ c) k j) (fun j => bcat_apply0 (W0 m ρ c) j) n j
theorem proj_q1 (n : Fin 100000) (j : Fin 64) : proj2 m ρ c (ix2 n (col 1 j)) = layer (aH m c) (aA2w m c) (aA2b m c) n j :=
  proj_layer m ρ c 1 _ _ (fun k j => wcat_apply1 (W0 m ρ c) k j) (fun j => bcat_apply1 (W0 m ρ c) j) n j
theorem proj_q2 (n : Fin 100000) (j : Fin 64) : proj2 m ρ c (ix2 n (col 2 j)) = layer (aH m c) (aB1w m c) (aB1b m c) n j :=
  proj_layer m ρ c 2 _ _ (fun k j => wcat_apply2 (W0 m ρ c) k j) (fun j => bcat_apply2 (W0 m ρ c) j) n j
theorem proj_q3 (n : Fin 100000) (j : Fin 64) : proj2 m ρ c (ix2 n (col 3 j)) = layer (aH m c) (aB2w m c) (aB2b m c) n j :=
  proj_layer m ρ c 3 _ _ (fun k j => wcat_apply3 (W0 m ρ c) k j) (fun j => bcat_apply3 (W0 m ρ c) j) n j

theorem mid_hi (k : Fin 64) : mid (Spec.hi k) = col 2 k := Fin.ext (by show 64 + (64 + k.val) = 64 * 2 + k.val; omega)
theorem mid_lo (k : Fin 64) : mid (Spec.lo k) = col 1 k := Fin.ext (by show 64 + k.val = 64 * 1 + k.val; omega)

/-! ## The three slices and the two gathers -/

/-- The first quarter reaches the third region as sliced. -/
theorem a1h_apply (n : Fin 100000) (j : Fin 64) :
    (W7 m ρ c (Proc.devRef .tc main_v3) : S100000x64.Idx → EReal) (ix2 n j) = layer (aH m c) (aA1w m c) (aA1b m c) n j := by
  have e : W7 m ρ c (Proc.devRef .tc main_v3) = W3 m ρ c (Proc.devRef .tc main_v3) :=
    (W7_of m ρ c main_v3 (by decide)).trans ((W6_keep m ρ c main_v3 (by decide) (by decide)).trans
      ((W5_of m ρ c main_v3 (by decide)).trans (W4_of m ρ c main_v3 (by decide))))
  exact (congrFun e (ix2 n j)).trans ((slice_v3 (W2 m ρ c) n j).trans (proj_q0 m ρ c n j))

variable (hs : LibTake.InRange 100000 (aSrc m c)) (hd : LibTake.InRange 100000 (aDst m c))

/-- The gathered middle half at the second region's entry: the projection's row at the edge's source. -/
theorem cat_apply (e : Fin 1000000) (j : Fin 128) :
    (W5 m ρ c (Proc.devRef .tc main_v6) : S1000000x128.Idx → EReal) (ix2 e j) = proj2 m ρ c (ix2 (nodeOf (aSrc m c) hs e) (mid j)) := by
  have hE : (W3 m ρ c (Proc.devRef .tc main_arg2) : IVec S1000000 32) = aSrc m c :=
    st3 m ρ c main_arg2 (by decide) (by decide) (by decide)
  have hs3 : LibTake.InRange 100000 (W3 m ρ c (Proc.devRef .tc main_arg2) : IVec S1000000 32) := hE ▸ hs
  have h0 : W5 m ρ c (Proc.devRef .tc main_v6) = W4 m ρ c (Proc.devRef .tc main_v6) := W5_of m ρ c main_v6 (by decide)
  have hidx : (⟨((W3 m ρ c (Proc.devRef .tc main_arg2) : IVec S1000000 32) (ix1 e)).toNat, hs3 (ix1 e)⟩ : Fin 100000) = nodeOf (aSrc m c) hs e :=
    Fin.ext (congrArg (fun f : IVec S1000000 32 => (f (ix1 e)).toNat) hE)
  refine (congrFun h0 (ix2 e j)).trans ((take_v6 (W3 m ρ c) hs3 e j).trans ?_)
  rw [hidx]
  exact slice_v4 (W2 m ρ c) _ j

/-- The gathered last quarter at the second region's entry: the projection's row at the edge's target. -/
theorem b2d_apply (e : Fin 1000000) (j : Fin 64) :
    (W5 m ρ c (Proc.devRef .tc main_v7) : S1000000x64.Idx → EReal) (ix2 e j) = proj2 m ρ c (ix2 (nodeOf (aDst m c) hd e) (col 3 j)) := by
  have hE : (W4 m ρ c (Proc.devRef .tc main_arg3) : IVec S1000000 32) = aDst m c :=
    st4 m ρ c main_arg3 (by decide) (by decide) (by decide) (by decide)
  have hd4 : LibTake.InRange 100000 (W4 m ρ c (Proc.devRef .tc main_arg3) : IVec S1000000 32) := hE ▸ hd
  have hidx : (⟨((W4 m ρ c (Proc.devRef .tc main_arg3) : IVec S1000000 32) (ix1 e)).toNat, hd4 (ix1 e)⟩ : Fin 100000) = nodeOf (aDst m c) hd e :=
    Fin.ext (congrArg (fun f : IVec S1000000 32 => (f (ix1 e)).toNat) hE)
  have h5 : W4 m ρ c (Proc.devRef .tc main_v5) = W3 m ρ c (Proc.devRef .tc main_v5) := W4_of m ρ c main_v5 (by decide)
  refine (take_v7 (W4 m ρ c) hd4 e j).trans ?_
  rw [hidx]
  exact (congrFun h5 _).trans (slice_v5 (W2 m ρ c) _ j)

/-! ## The second region's two outputs -/

/-- The edge's new row, from the launch arrays. -/
def edgeRow (e : Fin 1000000) : Spec.Row :=
  Spec.edge (layer (aH m c) (aB1w m c) (aB1b m c) (nodeOf (aSrc m c) hs e)) (layer (aH m c) (aB2w m c) (aB2b m c) (nodeOf (aDst m c) hd e))
    (Spec.lin (fun k => aE m c (ix2 e k)) (fun k j => aB3w m c (ix2 k j)) (fun k => aB3b m c (ix1 k)))
    (fun k => aE m c (ix2 e k)) (fun k => aGe m c (ix1 k)) (fun k => aBe m c (ix1 k))

/-- The first output at the second region's exit. -/
abbrev eji6 : S1000000x64.Idx → EReal := W6 m ρ c (Proc.devRef .tc main_v8_0)
/-- The second output at the second region's exit. -/
abbrev msg6 : S1000000x64.Idx → EReal := W6 m ρ c (Proc.devRef .tc main_v8_1)

theorem eji_apply (e : Fin 1000000) (j : Fin 64) : eji6 m ρ c (ix2 e j) = edgeRow m c hs hd e j := by
  have e7 : eji6 m ρ c = (dat1 (U5 m ρ) c).arrAt 7 cfg1.N := W6_arr m ρ c 7
  rw [e7, arr1_eji_apply (U5 m ρ) c e j]
  have r1 : (fun k => (U5 m ρ c main_v6 : S1000000x128.Idx → EReal) (ix2 e (Spec.hi k))) = layer (aH m c) (aB1w m c) (aB1b m c) (nodeOf (aSrc m c) hs e) :=
    funext fun k => (cat_apply m ρ c hs e (Spec.hi k)).trans (by rw [mid_hi]; exact proj_q2 m ρ c _ k)
  have r2 : (fun k => (U5 m ρ c main_v7 : S1000000x64.Idx → EReal) (ix2 e k)) = layer (aH m c) (aB2w m c) (aB2b m c) (nodeOf (aDst m c) hd e) :=
    funext fun k => (b2d_apply m ρ c hd e k).trans (proj_q3 m ρ c _ k)
  have a1 : U5 m ρ c main_arg1 = aE m c := st5 m ρ c main_arg1 (by decide) (by decide) (by decide) (by decide) (by decide)
  have a12 : U5 m ρ c main_arg12 = aB3w m c := st5 m ρ c main_arg12 (by decide) (by decide) (by decide) (by decide) (by decide)
  have a13 : U5 m ρ c main_arg13 = aB3b m c := st5 m ρ c main_arg13 (by decide) (by decide) (by decide) (by decide) (by decide)
  have a14 : U5 m ρ c main_arg14 = aGe m c := st5 m ρ c main_arg14 (by decide) (by decide) (by decide) (by decide) (by decide)
  have a15 : U5 m ρ c main_arg15 = aBe m c := st5 m ρ c main_arg15 (by decide) (by decide) (by decide) (by decide) (by decide)
  rw [r1, r2, a1, a12, a13, a14, a15]
  rfl

theorem msg_apply (e : Fin 1000000) (j : Fin 64) :
    msg6 m ρ c (ix2 e j) = layer (aH m c) (aA2w m c) (aA2b m c) (nodeOf (aSrc m c) hs e) j * Spec.sig (edgeRow m c hs hd e j) := by
  have e8 : msg6 m ρ c = (dat1 (U5 m ρ) c).arrAt 8 cfg1.N := W6_arr m ρ c 8
  have e7 : (dat1 (U5 m ρ) c).arrAt 7 cfg1.N = eji6 m ρ c := (W6_arr m ρ c 7).symm
  rw [e8, arr1_gate_apply (U5 m ρ) c e j, e7, eji_apply m ρ c hs hd e j]
  have r0 : (U5 m ρ c main_v6 : S1000000x128.Idx → EReal) (ix2 e (Spec.lo j)) = layer (aH m c) (aA2w m c) (aA2b m c) (nodeOf (aSrc m c) hs e) j :=
    (cat_apply m ρ c hs e (Spec.lo j)).trans (by rw [mid_lo]; exact proj_q1 m ρ c _ j)
  rw [r0]

/-! ## The host's gate and sums, and the third region -/

/-- The first result reaches the end as the second region left it. -/
theorem eji_final : (W8 m ρ c (Proc.devRef .tc main_v8_0) : S1000000x64.Idx → EReal) = eji6 m ρ c :=
  (W8_keep m ρ c main_v8_0 (by decide)).trans (W7_of m ρ c main_v8_0 (by decide))

/-- The gate the host forms again from the first result. -/
abbrev gate7 : S1000000x64.Idx → EReal := W7 m ρ c (Proc.devRef .tc main_v14)

theorem gate_apply (i : S1000000x64.Idx) : gate7 m ρ c i = Spec.sig (eji6 m ρ c i) := by
  have h : gate7 m ρ c = _ := gate_v14 (W6 m ρ c)
  rw [h]
  exact gate_v14_apply (W6 m ρ c) i

/-- The positions the two sums run over: the targets, as a column. -/
abbrev dstCol : IVec S1000000x1 32 := broadcastInDim S1000000x1 ![0] bcast_S1000000_S1000000x1_0 (aDst m c)
/-- The zero array both sums start from. -/
abbrev zeroN : S100000x64.Idx → EReal := broadcastInDim S100000x64 ![] bcast_S_S100000x64 (constant (F := Ideal) S_ .f32 0x00000000#32)

theorem ssh_eq : (W7 m ρ c (Proc.devRef .tc main_v17) : S100000x64.Idx → EReal)
    = Host.scatterAdd (F := Ideal) (φ := .f32) scatter_S100000x64_S1000000x1_S1000000x64_1_0_0_1 (zeroN) (dstCol m c) (msg6 m ρ c) := by
  have h := ssh_v17 (W6 m ρ c)
  have a3 : (W6 m ρ c (Proc.devRef .tc main_arg3) : IVec S1000000 32) = aDst m c :=
    st6 m ρ c main_arg3 (by decide) (by decide) (by decide) (by decide) (by decide) (by decide) (by decide)
  rw [a3] at h
  exact h

theorem ss_eq : (W7 m ρ c (Proc.devRef .tc main_v20) : S100000x64.Idx → EReal)
    = Host.scatterAdd (F := Ideal) (φ := .f32) scatter_S100000x64_S1000000x1_S1000000x64_1_0_0_1 (zeroN) (dstCol m c) (gate7 m ρ c) := by
  have h := ss_v20 (W6 m ρ c)
  have hg : gate7 m ρ c = _ := gate_v14 (W6 m ρ c)
  have a3 : (W6 m ρ c (Proc.devRef .tc main_arg3) : IVec S1000000 32) = aDst m c :=
    st6 m ρ c main_arg3 (by decide) (by decide) (by decide) (by decide) (by decide) (by decide) (by decide)
  rw [a3] at h
  rw [hg]
  exact h

/-- The second result at the end: the node's new row from its own row, its first layer and the two sums. -/
theorem hout_apply (n : Fin 100000) (j : Fin 64) :
    (W8 m ρ c (Proc.devRef .tc main_v21) : S100000x64.Idx → EReal) (ix2 n j)
      = Spec.node (fun k => aH m c (ix2 n k)) (layer (aH m c) (aA1w m c) (aA1b m c) n)
          (fun k => (W7 m ρ c (Proc.devRef .tc main_v17) : S100000x64.Idx → EReal) (ix2 n k))
          (fun k => (W7 m ρ c (Proc.devRef .tc main_v20) : S100000x64.Idx → EReal) (ix2 n k))
          (fun k => aGh m c (ix1 k)) (fun k => aBh m c (ix1 k)) j := by
  have e6 : (W8 m ρ c (Proc.devRef .tc main_v21) : S100000x64.Idx → EReal) = (dat2 (U7 m ρ) c).arrAt 6 cfg2.N := W8_arr m ρ c 6
  rw [e6, arr2_apply (U7 m ρ) c n j]
  have a0 : U7 m ρ c main_arg0 = aH m c := st7 m ρ c main_arg0 (by decide) (by decide) (by decide) (by decide) (by decide) (by decide) (by decide) (by decide)
  have a16 : U7 m ρ c main_arg16 = aGh m c := st7 m ρ c main_arg16 (by decide) (by decide) (by decide) (by decide) (by decide) (by decide) (by decide) (by decide)
  have a17 : U7 m ρ c main_arg17 = aBh m c := st7 m ρ c main_arg17 (by decide) (by decide) (by decide) (by decide) (by decide) (by decide) (by decide) (by decide)
  have r3 : (fun k => (U7 m ρ c main_v3 : S100000x64.Idx → EReal) (ix2 n k)) = layer (aH m c) (aA1w m c) (aA1b m c) n :=
    funext fun k => a1h_apply m ρ c n k
  rw [r3, a0, a16, a17]

end Cert.KernelIdeal.HandValue

end
-- ==== Proof.PreRange.lean ====
/-
  The index ranges the precondition gives. The precondition is a conjunction, built left to right, of "every entry of
  this array passes this test", one conjunct per argument array; its last four conjuncts say that every edge's source
  (argument 2) and every edge's target (argument 3), read as signed 32-bit integers, is at least 0 and below 100000, the
  number of nodes. From the whole conjunction being 1 each of those four is 1; a reduction by "and" that is 1 had a 1 at
  every entry; and a word that is at least 0 and below 100000 signed is below 100000 read unsigned. The integer part of
  the precondition does not depend on how the floats are read, so this holds at every float instance.
-/
import proofs.«423548_j53180285059709_3_alg».proof.Pre_finite_inputs
import proofs.«423548_j53180285059709_3_alg».proof.Proof.LibTake
import Idealize.ShloMosaic.Lib.ReduceAll

namespace Cert.Pre_finite_inputs.HandPre

open Idealize.ShloMosaic

variable [Facts]
open Facts

/-- The scalar shape has one index. -/
instance : Subsingleton S_.Idx := ⟨fun _ _ => funext fun a => a.elim0⟩

/-- The four last conjuncts of the precondition, read off the conjunction's value at the scalar shape's index: the
    reductions over the signed tests "source ≥ 0", "source < 100000", "target ≥ 0", "target < 100000" are each 1. -/
theorem tests_eq_one {F : FTy → Type} [FloatOps F]
    (a0 : FVec F S100000x64 .f32) (a1 : FVec F S1000000x64 .f32) (a2 a3 : IVec S1000000 32)
    (a4 : FVec F S64x64 .f32) (a5 : FVec F S64 .f32) (a6 : FVec F S64x64 .f32) (a7 : FVec F S64 .f32)
    (a8 : FVec F S64x64 .f32) (a9 : FVec F S64 .f32) (a10 : FVec F S64x64 .f32) (a11 : FVec F S64 .f32)
    (a12 : FVec F S64x64 .f32) (a13 a14 a15 a16 a17 : FVec F S64 .f32) (i : S_.Idx)
    (h : fn (F := F) a0 a1 a2 a3 a4 a5 a6 a7 a8 a9 a10 a11 a12 a13 a14 a15 a16 a17 = fun _ => 1#1) :
    (Host.reduce IntOp.andi (cmpi .sge a2 (broadcastInDim S1000000 ![] bcast_S_S1000000 (constantI S_ 32 0#32)))
        (constantI S_ 1 1#1) reducesTo_S1000000_S_d0 h_S_ i = 1#1
      ∧ Host.reduce IntOp.andi (cmpi .slt a2 (broadcastInDim S1000000 ![] bcast_S_S1000000 (constantI S_ 32 100000#32)))
        (constantI S_ 1 1#1) reducesTo_S1000000_S_d0 h_S_ i = 1#1)
    ∧ Host.reduce IntOp.andi (cmpi .sge a3 (broadcastInDim S1000000 ![] bcast_S_S1000000 (constantI S_ 32 0#32)))
        (constantI S_ 1 1#1) reducesTo_S1000000_S_d0 h_S_ i = 1#1
      ∧ Host.reduce IntOp.andi (cmpi .slt a3 (broadcastInDim S1000000 ![] bcast_S_S1000000 (constantI S_ 32 100000#32)))
        (constantI S_ 1 1#1) reducesTo_S1000000_S_d0 h_S_ i = 1#1 := by
  have h0 := congrFun h i
  dsimp only [fn, fn_part1, fn_part2, fn_part3, fn_part4, fn_part5] at h0
  obtain ⟨h90, h93⟩ := IntOp.andi_eq_one.1 h0
  obtain ⟨h86, h89⟩ := IntOp.andi_eq_one.1 h90
  obtain ⟨h82, h85⟩ := IntOp.andi_eq_one.1 h86
  obtain ⟨_, h81⟩ := IntOp.andi_eq_one.1 h82
  exact ⟨⟨h81, h85⟩, h89, h93⟩

/-- THE RANGES: under the precondition every source and every target, read unsigned, is below 100000. -/
theorem inRange_of_pre {F : FTy → Type} [FloatOps F]
    (a0 : FVec F S100000x64 .f32) (a1 : FVec F S1000000x64 .f32) (a2 a3 : IVec S1000000 32)
    (a4 : FVec F S64x64 .f32) (a5 : FVec F S64 .f32) (a6 : FVec F S64x64 .f32) (a7 : FVec F S64 .f32)
    (a8 : FVec F S64x64 .f32) (a9 : FVec F S64 .f32) (a10 : FVec F S64x64 .f32) (a11 : FVec F S64 .f32)
    (a12 : FVec F S64x64 .f32) (a13 a14 a15 a16 a17 : FVec F S64 .f32)
    (h : fn (F := F) a0 a1 a2 a3 a4 a5 a6 a7 a8 a9 a10 a11 a12 a13 a14 a15 a16 a17 = fun _ => 1#1) :
    LibTake.InRange 100000 a2 ∧ LibTake.InRange 100000 a3 := by
  obtain ⟨⟨h81, h85⟩, h89, h93⟩ :=
    tests_eq_one a0 a1 a2 a3 a4 a5 a6 a7 a8 a9 a10 a11 a12 a13 a14 a15 a16 a17 (fun a => a.elim0) h
  have hb : (100000#32).toNat < 2 ^ 31 := by decide
  have hbN : (100000#32).toNat = 100000 := by decide
  exact ⟨LibTake.InRange.of_compares hb hbN (fun _ => rfl) (fun _ => rfl)
      (Host.reduce_andi_all _ _ _ _ _ h81) (Host.reduce_andi_all _ _ _ _ _ h85),
    LibTake.InRange.of_compares hb hbN (fun _ => rfl) (fun _ => rfl)
      (Host.reduce_andi_all _ _ _ _ _ h89) (Host.reduce_andi_all _ _ _ _ _ h93)⟩

end Cert.Pre_finite_inputs.HandPre
-- ==== Proof.Ref.Stages.lean ====
/-
  The reference program, stage by stage, as the row mathematics of the shared specification.

  Each of the reference's five dense projections is a linear layer on a row; the edge output is the rectified layer
  normalisation of the sum of the two gathered rows and the edge's own linear image, plus the edge's row; the gate is the
  logistic of the edge output and the gated message the gathered row times the gate; the node output is the rectified
  layer normalisation of the node's linear image plus the quotient of the two sums over incoming edges, plus the node's
  row. The gathers and the two scattered sums are left as the stages that compute them.

  A layer normalisation is read in steps: the row sum, the mean (the sum over the printed 64), the deviation, the mean
  squared deviation, the inverse standard deviation, and the normalised row with gain and shift. A float row sum is its
  initial value, the zero word, plus the sum of the row.
-/
import proofs.«423548_j53180285059709_3_alg».proof.Proof.Gen.ReferenceIdeal.Read
import proofs.«423548_j53180285059709_3_alg».proof.Proof.Spec
import Idealize.ShloMosaic.Lib.ValueIdx
import Idealize.ShloMosaic.Lib.Pipeline.Value
import Idealize.ShloMosaic.PureOps.Ideal.Laws

noncomputable section

namespace Cert.ReferenceIdeal.HandRef

open Cert.ReferenceIdeal Cert.ReferenceIdeal.Gen Cert.ReferenceIdeal.Read Idealize.ShloMosaic Idealize.ShloMosaic.ValueIdx

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 : (⟨S64x64, .f32⟩ : BufTy).Contents (Elt Ideal)) (x13 : (⟨S64, .f32⟩ : BufTy).Contents (Elt Ideal))
  (x14 x15 x16 x17 : (⟨S64, .f32⟩ : BufTy).Contents (Elt Ideal))

/-! ## The five linear layers -/

theorem lidx_v0 (n : Fin 100000) (j k : Fin 64) : lidx_main_v0 (ix2 n j) k = ix2 n k :=
  funext fun a => Fin.ext (by match a with | ⟨0, _⟩ => rfl | ⟨1, _⟩ => rfl)
theorem ridx_v0 (n : Fin 100000) (j k : Fin 64) : ridx_main_v0 (ix2 n j) k = ix2 k j :=
  funext fun a => Fin.ext (by match a with | ⟨0, _⟩ => rfl | ⟨1, _⟩ => rfl)
theorem bidx_v2 (n : Fin 100000) (j : Fin 64) : idx_main_v1 (idx_main_v2 (ix2 n j)) = ix1 j :=
  funext fun a => Fin.ext (by match a with | ⟨0, _⟩ => rfl)
/-- Stage 3 is the linear layer of weights `x4` and bias `x5` on a row of `x0`. -/
theorem lin_v3 (n : Fin 100000) (j : Fin 64) :
    val_main_v3 (F := Ideal) x0 x4 x5 (ix2 n j)
      = Spec.lin (fun k => x0 (ix2 n k)) (fun k j => x4 (ix2 k j)) (fun k => x5 (ix1 k)) j := by
  rw [val_main_v3_apply, val_main_v0_apply, val_main_v2_apply, val_main_v1_apply, bidx_v2]
  simp only [lidx_v0, ridx_v0, Ideal.addf_def]
  rfl

theorem lidx_v4 (n : Fin 100000) (j k : Fin 64) : lidx_main_v4 (ix2 n j) k = ix2 n k :=
  funext fun a => Fin.ext (by match a with | ⟨0, _⟩ => rfl | ⟨1, _⟩ => rfl)
theorem ridx_v4 (n : Fin 100000) (j k : Fin 64) : ridx_main_v4 (ix2 n j) k = ix2 k j :=
  funext fun a => Fin.ext (by match a with | ⟨0, _⟩ => rfl | ⟨1, _⟩ => rfl)
theorem bidx_v6 (n : Fin 100000) (j : Fin 64) : idx_main_v5 (idx_main_v6 (ix2 n j)) = ix1 j :=
  funext fun a => Fin.ext (by match a with | ⟨0, _⟩ => rfl)
/-- Stage 7 is the linear layer of weights `x6` and bias `x7` on a row of `x0`. -/
theorem lin_v7 (n : Fin 100000) (j : Fin 64) :
    val_main_v7 (F := Ideal) x0 x6 x7 (ix2 n j)
      = Spec.lin (fun k => x0 (ix2 n k)) (fun k j => x6 (ix2 k j)) (fun k => x7 (ix1 k)) j := by
  rw [val_main_v7_apply, val_main_v4_apply, val_main_v6_apply, val_main_v5_apply, bidx_v6]
  simp only [lidx_v4, ridx_v4, Ideal.addf_def]
  rfl

theorem lidx_v8 (n : Fin 100000) (j k : Fin 64) : lidx_main_v8 (ix2 n j) k = ix2 n k :=
  funext fun a => Fin.ext (by match a with | ⟨0, _⟩ => rfl | ⟨1, _⟩ => rfl)
theorem ridx_v8 (n : Fin 100000) (j k : Fin 64) : ridx_main_v8 (ix2 n j) k = ix2 k j :=
  funext fun a => Fin.ext (by match a with | ⟨0, _⟩ => rfl | ⟨1, _⟩ => rfl)
theorem bidx_v10 (n : Fin 100000) (j : Fin 64) : idx_main_v9 (idx_main_v10 (ix2 n j)) = ix1 j :=
  funext fun a => Fin.ext (by match a with | ⟨0, _⟩ => rfl)
/-- Stage 11 is the linear layer of weights `x8` and bias `x9` on a row of `x0`. -/
theorem lin_v11 (n : Fin 100000) (j : Fin 64) :
    val_main_v11 (F := Ideal) x0 x8 x9 (ix2 n j)
      = Spec.lin (fun k => x0 (ix2 n k)) (fun k j => x8 (ix2 k j)) (fun k => x9 (ix1 k)) j := by
  rw [val_main_v11_apply, val_main_v8_apply, val_main_v10_apply, val_main_v9_apply, bidx_v10]
  simp only [lidx_v8, ridx_v8, Ideal.addf_def]
  rfl

theorem lidx_v12 (n : Fin 100000) (j k : Fin 64) : lidx_main_v12 (ix2 n j) k = ix2 n k :=
  funext fun a => Fin.ext (by match a with | ⟨0, _⟩ => rfl | ⟨1, _⟩ => rfl)
theorem ridx_v12 (n : Fin 100000) (j k : Fin 64) : ridx_main_v12 (ix2 n j) k = ix2 k j :=
  funext fun a => Fin.ext (by match a with | ⟨0, _⟩ => rfl | ⟨1, _⟩ => rfl)
theorem bidx_v14 (n : Fin 100000) (j : Fin 64) : idx_main_v13 (idx_main_v14 (ix2 n j)) = ix1 j :=
  funext fun a => Fin.ext (by match a with | ⟨0, _⟩ => rfl)
/-- Stage 15 is the linear layer of weights `x10` and bias `x11` on a row of `x0`. -/
theorem lin_v15 (n : Fin 100000) (j : Fin 64) :
    val_main_v15 (F := Ideal) x0 x10 x11 (ix2 n j)
      = Spec.lin (fun k => x0 (ix2 n k)) (fun k j => x10 (ix2 k j)) (fun k => x11 (ix1 k)) j := by
  rw [val_main_v15_apply, val_main_v12_apply, val_main_v14_apply, val_main_v13_apply, bidx_v14]
  simp only [lidx_v12, ridx_v12, Ideal.addf_def]
  rfl

theorem lidx_v16 (e : Fin 1000000) (j k : Fin 64) : lidx_main_v16 (ix2 e j) k = ix2 e k :=
  funext fun a => Fin.ext (by match a with | ⟨0, _⟩ => rfl | ⟨1, _⟩ => rfl)
theorem ridx_v16 (e : Fin 1000000) (j k : Fin 64) : ridx_main_v16 (ix2 e j) k = ix2 k j :=
  funext fun a => Fin.ext (by match a with | ⟨0, _⟩ => rfl | ⟨1, _⟩ => rfl)
theorem bidx_v18 (e : Fin 1000000) (j : Fin 64) : idx_main_v17 (idx_main_v18 (ix2 e j)) = ix1 j :=
  funext fun a => Fin.ext (by match a with | ⟨0, _⟩ => rfl)
/-- Stage 19 is the linear layer of weights `x12` and bias `x13` on a row of `x1`. -/
theorem lin_v19 (e : Fin 1000000) (j : Fin 64) :
    val_main_v19 (F := Ideal) x1 x12 x13 (ix2 e j)
      = Spec.lin (fun k => x1 (ix2 e k)) (fun k j => x12 (ix2 k j)) (fun k => x13 (ix1 k)) j := by
  rw [val_main_v19_apply, val_main_v16_apply, val_main_v18_apply, val_main_v17_apply, bidx_v18]
  simp only [lidx_v16, ridx_v16, Ideal.addf_def]
  rfl

/-! ## The edge side's layer normalisation, on the row of stage 35 -/

theorem i36_e (e : Fin 1000000) (k : Fin 64) : idx_main_v36 (ix1 e) k = ix2 e k :=
  funext fun a => Fin.ext (by match a with | ⟨0, _⟩ => rfl | ⟨1, _⟩ => rfl)
theorem i37_e (e : Fin 1000000) (z : Fin 1) : idx_main_v37 (ix2 e z) = ix1 e :=
  funext fun a => Fin.ext (by match a with | ⟨0, _⟩ => rfl)
theorem i40_e (e : Fin 1000000) (j : Fin 64) : idx_main_v40 (ix2 e j) = ix2 e (0 : Fin 1) :=
  funext fun a => Fin.ext (by match a with | ⟨0, _⟩ => rfl | ⟨1, _⟩ => rfl)
theorem i43_e (e : Fin 1000000) (k : Fin 64) : idx_main_v43 (ix1 e) k = ix2 e k :=
  funext fun a => Fin.ext (by match a with | ⟨0, _⟩ => rfl | ⟨1, _⟩ => rfl)
theorem i44_e (e : Fin 1000000) (z : Fin 1) : idx_main_v44 (ix2 e z) = ix1 e :=
  funext fun a => Fin.ext (by match a with | ⟨0, _⟩ => rfl)
theorem i47_e (e : Fin 1000000) (j : Fin 64) : idx_main_v47 (ix2 e j) = ix2 e (0 : Fin 1) :=
  funext fun a => Fin.ext (by match a with | ⟨0, _⟩ => rfl | ⟨1, _⟩ => rfl)
theorem i52_e (e : Fin 1000000) (j : Fin 64) : idx_main_v52 (ix2 e j) = ix2 e (0 : Fin 1) :=
  funext fun a => Fin.ext (by match a with | ⟨0, _⟩ => rfl | ⟨1, _⟩ => rfl)
theorem i55_e (e : Fin 1000000) (j : Fin 64) : idx_main_v54 (idx_main_v55 (ix2 e j)) = ix1 j :=
  funext fun a => Fin.ext (by match a with | ⟨0, _⟩ => rfl)
theorem i58_e (e : Fin 1000000) (j : Fin 64) : idx_main_v57 (idx_main_v58 (ix2 e j)) = ix1 j :=
  funext fun a => Fin.ext (by match a with | ⟨0, _⟩ => rfl)

/-- The row sum: the zero word plus the sum of the row. -/
theorem sum_e (e : Fin 1000000) :
    val_main_v36 (F := Ideal) x0 x1 x2 x3 x8 x9 x10 x11 x12 x13 (ix1 e) = Spec.rsum (fun k => val_main_v35 (F := Ideal) x0 x1 x2 x3 x8 x9 x10 x11 x12 x13 (ix2 e k)) := by
  rw [val_main_v36_apply, val_main_cst_apply]
  simp only [i36_e, Ideal.ofBits_def, Ideal.ofBits_zero_f32, zero_add]
  rfl

/-- The row mean. -/
theorem mean_e (e : Fin 1000000) (z : Fin 1) :
    val_main_v39 (F := Ideal) x0 x1 x2 x3 x8 x9 x10 x11 x12 x13 (ix2 e z) = Spec.mean (fun k => val_main_v35 (F := Ideal) x0 x1 x2 x3 x8 x9 x10 x11 x12 x13 (ix2 e k)) := by
  rw [val_main_v39_apply, val_main_v37_apply, val_main_v38_apply, val_main_cst_3_apply, i37_e, sum_e]
  rfl

/-- The deviation from the mean, as the variance's operand. -/
theorem dev_e (e : Fin 1000000) (j : Fin 64) :
    val_main_v41 (F := Ideal) x0 x1 x2 x3 x8 x9 x10 x11 x12 x13 (ix2 e j) = Spec.dev (fun k => val_main_v35 (F := Ideal) x0 x1 x2 x3 x8 x9 x10 x11 x12 x13 (ix2 e k)) j := by
  rw [val_main_v41_apply, val_main_v40_apply, i40_e, mean_e]
  rfl

/-- The deviation from the mean, as the normalised row's operand. -/
theorem dev'_e (e : Fin 1000000) (j : Fin 64) :
    val_main_v48 (F := Ideal) x0 x1 x2 x3 x8 x9 x10 x11 x12 x13 (ix2 e j) = Spec.dev (fun k => val_main_v35 (F := Ideal) x0 x1 x2 x3 x8 x9 x10 x11 x12 x13 (ix2 e k)) j := by
  rw [val_main_v48_apply, val_main_v47_apply, i47_e, mean_e]
  rfl

/-- The mean squared deviation. -/
theorem var_e (e : Fin 1000000) (z : Fin 1) :
    val_main_v46 (F := Ideal) x0 x1 x2 x3 x8 x9 x10 x11 x12 x13 (ix2 e z) = Spec.mean (fun k => Spec.dev (fun k => val_main_v35 (F := Ideal) x0 x1 x2 x3 x8 x9 x10 x11 x12 x13 (ix2 e k)) k * Spec.dev (fun k => val_main_v35 (F := Ideal) x0 x1 x2 x3 x8 x9 x10 x11 x12 x13 (ix2 e k)) k) := by
  rw [val_main_v46_apply, val_main_v44_apply, val_main_v45_apply, val_main_cst_5_apply, i44_e, val_main_v43_apply, val_main_cst_4_apply]
  simp only [i43_e, val_main_v42_apply, dev_e, Ideal.mulf_def, Ideal.ofBits_def, Ideal.ofBits_zero_f32, zero_add]
  rfl

/-- The inverse standard deviation. -/
theorem istd_e (e : Fin 1000000) (z : Fin 1) :
    val_main_v51 (F := Ideal) x0 x1 x2 x3 x8 x9 x10 x11 x12 x13 (ix2 e z) = Spec.istd (fun k => val_main_v35 (F := Ideal) x0 x1 x2 x3 x8 x9 x10 x11 x12 x13 (ix2 e k)) := by
  rw [val_main_v51_apply, val_main_v50_apply, val_main_v49_apply, val_main_cst_6_apply, var_e]
  rfl

/-- The layer normalisation of the row with gain `x14` and shift `x15`. -/
theorem ln_e (e : Fin 1000000) (j : Fin 64) :
    val_main_v59 (F := Ideal) x0 x1 x2 x3 x8 x9 x10 x11 x12 x13 x14 x15 (ix2 e j) = Spec.ln (fun k => val_main_v35 (F := Ideal) x0 x1 x2 x3 x8 x9 x10 x11 x12 x13 (ix2 e k)) (fun k => x14 (ix1 k)) (fun k => x15 (ix1 k)) j := by
  rw [val_main_v59_apply, val_main_v56_apply, val_main_v53_apply, dev'_e, val_main_v52_apply, i52_e, istd_e,
    val_main_v55_apply, val_main_v54_apply, i55_e, val_main_v58_apply, val_main_v57_apply, i58_e]
  rfl

/-! ## The edge output, the gate and the gated message -/

/-- The normalised row is that of the sum of the two gathered rows and the edge's linear image. -/
theorem row35 (e : Fin 1000000) :
    (fun k => val_main_v35 (F := Ideal) x0 x1 x2 x3 x8 x9 x10 x11 x12 x13 (ix2 e k))
      = (fun k => val_main_v26 (F := Ideal) x0 x2 x8 x9 (ix2 e k) + val_main_v33 (F := Ideal) x0 x3 x10 x11 (ix2 e k) + val_main_v19 (F := Ideal) x1 x12 x13 (ix2 e k)) := by
  funext k
  rw [val_main_v35_apply, val_main_v34_apply]
  rfl

/-- The edge output: the rectified layer normalisation plus the edge's row. -/
theorem edge_v61 (e : Fin 1000000) (j : Fin 64) :
    val_main_v61 (F := Ideal) x0 x1 x2 x3 x8 x9 x10 x11 x12 x13 x14 x15 (ix2 e j)
      = Spec.edge (fun k => val_main_v26 (F := Ideal) x0 x2 x8 x9 (ix2 e k)) (fun k => val_main_v33 (F := Ideal) x0 x3 x10 x11 (ix2 e k))
          (fun k => val_main_v19 (F := Ideal) x1 x12 x13 (ix2 e k)) (fun k => x1 (ix2 e k))
          (fun k => x14 (ix1 k)) (fun k => x15 (ix1 k)) j := by
  rw [val_main_v61_apply, val_main_v60_apply, ln_e, val_main_call0_v0_apply, val_main_call0_cst_apply, row35]
  simp only [Ideal.addf_def, Ideal.maximumf_def, Ideal.ofBits_def, Ideal.ofBits_zero_f32]
  rfl

/-- The gate: the logistic of the edge output. -/
theorem gate_v67 (e : Fin 1000000) (j : Fin 64) :
    val_main_v67 (F := Ideal) x0 x1 x2 x3 x8 x9 x10 x11 x12 x13 x14 x15 (ix2 e j) = Spec.sig (val_main_v61 (F := Ideal) x0 x1 x2 x3 x8 x9 x10 x11 x12 x13 x14 x15 (ix2 e j)) := by
  rw [val_main_v67_apply, val_main_v66_apply, val_main_cst_8_apply, val_main_v65_apply, val_main_v64_apply,
    val_main_cst_7_apply, val_main_v63_apply, val_main_v62_apply]
  rfl

/-- The gated message: the gathered row times the gate. -/
theorem msg_v75 (e : Fin 1000000) (j : Fin 64) :
    val_main_v75 (F := Ideal) x0 x1 x2 x3 x6 x7 x8 x9 x10 x11 x12 x13 x14 x15 (ix2 e j)
      = val_main_v74 (F := Ideal) x0 x2 x6 x7 (ix2 e j) * val_main_v67 (F := Ideal) x0 x1 x2 x3 x8 x9 x10 x11 x12 x13 x14 x15 (ix2 e j) := by
  rw [val_main_v75_apply]
  rfl

/-! ## The node side's layer normalisation, on the row of stage 85 -/

theorem i86_n (n : Fin 100000) (k : Fin 64) : idx_main_v86 (ix1 n) k = ix2 n k :=
  funext fun a => Fin.ext (by match a with | ⟨0, _⟩ => rfl | ⟨1, _⟩ => rfl)
theorem i87_n (n : Fin 100000) (z : Fin 1) : idx_main_v87 (ix2 n z) = ix1 n :=
  funext fun a => Fin.ext (by match a with | ⟨0, _⟩ => rfl)
theorem i90_n (n : Fin 100000) (j : Fin 64) : idx_main_v90 (ix2 n j) = ix2 n (0 : Fin 1) :=
  funext fun a => Fin.ext (by match a with | ⟨0, _⟩ => rfl | ⟨1, _⟩ => rfl)
theorem i93_n (n : Fin 100000) (k : Fin 64) : idx_main_v93 (ix1 n) k = ix2 n k :=
  funext fun a => Fin.ext (by match a with | ⟨0, _⟩ => rfl | ⟨1, _⟩ => rfl)
theorem i94_n (n : Fin 100000) (z : Fin 1) : idx_main_v94 (ix2 n z) = ix1 n :=
  funext fun a => Fin.ext (by match a with | ⟨0, _⟩ => rfl)
theorem i97_n (n : Fin 100000) (j : Fin 64) : idx_main_v97 (ix2 n j) = ix2 n (0 : Fin 1) :=
  funext fun a => Fin.ext (by match a with | ⟨0, _⟩ => rfl | ⟨1, _⟩ => rfl)
theorem i102_n (n : Fin 100000) (j : Fin 64) : idx_main_v102 (ix2 n j) = ix2 n (0 : Fin 1) :=
  funext fun a => Fin.ext (by match a with | ⟨0, _⟩ => rfl | ⟨1, _⟩ => rfl)
theorem i105_n (n : Fin 100000) (j : Fin 64) : idx_main_v104 (idx_main_v105 (ix2 n j)) = ix1 j :=
  funext fun a => Fin.ext (by match a with | ⟨0, _⟩ => rfl)
theorem i108_n (n : Fin 100000) (j : Fin 64) : idx_main_v107 (idx_main_v108 (ix2 n j)) = ix1 j :=
  funext fun a => Fin.ext (by match a with | ⟨0, _⟩ => rfl)

/-- The row sum: the zero word plus the sum of the row. -/
theorem sum_n (n : Fin 100000) :
    val_main_v86 (F := Ideal) x0 x1 x2 x3 x4 x5 x6 x7 x8 x9 x10 x11 x12 x13 x14 x15 (ix1 n) = Spec.rsum (fun k => val_main_v85 (F := Ideal) x0 x1 x2 x3 x4 x5 x6 x7 x8 x9 x10 x11 x12 x13 x14 x15 (ix2 n k)) := by
  rw [val_main_v86_apply, val_main_cst_14_apply]
  simp only [i86_n, Ideal.ofBits_def, Ideal.ofBits_zero_f32, zero_add]
  rfl

/-- The row mean. -/
theorem mean_n (n : Fin 100000) (z : Fin 1) :
    val_main_v89 (F := Ideal) x0 x1 x2 x3 x4 x5 x6 x7 x8 x9 x10 x11 x12 x13 x14 x15 (ix2 n z) = Spec.mean (fun k => val_main_v85 (F := Ideal) x0 x1 x2 x3 x4 x5 x6 x7 x8 x9 x10 x11 x12 x13 x14 x15 (ix2 n k)) := by
  rw [val_main_v89_apply, val_main_v87_apply, val_main_v88_apply, val_main_cst_15_apply, i87_n, sum_n]
  rfl

/-- The deviation from the mean, as the variance's operand. -/
theorem dev_n (n : Fin 100000) (j : Fin 64) :
    val_main_v91 (F := Ideal) x0 x1 x2 x3 x4 x5 x6 x7 x8 x9 x10 x11 x12 x13 x14 x15 (ix2 n j) = Spec.dev (fun k => val_main_v85 (F := Ideal) x0 x1 x2 x3 x4 x5 x6 x7 x8 x9 x10 x11 x12 x13 x14 x15 (ix2 n k)) j := by
  rw [val_main_v91_apply, val_main_v90_apply, i90_n, mean_n]
  rfl

/-- The deviation from the mean, as the normalised row's operand. -/
theorem dev'_n (n : Fin 100000) (j : Fin 64) :
    val_main_v98 (F := Ideal) x0 x1 x2 x3 x4 x5 x6 x7 x8 x9 x10 x11 x12 x13 x14 x15 (ix2 n j) = Spec.dev (fun k => val_main_v85 (F := Ideal) x0 x1 x2 x3 x4 x5 x6 x7 x8 x9 x10 x11 x12 x13 x14 x15 (ix2 n k)) j := by
  rw [val_main_v98_apply, val_main_v97_apply, i97_n, mean_n]
  rfl

/-- The mean squared deviation. -/
theorem var_n (n : Fin 100000) (z : Fin 1) :
    val_main_v96 (F := Ideal) x0 x1 x2 x3 x4 x5 x6 x7 x8 x9 x10 x11 x12 x13 x14 x15 (ix2 n z) = Spec.mean (fun k => Spec.dev (fun k => val_main_v85 (F := Ideal) x0 x1 x2 x3 x4 x5 x6 x7 x8 x9 x10 x11 x12 x13 x14 x15 (ix2 n k)) k * Spec.dev (fun k => val_main_v85 (F := Ideal) x0 x1 x2 x3 x4 x5 x6 x7 x8 x9 x10 x11 x12 x13 x14 x15 (ix2 n k)) k) := by
  rw [val_main_v96_apply, val_main_v94_apply, val_main_v95_apply, val_main_cst_17_apply, i94_n, val_main_v93_apply, val_main_cst_16_apply]
  simp only [i93_n, val_main_v92_apply, dev_n, Ideal.mulf_def, Ideal.ofBits_def, Ideal.ofBits_zero_f32, zero_add]
  rfl

/-- The inverse standard deviation. -/
theorem istd_n (n : Fin 100000) (z : Fin 1) :
    val_main_v101 (F := Ideal) x0 x1 x2 x3 x4 x5 x6 x7 x8 x9 x10 x11 x12 x13 x14 x15 (ix2 n z) = Spec.istd (fun k => val_main_v85 (F := Ideal) x0 x1 x2 x3 x4 x5 x6 x7 x8 x9 x10 x11 x12 x13 x14 x15 (ix2 n k)) := by
  rw [val_main_v101_apply, val_main_v100_apply, val_main_v99_apply, val_main_cst_18_apply, var_n]
  rfl

/-- The layer normalisation of the row with gain `x16` and shift `x17`. -/
theorem ln_n (n : Fin 100000) (j : Fin 64) :
    val_main_v109 (F := Ideal) x0 x1 x2 x3 x4 x5 x6 x7 x8 x9 x10 x11 x12 x13 x14 x15 x16 x17 (ix2 n j) = Spec.ln (fun k => val_main_v85 (F := Ideal) x0 x1 x2 x3 x4 x5 x6 x7 x8 x9 x10 x11 x12 x13 x14 x15 (ix2 n k)) (fun k => x16 (ix1 k)) (fun k => x17 (ix1 k)) j := by
  rw [val_main_v109_apply, val_main_v106_apply, val_main_v103_apply, dev'_n, val_main_v102_apply, i102_n, istd_n,
    val_main_v105_apply, val_main_v104_apply, i105_n, val_main_v108_apply, val_main_v107_apply, i108_n]
  rfl

/-! ## The node output -/

/-- The normalised row is the node's linear image plus the quotient of the two sums over incoming edges. -/
theorem row85 (n : Fin 100000) :
    (fun k => val_main_v85 (F := Ideal) x0 x1 x2 x3 x4 x5 x6 x7 x8 x9 x10 x11 x12 x13 x14 x15 (ix2 n k))
      = (fun k => val_main_v3 (F := Ideal) x0 x4 x5 (ix2 n k)
          + Ideal.div (val_main_v78 (F := Ideal) x0 x1 x2 x3 x6 x7 x8 x9 x10 x11 x12 x13 x14 x15 (ix2 n k)) (val_main_v81 (F := Ideal) x0 x1 x2 x3 x8 x9 x10 x11 x12 x13 x14 x15 (ix2 n k) + Spec.epsDiv)) := by
  funext k
  rw [val_main_v85_apply, val_main_v84_apply, val_main_v83_apply, val_main_v82_apply, val_main_cst_13_apply]
  rfl

/-- The node output: the rectified layer normalisation plus the node's row. -/
theorem node_v111 (n : Fin 100000) (j : Fin 64) :
    val_main_v111 (F := Ideal) x0 x1 x2 x3 x4 x5 x6 x7 x8 x9 x10 x11 x12 x13 x14 x15 x16 x17 (ix2 n j)
      = Spec.node (fun k => x0 (ix2 n k)) (fun k => val_main_v3 (F := Ideal) x0 x4 x5 (ix2 n k))
          (fun k => val_main_v78 (F := Ideal) x0 x1 x2 x3 x6 x7 x8 x9 x10 x11 x12 x13 x14 x15 (ix2 n k)) (fun k => val_main_v81 (F := Ideal) x0 x1 x2 x3 x8 x9 x10 x11 x12 x13 x14 x15 (ix2 n k))
          (fun k => x16 (ix1 k)) (fun k => x17 (ix1 k)) j := by
  rw [val_main_v111_apply, val_main_v110_apply, ln_n, val_main_call1_v0_apply, val_main_call1_cst_apply, row85]
  simp only [Ideal.addf_def, Ideal.maximumf_def, Ideal.ofBits_def, Ideal.ofBits_zero_f32]
  rfl

end Cert.ReferenceIdeal.HandRef

end
-- ==== Proof.Ref.Gather.lean ====
/-
  The reference's three gathers and two scattered sums.

  A gather of rows of a node table at the edges' positions: the reference adds the table's row count to a negative
  position and gathers at the column of the results. Where every position, read unsigned, is below the row count, no
  position is negative, the column is the positions themselves, and the gathered row of an edge is the table's row at the
  edge's position.

  Each scattered sum is the scattered sum of its updates into an array of zeros at the column of target positions.
-/
import proofs.«423548_j53180285059709_3_alg».proof.Proof.Gen.ReferenceIdeal.Read
import proofs.«423548_j53180285059709_3_alg».proof.Proof.LibTake
import proofs.«423548_j53180285059709_3_alg».proof.Proof.LibGatherRows
import Idealize.ShloMosaic.Lib.ValueIdx
import Idealize.ShloMosaic.Lib.Pipeline.Value

set_option maxRecDepth 16384

noncomputable section

namespace Cert.ReferenceIdeal.HandRef

open Cert.ReferenceIdeal Cert.ReferenceIdeal.Gen Cert.ReferenceIdeal.Read Idealize.ShloMosaic Idealize.ShloMosaic.ValueIdx

/-- A column of positions read at a row is the position of that row. -/
theorem col_apply (idx : IVec S1000000 32) (e : Fin 1000000) :
    broadcastInDim S1000000x1 ![0] bcast_S1000000_S1000000x1_0 idx (ix2 e (0 : Fin 1)) = idx (ix1 e) :=
  broadcastInDim_apply _ bcast_S1000000_S1000000x1_0 idx (ix2 e (0 : Fin 1)) (ix1 e) (fun a => match a with
    | ⟨0, _⟩ => by show e.val = if (1000000 : Nat) = 1 then 0 else e.val; rw [if_neg (by decide)])

/-- Rows of a table of 100000 rows of 64 gathered at a column of in-range positions: the row of edge `e` is the table's
    row at `e`'s position. -/
theorem rows64_apply {α : Type} (x : S100000x64.Idx → α) (idx : IVec S1000000 32) (h : LibTake.InRange 100000 idx)
    (e : Fin 1000000) (j : Fin 64) :
    Host.gather gather_S100000x64_S1000000x1_S1000000x64_1_0_n_n_0_1_164 x
        (broadcastInDim S1000000x1 ![0] bcast_S1000000_S1000000x1_0 idx) (ix2 e j)
      = x (ix2 (⟨(idx (ix1 e)).toNat, h (ix1 e)⟩ : Fin 100000) j) := by
  have hb := col_apply idx e
  have hlt : (broadcastInDim S1000000x1 ![0] bcast_S1000000_S1000000x1_0 idx (ix2 e (0 : Fin 1))).toNat < 100000 := by
    rw [hb]; exact h (ix1 e)
  refine (LibGatherRows.gather_apply_of_fields (N := 100000) (C := 64) (E := 1000000) (by norm_num)
    gather_S100000x64_S1000000x1_S1000000x64_1_0_n_n_0_1_164 rfl rfl rfl rfl rfl rfl rfl x _ e j hlt).trans ?_
  exact congrArg (fun r : Fin 100000 => x (ix2 r j)) (Fin.ext (congrArg BitVec.toNat hb))

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 : (⟨S64x64, .f32⟩ : BufTy).Contents (Elt Ideal)) (x13 : (⟨S64, .f32⟩ : BufTy).Contents (Elt Ideal))
  (x14 x15 x16 x17 : (⟨S64, .f32⟩ : BufTy).Contents (Elt Ideal))

/-! ## The three gathers -/

/-- Stage 26 as an array: the gather of stage 11's rows at the column of the positions `x2`. -/
theorem gather_v26_eq (hsrc : LibTake.InRange (s := S1000000) 100000 x2) :
    val_main_v26 (F := Ideal) x0 x2 x8 x9
      = Host.gather gather_S100000x64_S1000000x1_S1000000x64_1_0_n_n_0_1_164 (val_main_v11 (F := Ideal) x0 x8 x9)
          (broadcastInDim S1000000x1 ![0] bcast_S1000000_S1000000x1_0 x2) := by
  unfold val_main_v26 val_main_v25 val_main_v24 val_main_v21 val_main_v20 val_main_c
  exact LibTake.index_eq_gather_idx (N := 100000) (sx := S100000x64) (sv := S1000000x1) (so := S1000000x64)
    (sc := S_) (si := S1000000) gather_S100000x64_S1000000x1_S1000000x64_1_0_n_n_0_1_164
    (val_main_v11 (F := Ideal) x0 x8 x9) ![] bcast_S_S1000000 ![0] bcast_S1000000_S1000000x1_0 x2
    _ (by norm_num) hsrc

/-- Stage 26 at an edge and a column: stage 11 at the edge's position and that column. -/
theorem gather_v26 (hsrc : LibTake.InRange (s := S1000000) 100000 x2) (e : Fin 1000000) (k : Fin 64) :
    val_main_v26 (F := Ideal) x0 x2 x8 x9 (ix2 e k)
      = val_main_v11 (F := Ideal) x0 x8 x9 (ix2 (⟨(x2 (ix1 e)).toNat, hsrc (ix1 e)⟩ : Fin 100000) k) := by
  rw [gather_v26_eq x0 x2 x8 x9 hsrc]
  exact rows64_apply _ x2 hsrc e k

/-- Stage 33 as an array: the gather of stage 15's rows at the column of the positions `x3`. -/
theorem gather_v33_eq (hdst : LibTake.InRange (s := S1000000) 100000 x3) :
    val_main_v33 (F := Ideal) x0 x3 x10 x11
      = Host.gather gather_S100000x64_S1000000x1_S1000000x64_1_0_n_n_0_1_164 (val_main_v15 (F := Ideal) x0 x10 x11)
          (broadcastInDim S1000000x1 ![0] bcast_S1000000_S1000000x1_0 x3) := by
  unfold val_main_v33 val_main_v32 val_main_v31 val_main_v28 val_main_v27 val_main_c_1
  exact LibTake.index_eq_gather_idx (N := 100000) (sx := S100000x64) (sv := S1000000x1) (so := S1000000x64)
    (sc := S_) (si := S1000000) gather_S100000x64_S1000000x1_S1000000x64_1_0_n_n_0_1_164
    (val_main_v15 (F := Ideal) x0 x10 x11) ![] bcast_S_S1000000 ![0] bcast_S1000000_S1000000x1_0 x3
    _ (by norm_num) hdst

/-- Stage 33 at an edge and a column: stage 15 at the edge's position and that column. -/
theorem gather_v33 (hdst : LibTake.InRange (s := S1000000) 100000 x3) (e : Fin 1000000) (k : Fin 64) :
    val_main_v33 (F := Ideal) x0 x3 x10 x11 (ix2 e k)
      = val_main_v15 (F := Ideal) x0 x10 x11 (ix2 (⟨(x3 (ix1 e)).toNat, hdst (ix1 e)⟩ : Fin 100000) k) := by
  rw [gather_v33_eq x0 x3 x10 x11 hdst]
  exact rows64_apply _ x3 hdst e k

/-- Stage 74 as an array: the gather of stage 7's rows at the column of the positions `x2`. -/
theorem gather_v74_eq (hsrc : LibTake.InRange (s := S1000000) 100000 x2) :
    val_main_v74 (F := Ideal) x0 x2 x6 x7
      = Host.gather gather_S100000x64_S1000000x1_S1000000x64_1_0_n_n_0_1_164 (val_main_v7 (F := Ideal) x0 x6 x7)
          (broadcastInDim S1000000x1 ![0] bcast_S1000000_S1000000x1_0 x2) := by
  unfold val_main_v74 val_main_v73 val_main_v72 val_main_v69 val_main_v68 val_main_c_9
  exact LibTake.index_eq_gather_idx (N := 100000) (sx := S100000x64) (sv := S1000000x1) (so := S1000000x64)
    (sc := S_) (si := S1000000) gather_S100000x64_S1000000x1_S1000000x64_1_0_n_n_0_1_164
    (val_main_v7 (F := Ideal) x0 x6 x7) ![] bcast_S_S1000000 ![0] bcast_S1000000_S1000000x1_0 x2
    _ (by norm_num) hsrc

/-- Stage 74 at an edge and a column: stage 7 at the edge's position and that column. -/
theorem gather_v74 (hsrc : LibTake.InRange (s := S1000000) 100000 x2) (e : Fin 1000000) (k : Fin 64) :
    val_main_v74 (F := Ideal) x0 x2 x6 x7 (ix2 e k)
      = val_main_v7 (F := Ideal) x0 x6 x7 (ix2 (⟨(x2 (ix1 e)).toNat, hsrc (ix1 e)⟩ : Fin 100000) k) := by
  rw [gather_v74_eq x0 x2 x6 x7 hsrc]
  exact rows64_apply _ x2 hsrc e k

/-! ## The two scattered sums -/

/-- Stage 78: the gated messages summed into zeros at the column of the target positions. -/
theorem scat_v78 :
    val_main_v78 (F := Ideal) x0 x1 x2 x3 x6 x7 x8 x9 x10 x11 x12 x13 x14 x15
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 x3)
          (val_main_v75 (F := Ideal) x0 x1 x2 x3 x6 x7 x8 x9 x10 x11 x12 x13 x14 x15) := rfl

/-- Stage 81: the gates summed into zeros at the column of the target positions. -/
theorem scat_v81 :
    val_main_v81 (F := Ideal) x0 x1 x2 x3 x8 x9 x10 x11 x12 x13 x14 x15
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 x3)
          (val_main_v67 (F := Ideal) x0 x1 x2 x3 x8 x9 x10 x11 x12 x13 x14 x15) := rfl

end Cert.ReferenceIdeal.HandRef

end
-- ==== Proof.Bridge.lean ====
/-
  The two programs compute one function. Read at the arrays the kernel program was launched with, the reference's edge
  stage and the kernel program's first result are, at every edge and column, the same rectified normalisation of the
  same three linear layers (the third layer of the source's row, the fourth of the target's, a layer of the edge's own
  row) plus the edge's row: the reference gathers rows of the layers it has already formed, the kernel program forms all
  four layers at once side by side and gathers from that, and with every position inside the table both gathers read the
  table's row there. The gates are the logistic of equal arrays, the messages the second layer of the source's row times
  equal gates, so the two pairs of sums over incoming edges add up equal arrays at equal positions from equal zero arrays.
  The node stage then normalises, on both sides, the first layer of the node's row plus the quotient of the same two sums.
-/
import proofs.«423548_j53180285059709_3_alg».proof.Proof.KI.Value
import proofs.«423548_j53180285059709_3_alg».proof.Proof.Ref.Stages
import proofs.«423548_j53180285059709_3_alg».proof.Proof.Ref.Gather

set_option maxRecDepth 16384

noncomputable section

namespace Cert.Proof.Bridge

open Cert.KernelIdeal Cert.KernelIdeal.Gen Cert.KernelIdeal.Hand Cert.KernelIdeal.HandValue
open Cert.ReferenceIdeal.Read Cert.ReferenceIdeal.HandRef
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (hs : LibTake.InRange 100000 (aSrc m c)) (hd : LibTake.InRange 100000 (aDst m c))
include hs hd

/-- The edges' new rows: the kernel program's first result is the reference's edge stage. -/
theorem edge_eq : eji6 m ρ c = val_main_v61 (F := Ideal) (aH m c) (aE m c) (aSrc m c) (aDst m c) (aB1w m c) (aB1b m c) (aB2w m c) (aB2b m c) (aB3w m c) (aB3b m c) (aGe m c) (aBe m c) := by
  funext i
  obtain ⟨e, j, rfl⟩ : ∃ (e : Fin 1000000) (j : Fin 64), i = ix2 e j := ⟨i 0, i 1, eq_ix2 i⟩
  rw [eji_apply m ρ c hs hd e j, edge_v61 _ _ _ _ _ _ _ _ _ _ _ _ e j]
  have ra : (fun k => val_main_v26 (F := Ideal) (aH m c) (aSrc m c) (aB1w m c) (aB1b m c) (ix2 e k))
      = layer (aH m c) (aB1w m c) (aB1b m c) (nodeOf (aSrc m c) hs e) :=
    funext fun k => (gather_v26 _ _ _ _ hs e k).trans (lin_v11 _ _ _ _ k)
  have rb : (fun k => val_main_v33 (F := Ideal) (aH m c) (aDst m c) (aB2w m c) (aB2b m c) (ix2 e k))
      = layer (aH m c) (aB2w m c) (aB2b m c) (nodeOf (aDst m c) hd e) :=
    funext fun k => (gather_v33 _ _ _ _ hd e k).trans (lin_v15 _ _ _ _ k)
  have rc : (fun k => val_main_v19 (F := Ideal) (aE m c) (aB3w m c) (aB3b m c) (ix2 e k))
      = Spec.lin (fun k => aE m c (ix2 e k)) (fun k j => aB3w m c (ix2 k j)) (fun k => aB3b m c (ix1 k)) :=
    funext fun k => lin_v19 _ _ _ e k
  rw [ra, rb, rc]
  rfl

/-- The gates: the logistic of equal arrays. -/
theorem gate_eq : gate7 m ρ c = val_main_v67 (F := Ideal) (aH m c) (aE m c) (aSrc m c) (aDst m c) (aB1w m c) (aB1b m c) (aB2w m c) (aB2b m c) (aB3w m c) (aB3b m c) (aGe m c) (aBe m c) := by
  funext i
  obtain ⟨e, j, rfl⟩ : ∃ (e : Fin 1000000) (j : Fin 64), i = ix2 e j := ⟨i 0, i 1, eq_ix2 i⟩
  rw [gate_apply m ρ c (ix2 e j), gate_v67 _ _ _ _ _ _ _ _ _ _ _ _ e j, edge_eq m ρ c hs hd]

/-- The messages: the second layer of the source's row times the gate. -/
theorem msg_eq : msg6 m ρ c = val_main_v75 (F := Ideal) (aH m c) (aE m c) (aSrc m c) (aDst m c) (aA2w m c) (aA2b m c) (aB1w m c) (aB1b m c) (aB2w m c) (aB2b m c) (aB3w m c) (aB3b m c) (aGe m c) (aBe m c) := by
  funext i
  obtain ⟨e, j, rfl⟩ : ∃ (e : Fin 1000000) (j : Fin 64), i = ix2 e j := ⟨i 0, i 1, eq_ix2 i⟩
  have ra : val_main_v74 (F := Ideal) (aH m c) (aSrc m c) (aA2w m c) (aA2b m c) (ix2 e j)
      = layer (aH m c) (aA2w m c) (aA2b m c) (nodeOf (aSrc m c) hs e) j :=
    (gather_v74 _ _ _ _ hs e j).trans (lin_v7 _ _ _ _ j)
  rw [msg_apply m ρ c hs hd e j, msg_v75 _ _ _ _ _ _ _ _ _ _ _ _ _ _ e j, gate_v67 _ _ _ _ _ _ _ _ _ _ _ _ e j, ra,
    ← congrFun (edge_eq m ρ c hs hd) (ix2 e j), eji_apply m ρ c hs hd e j]

/-- The sums of the messages over incoming edges. -/
theorem ssh_ref : (W7 m ρ c (Proc.devRef .tc main_v17) : S100000x64.Idx → EReal) = val_main_v78 (F := Ideal) (aH m c) (aE m c) (aSrc m c) (aDst m c) (aA2w m c) (aA2b m c) (aB1w m c) (aB1b m c) (aB2w m c) (aB2b m c) (aB3w m c) (aB3b m c) (aGe m c) (aBe m c) := by
  rw [ssh_eq m ρ c, scat_v78, msg_eq m ρ c hs hd]
  rfl

/-- The sums of the gates over incoming edges. -/
theorem ss_ref : (W7 m ρ c (Proc.devRef .tc main_v20) : S100000x64.Idx → EReal) = val_main_v81 (F := Ideal) (aH m c) (aE m c) (aSrc m c) (aDst m c) (aB1w m c) (aB1b m c) (aB2w m c) (aB2b m c) (aB3w m c) (aB3b m c) (aGe m c) (aBe m c) := by
  rw [ss_eq m ρ c, scat_v81, gate_eq m ρ c hs hd]
  rfl

/-- The nodes' new rows: the kernel program's second result is the reference's node stage. -/
theorem node_eq : (W8 m ρ c (Proc.devRef .tc main_v21) : S100000x64.Idx → EReal) = val_main_v111 (F := Ideal) (aH m c) (aE m c) (aSrc m c) (aDst m c) (aA1w m c) (aA1b m c) (aA2w m c) (aA2b m c) (aB1w m c) (aB1b m c) (aB2w m c) (aB2b m c) (aB3w m c) (aB3b m c) (aGe m c) (aBe m c) (aGh m c) (aBh m c) := by
  funext i
  obtain ⟨n, j, rfl⟩ : ∃ (n : Fin 100000) (j : Fin 64), i = ix2 n j := ⟨i 0, i 1, eq_ix2 i⟩
  have r3 : (fun k => val_main_v3 (F := Ideal) (aH m c) (aA1w m c) (aA1b m c) (ix2 n k)) = layer (aH m c) (aA1w m c) (aA1b m c) n :=
    funext fun k => lin_v3 _ _ _ n k
  rw [hout_apply m ρ c n j, node_v111 _ _ _ _ _ _ _ _ _ _ _ _ _ _ _ _ _ _ n j, ssh_ref m ρ c hs hd, ss_ref m ρ c hs hd, r3]

end Cert.Proof.Bridge

end
-- ==== Proof.lean ====
/-
  The certificate of a gated graph convolution layer: three tiled kernels (the four node projections at once; the edge
  update; the node update) with gathers and sums over incoming edges between them, against a plain array program.

  Frames. Each of the two kernel programs is eight items — five stretches of host operations and three kernel regions —
  and its run is the chain of them: a host stretch computes its results from the buffers as it finds them, a region hands
  its input arrays back as they entered and leaves each output array at what its grid points wrote. No item writes an
  argument. The reference is host operations only; its run is generated.

  Value. Under the precondition every edge's source and target lies inside the node table (the added conjuncts; the
  reference indexes the table with them), and then both programs compute, for every edge and every node, the same row
  function of the same rows of the same arrays. Float inputs are never assumed finite by the proof: no step uses a law
  that fails at an infinity.

  The idealized kernel program is the kernel program's own text read at the extended reals: the idealization rewrote no
  operation, so there is nothing to preserve.
-/
import proofs.«423548_j53180285059709_3_alg».proof.Defs
import proofs.«423548_j53180285059709_3_alg».proof.Proof.Gen.Kernel
import proofs.«423548_j53180285059709_3_alg».proof.Proof.Gen.KernelIdeal
import proofs.«423548_j53180285059709_3_alg».proof.Proof.Gen.ReferenceIdeal
import proofs.«423548_j53180285059709_3_alg».proof.Proof.Gen.ReferenceIdeal.Run
import proofs.«423548_j53180285059709_3_alg».proof.Proof.Gen.ReferenceIdeal.Read
import proofs.«423548_j53180285059709_3_alg».proof.Proof.Gen.Pre_finite_inputs
import proofs.«423548_j53180285059709_3_alg».proof.Proof.K.Run
import proofs.«423548_j53180285059709_3_alg».proof.Proof.KI.Run
import proofs.«423548_j53180285059709_3_alg».proof.Proof.KI.Value
import proofs.«423548_j53180285059709_3_alg».proof.Proof.PreRange
import proofs.«423548_j53180285059709_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to its end and leaves its arguments as launched. -/
theorem frame_kernel : Cert.frame_Kernel := fun m g _ => Cert.Kernel.Hand.frame (F := Bits) m g

/-- So does the idealized kernel program. -/
theorem frame_kernelIdeal : Cert.frame_KernelIdeal := fun m g _ => Cert.KernelIdeal.Hand.frame (F := Ideal) m g

/-- And the reference: its generated run, the results dropped. -/
theorem frame_referenceIdeal : Cert.frame_ReferenceIdeal := fun m g _ =>
  (θ_run Cert.ReferenceIdeal.defs _ _).mono (fun _ h c => (h c).2.2) (Cert.ReferenceIdeal.Value.run (F := Ideal) m g)

/-- The idealization rewrote nothing. -/
theorem preserves : Cert.preserves_Kernel_KernelIdeal := trivial

section Algebraic

open Cert.KernelIdeal Cert.KernelIdeal.Gen Cert.KernelIdeal.Hand Cert.KernelIdeal.HandValue

set_option hygiene false in
/-- A buffer no item writes is read back at its launch contents. -/
local macro "kept% " a:term : term =>
  `((h c _ (mem_uc $a (by decide))).trans (W8_stable m g c $a (by decide) (by decide) (by decide) (by decide) (by decide) (by decide) (by decide) (by decide) (by decide)))

/-- From memories that agree on the arguments both idealized programs run to their ends with equal results: the kernel
    program's two result buffers end at the last contents of its fold, and the reference's two stages, read at the same
    arrays, are those contents. -/
theorem algebraic : Cert.algebraic_KernelIdeal_ReferenceIdeal := by
  intro m g m' g' hpre hagree
  have hr : ∀ c : Dev nD, LibTake.InRange 100000 (aSrc m c) ∧ LibTake.InRange 100000 (aDst m c) := fun c =>
    Cert.Pre_finite_inputs.HandPre.inRange_of_pre _ _ _ _ _ _ _ _ _ _ _ _ _ _ _ _ _ _ (hpre c)
  refine ⟨fun c => W8 m g c (Proc.devRef .tc main_v21), fun c => W8 m g c (Proc.devRef .tc main_v8_0), ?_, ?_⟩
  · exact (θ_run defs _ _).mono (fun r h c => ⟨h c _ (mem_uc main_v21 (by decide)), h c _ (mem_uc main_v8_0 (by decide)),
      kept% main_arg0, kept% main_arg1, kept% main_arg2, kept% main_arg3, kept% main_arg4, kept% main_arg5, kept% main_arg6, kept% main_arg7, kept% main_arg8, kept% main_arg9, kept% main_arg10, kept% main_arg11, kept% main_arg12, kept% main_arg13, kept% main_arg14, kept% main_arg15, kept% main_arg16, kept% main_arg17⟩) (run_all m g)
  · refine (θ_run Cert.ReferenceIdeal.defs _ _).mono (fun r h c => ⟨?_, ?_, (h c).2.2⟩)
      (Cert.ReferenceIdeal.Value.run (F := Ideal) m' g')
    · rw [(h c).1, Cert.ReferenceIdeal.Read.val_main_v111_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
      exact (Cert.Proof.Bridge.node_eq m g c (hr c).1 (hr c).2).symm
    · rw [(h c).2.1, Cert.ReferenceIdeal.Read.val_main_v61_eq, (hagree c).1, (hagree c).2.1, (hagree c).2.2.1, (hagree c).2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1]
      exact ((Cert.Proof.Bridge.edge_eq m g c (hr c).1 (hr c).2).symm.trans (eji_final m g c).symm)

end Algebraic

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
